-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S160000x51 : Shape := ⟨2, ![160000, 51]⟩
abbrev S10000x3 : Shape := ⟨2, ![10000, 3]⟩
abbrev S512x1076 : Shape := ⟨2, ![512, 1076]⟩
abbrev S512 : Shape := ⟨1, ![512]⟩
abbrev S512x512 : Shape := ⟨2, ![512, 512]⟩
abbrev S256x512 : Shape := ⟨2, ![256, 512]⟩
abbrev S256 : Shape := ⟨1, ![256]⟩
abbrev S256x256 : Shape := ⟨2, ![256, 256]⟩
abbrev S1x256 : Shape := ⟨2, ![1, 256]⟩
abbrev S512x1024 : Shape := ⟨2, ![512, 1024]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S160000x51 : S_.BroadcastsInDim S160000x51 (![] : Fin 0 → Fin S160000x51.rank)
  reducesTo_S160000x51_S_d0_1 : S160000x51.ReducesTo [0, 1] S_
  bcast_S_S10000x3 : S_.BroadcastsInDim S10000x3 (![] : Fin 0 → Fin S10000x3.rank)
  reducesTo_S10000x3_S_d0_1 : S10000x3.ReducesTo [0, 1] S_
  bcast_S_S512x1076 : S_.BroadcastsInDim S512x1076 (![] : Fin 0 → Fin S512x1076.rank)
  reducesTo_S512x1076_S_d0_1 : S512x1076.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S512x1024 : S_.BroadcastsInDim S512x1024 (![] : Fin 0 → Fin S512x1024.rank)
  reducesTo_S512x1024_S_d0_1 : S512x1024.ReducesTo [0, 1] S_
  bcast_S_S2x160000 : S_.BroadcastsInDim S2x160000 (![] : Fin 0 → Fin S2x160000.rank)
  reducesTo_S2x160000_S_d0_1 : S2x160000.ReducesTo [0, 1] S_

variable [Facts]

def fn_part6 {F : FTy → Type} [FloatOps F] (main_arg1 : IVec S2x160000 32) (main_v98 : IVec S_ 1) (main_v101 : IVec S_ 1) : IVec S_ 1 :=
  let main_v102 : IVec S_ 1 := andi main_v98 main_v101
  let main_c_40 : IVec S_ 32 := constantI S_ 32 10000#32
  let main_v103 : IVec S2x160000 32 := broadcastInDim S2x160000 ![] bcast_S_S2x160000 main_c_40
  let main_v104 : IVec S2x160000 1 := cmpi .slt main_arg1 main_v103
  let main_c_41 : IVec S_ 1 := constantI S_ 1 1#1
  let main_v105 : IVec S_ 1 := (fun x v => Host.reduce IntOp.andi x v reducesTo_S2x160000_S_d0_1 h_S_) main_v104 main_c_41
  let main_v106 : IVec S_ 1 := andi main_v102 main_v105
  main_v106

def fn_part5 {F : FTy → Type} [FloatOps F] (main_arg1 : IVec S2x160000 32) (main_arg19 : FVec F S512x512 .f32) (main_arg20 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x512 .f32 := Host.absf main_arg19
  let main_cst_34 : FVec F S_ .f32 := constant S_ .f32 0x7F800000#32
  let main_v90 : FVec F S512x512 .f32 := broadcastInDim S512x512 ![] bcast_S_S512x512 main_cst_34
  let main_v91 : IVec S512x512 1 := cmpf .olt main_v89 main_v90
  let main_c_35 : IVec S_ 1 := constantI S_ 1 1#1
  let main_v92 : IVec S_ 1 := (fun x v => Host.reduce IntOp.andi x v reducesTo_S512x512_S_d0_1 h_S_) main_v91 main_c_35
  let main_v93 : IVec S_ 1 := andi main_v88 main_v92
  let main_v94 : FVec F S512 .f32 := Host.absf main_arg20
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_c_38 : IVec S_ 32 := constantI S_ 32 4294957296#32
  let main_v99 : IVec S2x160000 32 := broadcastInDim S2x160000 ![] bcast_S_S2x160000 main_c_38
  let main_v100 : IVec S2x160000 1 := cmpi .sge main_arg1 main_v99
  let main_c_39 : IVec S_ 1 := constantI S_ 1 1#1
  let main_v101 : IVec S_ 1 := (fun x v => Host.reduce IntOp.andi x v reducesTo_S2x160000_S_d0_1 h_S_) main_v100 main_c_39
  fn_part6 (F := F) main_arg1 main_v98 main_v101

def fn_part4 {F : FTy → Type} [FloatOps F] (main_arg1 : IVec S2x160000 32) (main_arg15 : FVec F S512x1024 .f32) (main_arg16 : FVec F S512 .f32) (main_arg17 : FVec F S512x512 .f32) (main_arg18 : FVec F S512 .f32) (main_arg19 : FVec F S512x512 .f32) (main_arg20 : FVec F S512 .f32) (main_v63 : IVec S_ 1) (main_v67 : IVec S_ 1) : IVec S_ 1 :=
  let main_v68 : IVec S_ 1 := andi main_v63 main_v67
  let main_v69 : FVec F S512x1024 .f32 := Host.absf main_arg15
  let main_cst_26 : FVec F S_ .f32 := constant S_ .f32 0x7F800000#32
  let main_v70 : FVec F S512x1024 .f32 := broadcastInDim S512x1024 ![] bcast_S_S512x1024 main_cst_26
  let main_v71 : IVec S512x1024 1 := cmpf .olt main_v69 main_v70
  let main_c_27 : IVec S_ 1 := constantI S_ 1 1#1
  let main_v72 : IVec S_ 1 := (fun x v => Host.reduce IntOp.andi x v reducesTo_S512x1024_S_d0_1 h_S_) main_v71 main_c_27
  let main_v73 : IVec S_ 1 := andi main_v68 main_v72
  let main_v74 : FVec F S512 .f32 := Host.absf main_arg16
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x512 .f32 := Host.absf main_arg17
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg18
  let main_cst_32 : FVec F S_ .f32 := constant S_ .f32 0x7F800000#32
  fn_part5 (F := F) main_arg1 main_arg19 main_arg20 main_v83 main_v84 main_cst_32

def fn_part3 {F : FTy → Type} [FloatOps F] (main_arg1 : IVec S2x160000 32) (main_arg12 : FVec F S256x256 .f32) (main_arg13 : FVec F S256 .f32) (main_arg14 : FVec F S1x256 .f32) (main_arg15 : FVec F S512x1024 .f32) (main_arg16 : FVec F S512 .f32) (main_arg17 : FVec F S512x512 .f32) (main_arg18 : FVec F S512 .f32) (main_arg19 : FVec F S512x512 .f32) (main_arg20 : FVec F S512 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S1x256 .f32 := Host.absf main_arg14
  let main_cst_24 : FVec F S_ .f32 := constant S_ .f32 0x7F800000#32
  let main_v65 : FVec F S1x256 .f32 := broadcastInDim S1x256 ![] bcast_S_S1x256 main_cst_24
  let main_v66 : IVec S1x256 1 := cmpf .olt main_v64 main_v65
  let main_c_25 : IVec S_ 1 := constantI S_ 1 1#1
  let main_v67 : IVec S_ 1 := (fun x v => Host.reduce IntOp.andi x v reducesTo_S1x256_S_d0_1 h_S_) main_v66 main_c_25
  fn_part4 (F := F) main_arg1 main_arg15 main_arg16 main_arg17 main_arg18 main_arg19 main_arg20 main_v63 main_v67

def fn_part2 {F : FTy → Type} [FloatOps F] (main_arg1 : IVec S2x160000 32) (main_arg8 : FVec F S512x512 .f32) (main_arg9 : FVec F S512 .f32) (main_arg10 : FVec F S256x512 .f32) (main_arg11 : FVec F S256 .f32) (main_arg12 : FVec F S256x256 .f32) (main_arg13 : FVec F S256 .f32) (main_arg14 : FVec F S1x256 .f32) (main_arg15 : FVec F S512x1024 .f32) (main_arg16 : FVec F S512 .f32) (main_arg17 : FVec F S512x512 .f32) (main_arg18 : FVec F S512 .f32) (main_arg19 : FVec F S512x512 .f32) (main_arg20 : FVec F S512 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S256x512 .f32 := Host.absf main_arg10
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_arg12 main_arg13 main_arg14 main_arg15 main_arg16 main_arg17 main_arg18 main_arg19 main_arg20 main_v48 main_v49 main_v50

def fn_part1 {F : FTy → Type} [FloatOps F] (main_arg1 : IVec S2x160000 32) (main_arg5 : FVec F S512 .f32) (main_arg6 : FVec F S512x512 .f32) (main_arg7 : FVec F S512 .f32) (main_arg8 : FVec F S512x512 .f32) (main_arg9 : FVec F S512 .f32) (main_arg10 : FVec F S256x512 .f32) (main_arg11 : FVec F S256 .f32) (main_arg12 : FVec F S256x256 .f32) (main_arg13 : FVec F S256 .f32) (main_arg14 : FVec F S1x256 .f32) (main_arg15 : FVec F S512x1024 .f32) (main_arg16 : FVec F S512 .f32) (main_arg17 : FVec F S512x512 .f32) (main_arg18 : FVec F S512 .f32) (main_arg19 : FVec F S512x512 .f32) (main_arg20 : FVec F S512 .f32) (main_v13 : IVec S_ 1) (main_v16 : IVec S512x1076 1) : IVec S_ 1 :=
  let main_c_5 : IVec S_ 1 := constantI S_ 1 1#1
  let main_v17 : IVec S_ 1 := (fun x v => Host.reduce IntOp.andi x v reducesTo_S512x1076_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_v33

def fn {F : FTy → Type} [FloatOps F] (main_arg0 : FVec F S10000x512 .f32) (main_arg1 : IVec S2x160000 32) (main_arg2 : FVec F S160000x51 .f32) (main_arg3 : FVec F S10000x3 .f32) (main_arg4 : FVec F S512x1076 .f32) (main_arg5 : FVec F S512 .f32) (main_arg6 : FVec F S512x512 .f32) (main_arg7 : FVec F S512 .f32) (main_arg8 : FVec F S512x512 .f32) (main_arg9 : FVec F S512 .f32) (main_arg10 : FVec F S256x512 .f32) (main_arg11 : FVec F S256 .f32) (main_arg12 : FVec F S256x256 .f32) (main_arg13 : FVec F S256 .f32) (main_arg14 : FVec F S1x256 .f32) (main_arg15 : FVec F S512x1024 .f32) (main_arg16 : FVec F S512 .f32) (main_arg17 : FVec F S512x512 .f32) (main_arg18 : FVec F S512 .f32) (main_arg19 : FVec F S512x512 .f32) (main_arg20 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S160000x51 .f32 := Host.absf main_arg2
  let main_cst_0 : FVec F S_ .f32 := constant S_ .f32 0x7F800000#32
  let main_v5 : FVec F S160000x51 .f32 := broadcastInDim S160000x51 ![] bcast_S_S160000x51 main_cst_0
  let main_v6 : IVec S160000x51 1 := cmpf .olt main_v4 main_v5
  let main_c_1 : IVec S_ 1 := constantI S_ 1 1#1
  let main_v7 : IVec S_ 1 := (fun x v => Host.reduce IntOp.andi x v reducesTo_S160000x51_S_d0_1 h_S_) main_v6 main_c_1
  let main_v8 : IVec S_ 1 := andi main_v3 main_v7
  let main_v9 : FVec F S10000x3 .f32 := Host.absf main_arg3
  let main_cst_2 : FVec F S_ .f32 := constant S_ .f32 0x7F800000#32
  let main_v10 : FVec F S10000x3 .f32 := broadcastInDim S10000x3 ![] bcast_S_S10000x3 main_cst_2
  let main_v11 : IVec S10000x3 1 := cmpf .olt main_v9 main_v10
  let main_c_3 : IVec S_ 1 := constantI S_ 1 1#1
  let main_v12 : IVec S_ 1 := (fun x v => Host.reduce IntOp.andi x v reducesTo_S10000x3_S_d0_1 h_S_) main_v11 main_c_3
  let main_v13 : IVec S_ 1 := andi main_v8 main_v12
  let main_v14 : FVec F S512x1076 .f32 := Host.absf main_arg4
  let main_cst_4 : FVec F S_ .f32 := constant S_ .f32 0x7F800000#32
  let main_v15 : FVec F S512x1076 .f32 := broadcastInDim S512x1076 ![] bcast_S_S512x1076 main_cst_4
  let main_v16 : IVec S512x1076 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S10000x512 : Shape := ⟨2, ![10000, 512]⟩
abbrev S2x160000 : Shape := ⟨2, ![2, 160000]⟩
abbrev S160000x51 : Shape := ⟨2, ![160000, 51]⟩
abbrev S10000x3 : Shape := ⟨2, ![10000, 3]⟩
abbrev S512x1076 : Shape := ⟨2, ![512, 1076]⟩
abbrev S512 : Shape := ⟨1, ![512]⟩
abbrev S512x512 : Shape := ⟨2, ![512, 512]⟩
abbrev S256x512 : Shape := ⟨2, ![256, 512]⟩
abbrev S256 : Shape := ⟨1, ![256]⟩
abbrev S256x256 : Shape := ⟨2, ![256, 256]⟩
abbrev S1x256 : Shape := ⟨2, ![1, 256]⟩
abbrev S512x1024 : Shape := ⟨2, ![512, 1024]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S1 : Shape := ⟨1, ![1]⟩
abbrev S1x1 : Shape := ⟨2, ![1, 1]⟩
abbrev S160000x512 : Shape := ⟨2, ![160000, 512]⟩
abbrev S160000x3 : Shape := ⟨2, ![160000, 3]⟩
abbrev S1076x512 : Shape := ⟨2, ![1076, 512]⟩
abbrev S1x512 : Shape := ⟨2, ![1, 512]⟩
abbrev S512x256 : Shape := ⟨2, ![512, 256]⟩
abbrev S256x1 : Shape := ⟨2, ![256, 1]⟩
abbrev S2000x512 : Shape := ⟨2, ![2000, 512]⟩
abbrev S2000x51 : Shape := ⟨2, ![2000, 51]⟩
abbrev S2000x1 : Shape := ⟨2, ![2000, 1]⟩
abbrev S2000x3 : Shape := ⟨2, ![2000, 3]⟩
abbrev S2000x1076 : Shape := ⟨2, ![2000, 1076]⟩
abbrev S2000x256 : Shape := ⟨2, ![2000, 256]⟩
abbrev S1024x512 : Shape := ⟨2, ![1024, 512]⟩
abbrev S2000x1024 : Shape := ⟨2, ![2000, 1024]⟩

abbrev nBuf : Space → Nat
  | .hbm => 188
  | .vmem => 37
  | .smem => 0
  | _ => 0

abbrev hbmTy0_0 (i : Nat) : BufTy := match i % 128 with
  | 0 => ⟨S10000x512, .f32⟩
  | 1 => ⟨S2x160000, .i32⟩
  | 2 => ⟨S160000x51, .f32⟩
  | 3 => ⟨S10000x3, .f32⟩
  | 4 => ⟨S512x1076, .f32⟩
  | 5 => ⟨S512, .f32⟩
  | 6 => ⟨S512x512, .f32⟩
  | 7 => ⟨S512, .f32⟩
  | 8 => ⟨S512x512, .f32⟩
  | 9 => ⟨S512, .f32⟩
  | 10 => ⟨S256x512, .f32⟩
  | 11 => ⟨S256, .f32⟩
  | 12 => ⟨S256x256, .f32⟩
  | 13 => ⟨S256, .f32⟩
  | 14 => ⟨S1x256, .f32⟩
  | 15 => ⟨S512x1024, .f32⟩
  | 16 => ⟨S512, .f32⟩
  | 17 => ⟨S512x512, .f32⟩
  | 18 => ⟨S512, .f32⟩
  | 19 => ⟨S512x512, .f32⟩
  | 20 => ⟨S512, .f32⟩
  | 21 => ⟨S1x160000, .i32⟩
  | 22 => ⟨S160000, .i32⟩
  | 23 => ⟨S1x160000, .i32⟩
  | 24 => ⟨S160000, .i32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S1, .i32⟩
  | 34 => ⟨S_, .i32⟩
  | 35 => ⟨S160000x1, .i32⟩
  | 36 => ⟨S160000x1, .i1⟩
  | 37 => ⟨S1x1, .i32⟩
  | 38 => ⟨S160000x1, .i32⟩
  | 39 => ⟨S160000x1, .i1⟩
  | 40 => ⟨S160000x1, .i1⟩
  | 41 => ⟨S_, .i1⟩
  | 42 => ⟨S160000, .i1⟩
  | 43 => ⟨S160000x512, .f32⟩
  | 44 => ⟨S160000x512, .i1⟩
  | 45 => ⟨S_, .f32⟩
  | 46 => ⟨S160000x512, .f32⟩
  | 47 => ⟨S160000x512, .f32⟩
  | 48 => ⟨S_, .i32⟩
  | 49 => ⟨S160000, .i32⟩
  | 50 => ⟨S160000, .i1⟩
  | 51 => ⟨S_, .i32⟩
  | 52 => ⟨S160000, .i32⟩
  | 53 => ⟨S160000, .i32⟩
  | 54 => ⟨S160000, .i32⟩
  | 55 => ⟨S160000x1, .i32⟩
  | 56 => ⟨S1, .i32⟩
  | 57 => ⟨S_, .i32⟩
  | 58 => ⟨S160000x1, .i32⟩
  | 59 => ⟨S160000x1, .i1⟩
  | 60 => ⟨S1x1, .i32⟩
  | 61 => ⟨S160000x1, .i32⟩
  | 62 => ⟨S160000x1, .i1⟩
  | 63 => ⟨S160000x1, .i1⟩
  | 64 => ⟨S_, .i1⟩
  | 65 => ⟨S160000, .i1⟩
  | 66 => ⟨S160000x512, .f32⟩
  | 67 => ⟨S160000x512, .i1⟩
  | 68 => ⟨S_, .f32⟩
  | 69 => ⟨S160000x512, .f32⟩
  | 70 => ⟨S160000x512, .f32⟩
  | 71 => ⟨S_, .i32⟩
  | 72 => ⟨S160000, .i32⟩
  | 73 => ⟨S160000, .i1⟩
  | 74 => ⟨S_, .i32⟩
  | 75 => ⟨S160000, .i32⟩
  | 76 => ⟨S160000, .i32⟩
  | 77 => ⟨S160000, .i32⟩
  | 78 => ⟨S160000x1, .i32⟩
  | 79 => ⟨S1, .i32⟩
  | 80 => ⟨S_, .i32⟩
  | 81 => ⟨S160000x1, .i32⟩
  | 82 => ⟨S160000x1, .i1⟩
  | 83 => ⟨S1x1, .i32⟩
  | 84 => ⟨S160000x1, .i32⟩
  | 85 => ⟨S160000x1, .i1⟩
  | 86 => ⟨S160000x1, .i1⟩
  | 87 => ⟨S_, .i1⟩
  | 88 => ⟨S160000, .i1⟩
  | 89 => ⟨S160000x3, .f32⟩
  | 90 => ⟨S160000x3, .i1⟩
  | 91 => ⟨S_, .f32⟩
  | 92 => ⟨S160000x3, .f32⟩
  | 93 => ⟨S160000x3, .f32⟩
  | 94 => ⟨S_, .i32⟩
  | 95 => ⟨S160000, .i32⟩
  | 96 => ⟨S160000, .i1⟩
  | 97 => ⟨S_, .i32⟩
  | 98 => ⟨S160000, .i32⟩
  | 99 => ⟨S160000, .i32⟩
  | 100 => ⟨S160000, .i32⟩
  | 101 => ⟨S160000x1, .i32⟩
  | 102 => ⟨S1, .i32⟩
  | 103 => ⟨S_, .i32⟩
  | 104 => ⟨S160000x1, .i32⟩
  | 105 => ⟨S160000x1, .i1⟩
  | 106 => ⟨S1x1, .i32⟩
  | 107 => ⟨S160000x1, .i32⟩
  | 108 => ⟨S160000x1, .i1⟩
  | 109 => ⟨S160000x1, .i1⟩
  | 110 => ⟨S_, .i1⟩
  | 111 => ⟨S160000, .i1⟩
  | 112 => ⟨S160000x3, .f32⟩
  | 113 => ⟨S160000x3, .i1⟩
  | 114 => ⟨S_, .f32⟩
  | 115 => ⟨S160000x3, .f32⟩
  | 116 => ⟨S160000x3, .f32⟩
  | 117 => ⟨S160000x3, .f32⟩
  | 118 => ⟨S160000x3, .f32⟩
  | 119 => ⟨S_, .f32⟩
  | 120 => ⟨S160000, .f32⟩
  | 121 => ⟨S160000x1, .f32⟩
  | 122 => ⟨S_, .f32⟩
  | 123 => ⟨S_, .f32⟩
  | 124 => ⟨S_, .f32⟩
  | 125 => ⟨S160000x1, .f32⟩
  | 126 => ⟨S160000x1, .f32⟩
  | 127 => ⟨S_, .f32⟩
  | _ => ⟨S10000x512, .f32⟩

abbrev hbmTy0_1 (i : Nat) : BufTy := match i % 128 with
  | 0 => ⟨S160000x1, .f32⟩
  | 1 => ⟨S160000x1, .f32⟩
  | 2 => ⟨S160000x1, .f32⟩
  | 3 => ⟨S_, .f32⟩
  | 4 => ⟨S160000x1, .f32⟩
  | 5 => ⟨S160000x1, .f32⟩
  | 6 => ⟨S160000x3, .f32⟩
  | 7 => ⟨S160000x3, .f32⟩
  | 8 => ⟨S1076x512, .f32⟩
  | 9 => ⟨S1076x512, .bf16⟩
  | 10 => ⟨S1x512, .f32⟩
  | 11 => ⟨S512x512, .f32⟩
  | 12 => ⟨S512x512, .bf16⟩
  | 13 => ⟨S1x512, .f32⟩
  | 14 => ⟨S512x512, .f32⟩
  | 15 => ⟨S512x512, .bf16⟩
  | 16 => ⟨S1x512, .f32⟩
  | 17 => ⟨S512x256, .f32⟩
  | 18 => ⟨S512x256, .bf16⟩
  | 19 => ⟨S1x256, .f32⟩
  | 20 => ⟨S256x256, .f32⟩
  | 21 => ⟨S256x256, .bf16⟩
  | 22 => ⟨S1x256, .f32⟩
  | 23 => ⟨S256x1, .f32⟩
  | 24 => ⟨S256x1, .bf16⟩
  | 25 => ⟨S160000x512, .f32⟩
  | 26 => ⟨S160000x3, .f32⟩
  | 27 => ⟨S_, .f32⟩
  | 28 => ⟨S10000x512, .f32⟩
  | 29 => ⟨S_, .i32⟩
  | 30 => ⟨S160000, .i32⟩
  | 31 => ⟨S160000, .i1⟩
  | 32 => ⟨S_, .i32⟩
  | 33 => ⟨S160000, .i32⟩
  | 34 => ⟨S160000, .i32⟩
  | 35 => ⟨S160000, .i32⟩
  | 36 => ⟨S160000x1, .i32⟩
  | 37 => ⟨S10000x512, .f32⟩
  | 38 => ⟨S_, .f32⟩
  | 39 => ⟨S10000x3, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S10000x3, .f32⟩
  | 49 => ⟨S10000x3, .f32⟩
  | 50 => ⟨S1024x512, .f32⟩
  | 51 => ⟨S1024x512, .bf16⟩
  | 52 => ⟨S1x512, .f32⟩
  | 53 => ⟨S512x512, .f32⟩
  | 54 => ⟨S512x512, .bf16⟩
  | 55 => ⟨S1x512, .f32⟩
  | 56 => ⟨S512x512, .f32⟩
  | 57 => ⟨S512x512, .bf16⟩
  | 58 => ⟨S1x512, .f32⟩
  | 59 => ⟨S10000x512, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S2000x51, .f32⟩
  | .local _ .vmem, ⟨5, _⟩ => ⟨S2000x51, .f32⟩
  | .local _ .vmem, ⟨6, _⟩ => ⟨S2000x1, .f32⟩
  | .local _ .vmem, ⟨7, _⟩ => ⟨S2000x1, .f32⟩
  | .local _ .vmem, ⟨8, _⟩ => ⟨S2000x3, .f32⟩
  | .local _ .vmem, ⟨9, _⟩ => ⟨S2000x3, .f32⟩
  | .local _ .vmem, ⟨10, _⟩ => ⟨S1076x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S512x256, .bf16⟩
  | .local _ .vmem, ⟨17, _⟩ => ⟨S1x256, .f32⟩
  | .local _ .vmem, ⟨18, _⟩ => ⟨S256x256, .bf16⟩
  | .local _ .vmem, ⟨19, _⟩ => ⟨S1x256, .f32⟩
  | .local _ .vmem, ⟨20, _⟩ => ⟨S256x1, .bf16⟩
  | .local _ .vmem, ⟨21, _⟩ => ⟨S2000x512, .f32⟩
  | .local _ .vmem, ⟨22, _⟩ => ⟨S2000x512, .f32⟩
  | .local _ .vmem, ⟨23, _⟩ => ⟨S2000x3, .f32⟩
  | .local _ .vmem, ⟨24, _⟩ => ⟨S2000x3, .f32⟩
  | .local _ .vmem, ⟨25, _⟩ => ⟨S2000x512, .f32⟩
  | .local _ .vmem, ⟨26, _⟩ => ⟨S2000x512, .f32⟩
  | .local _ .vmem, ⟨27, _⟩ => ⟨S2000x512, .f32⟩
  | .local _ .vmem, ⟨28, _⟩ => ⟨S2000x512, .f32⟩
  | .local _ .vmem, ⟨29, _⟩ => ⟨S1024x512, .bf16⟩
  | .local _ .vmem, ⟨30, _⟩ => ⟨S1x512, .f32⟩
  | .local _ .vmem, ⟨31, _⟩ => ⟨S512x512, .bf16⟩
  | .local _ .vmem, ⟨32, _⟩ => ⟨S1x512, .f32⟩
  | .local _ .vmem, ⟨33, _⟩ => ⟨S512x512, .bf16⟩
  | .local _ .vmem, ⟨34, _⟩ => ⟨S1x512, .f32⟩
  | .local _ .vmem, ⟨35, _⟩ => ⟨S2000x512, .f32⟩
  | .local _ .vmem, ⟨36, _⟩ => ⟨S2000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v4 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v5 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v6 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v7 : Ref sig .tc := ⟨.hbm, 116, rfl⟩
abbrev main_v8 : Ref sig .tc := ⟨.hbm, 117, rfl⟩
abbrev main_v9 : Ref sig .tc := ⟨.hbm, 118, rfl⟩
abbrev main_cst : Ref sig .tc := ⟨.hbm, 119, rfl⟩
abbrev main_v10 : Ref sig .tc := ⟨.hbm, 120, rfl⟩
abbrev main_v11 : Ref sig .tc := ⟨.hbm, 121, rfl⟩
abbrev main_cst_0 : Ref sig .tc := ⟨.hbm, 122, rfl⟩
abbrev main_cst_1 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v12 : Ref sig .tc := ⟨.hbm, 129, rfl⟩
abbrev main_v13 : Ref sig .tc := ⟨.hbm, 130, rfl⟩
abbrev main_cst_2 : Ref sig .tc := ⟨.hbm, 131, rfl⟩
abbrev main_v14 : Ref sig .tc := ⟨.hbm, 132, rfl⟩
abbrev main_v15 : Ref sig .tc := ⟨.hbm, 133, rfl⟩
abbrev main_v16 : Ref sig .tc := ⟨.hbm, 134, rfl⟩
abbrev main_v17 : Ref sig .tc := ⟨.hbm, 135, rfl⟩
abbrev main_v18 : Ref sig .tc := ⟨.hbm, 136, rfl⟩
abbrev main_v19 : Ref sig .tc := ⟨.hbm, 137, rfl⟩
abbrev main_v20 : Ref sig .tc := ⟨.hbm, 138, rfl⟩
abbrev main_v21 : Ref sig .tc := ⟨.hbm, 139, rfl⟩
abbrev main_v22 : Ref sig .tc := ⟨.hbm, 140, rfl⟩
abbrev main_v23 : Ref sig .tc := ⟨.hbm, 141, rfl⟩
abbrev main_v24 : Ref sig .tc := ⟨.hbm, 142, rfl⟩
abbrev main_v25 : Ref sig .tc := ⟨.hbm, 143, rfl⟩
abbrev main_v26 : Ref sig .tc := ⟨.hbm, 144, rfl⟩
abbrev main_v27 : Ref sig .tc := ⟨.hbm, 145, rfl⟩
abbrev main_v28 : Ref sig .tc := ⟨.hbm, 146, rfl⟩
abbrev main_v29 : Ref sig .tc := ⟨.hbm, 147, rfl⟩
abbrev main_v30 : Ref sig .tc := ⟨.hbm, 148, rfl⟩
abbrev main_v31 : Ref sig .tc := ⟨.hbm, 149, rfl⟩
abbrev main_v32 : Ref sig .tc := ⟨.hbm, 150, rfl⟩
abbrev main_v33 : Ref sig .tc := ⟨.hbm, 151, rfl⟩
abbrev main_v34 : Ref sig .tc := ⟨.hbm, 152, rfl⟩
abbrev main_v35_0 : Ref sig .tc := ⟨.hbm, 153, rfl⟩
abbrev main_v35_1 : Ref sig .tc := ⟨.hbm, 154, rfl⟩
abbrev main_cst_3 : Ref sig .tc := ⟨.hbm, 155, rfl⟩
abbrev main_v36 : Ref sig .tc := ⟨.hbm, 156, rfl⟩
abbrev main_c : Ref sig .tc := ⟨.hbm, 157, rfl⟩
abbrev main_v37 : Ref sig .tc := ⟨.hbm, 158, rfl⟩
abbrev main_v38 : Ref sig .tc := ⟨.hbm, 159, rfl⟩
abbrev main_c_4 : Ref sig .tc := ⟨.hbm, 160, rfl⟩
abbrev main_v39 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_cst_5 : Ref sig .tc := ⟨.hbm, 166, rfl⟩
abbrev main_v44 : Ref sig .tc := ⟨.hbm, 167, rfl⟩
abbrev main_c_6 : Ref sig .tc := ⟨.hbm, 168, rfl⟩
abbrev main_v45 : Ref sig .tc := ⟨.hbm, 169, rfl⟩
abbrev main_v46 : Ref sig .tc := ⟨.hbm, 170, rfl⟩
abbrev main_c_7 : Ref sig .tc := ⟨.hbm, 171, rfl⟩
abbrev main_v47 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩
abbrev main_v51 : Ref sig .tc := ⟨.hbm, 176, rfl⟩
abbrev main_v52 : Ref sig .tc := ⟨.hbm, 177, rfl⟩
abbrev main_v53 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg3_0 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg8_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem3_0 : DmaSem sig := 30
abbrev cc1_sem4_0 : DmaSem sig := 31
abbrev cc1_sem5_0 : DmaSem sig := 32
abbrev cc1_sem6_0 : DmaSem sig := 33
abbrev cc1_sem7_0 : DmaSem sig := 34
abbrev cc1_sem8_0 : DmaSem sig := 35
abbrev cc1_sem8_1 : DmaSem sig := 36

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x51 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1076x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2000x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2000x3 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x512_0 : S160000.BroadcastsInDim S160000x512 (![0] : Fin 1 → Fin S160000x512.rank)
  bcast_S_S160000x512 : S_.BroadcastsInDim S160000x512 (![] : Fin 0 → Fin S160000x512.rank)
  bcast_S160000_S160000x3_0 : S160000.BroadcastsInDim S160000x3 (![0] : Fin 1 → Fin S160000x3.rank)
  bcast_S_S160000x3 : S_.BroadcastsInDim S160000x3 (![] : Fin 0 → Fin S160000x3.rank)
  reducesTo_S160000x3_S160000_d1 : S160000x3.ReducesTo [1] S160000
  bcast_S160000x1_S160000x3_0_1 : S160000x1.BroadcastsInDim S160000x3 (![0, 1] : Fin 2 → Fin S160000x3.rank)
  transposes_S512x1076_S1076x512_1_0 : S512x1076.Transposes [1, 0] S1076x512
  bitsLt_bf16_f32 : FTy.bits .bf16 < FTy.bits .f32
  shapeCasts_S512_S1x512 : S512.ShapeCasts S1x512
  transposes_S512x512_S512x512_1_0 : S512x512.Transposes [1, 0] S512x512
  transposes_S256x512_S512x256_1_0 : S256x512.Transposes [1, 0] S512x256
  shapeCasts_S256_S1x256 : S256.ShapeCasts S1x256
  transposes_S256x256_S256x256_1_0 : S256x256.Transposes [1, 0] S256x256
  transposes_S1x256_S256x1_1_0 : S1x256.Transposes [1, 0] S256x1
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S2000x51_S2000x51_0_0 : ∀ a, (![0, 0] : Fin 2 → Nat) a + S2000x51.size a ≤ S2000x51.size a
  h_S2000x51 : 0 < S2000x51.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  concatenates_S2000x512_S2000x512_S2000x51_S2000x1_S2000x1076_d1 : Shape.Concatenates [S2000x512, S2000x512, S2000x51, S2000x1] S2000x1076 1
  inb_S1076x512_S1076x512_0_0 : ∀ a, (![0, 0] : Fin 2 → Nat) a + S1076x512.size a ≤ S1076x512.size a
  h_S1076x512 : 0 < S1076x512.numel
  shapeCasts_S1076x512_S1076x512 : S1076x512.ShapeCasts S1076x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S2000x1_S2000x3 : S2000x1.Broadcasts S2000x3
  bcast_S_S10000x512 : S_.BroadcastsInDim S10000x512 (![] : Fin 0 → Fin S10000x512.rank)
  bcast_S_S10000x3 : S_.BroadcastsInDim S10000x3 (![] : Fin 0 → Fin S10000x3.rank)
  transposes_S512x1024_S1024x512_1_0 : S512x1024.Transposes [1, 0] S1024x512
  concatenates_S2000x512_S2000x512_S2000x1024_d1 : Shape.Concatenates [S2000x512, S2000x512] S2000x1024 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  gather_S10000x512_S160000x1_S160000x512_1_0_n_n_0_1_1512_wf : GatherDims.WF S10000x512 S160000x1 S160000x512 [1] [0] [] [0] [] 1 ![1, 512]
  gather_S10000x3_S160000x1_S160000x3_1_0_n_n_0_1_13_wf : GatherDims.WF S10000x3 S160000x1 S160000x3 [1] [0] [] [0] [] 1 ![1, 3]
  dot_S2000x1076_S1076x512_S2000x512_1_0_0_1_n_n_wf : DotDims.WF S2000x1076 S1076x512 S2000x512 [1] [0] [0] [1] [] []
  dot_S2000x512_S512x512_S2000x512_1_0_0_1_n_n_wf : DotDims.WF S2000x512 S512x512 S2000x512 [1] [0] [0] [1] [] []
  dot_S2000x512_S512x256_S2000x256_1_0_0_1_n_n_wf : DotDims.WF S2000x512 S512x256 S2000x256 [1] [0] [0] [1] [] []
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  scatter_S10000x512_S160000x1_S160000x512_1_0_0_1_wf : ScatterDims.WF S10000x512 S160000x1 S160000x512 [1] [0] [0] 1
  scatter_S10000x3_S160000x1_S160000x3_1_0_0_1_wf : ScatterDims.WF S10000x3 S160000x1 S160000x3 [1] [0] [0] 1
  dot_S2000x1024_S1024x512_S2000x512_1_0_0_1_n_n_wf : DotDims.WF S2000x1024 S1024x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S160000x512.size a
  hwx0_0 : ∀ i : grid0.Coords, EltTy.bits .f32 = 32 ∨ (Rect.block (s := S160000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S160000x512.size a
  hwx0_1 : ∀ i : grid0.Coords, EltTy.bits .f32 = 32 ∨ (Rect.block (s := S160000x512) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x51.size a ≤ S160000x51.size a
  hwx0_2 : ∀ i : grid0.Coords, EltTy.bits .f32 = 32 ∨ (Rect.block (s := S160000x51) S2000x51.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S160000x1.size a
  hwx0_3 : ∀ i : grid0.Coords, EltTy.bits .f32 = 32 ∨ (Rect.block (s := S160000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x3.size a ≤ S160000x3.size a
  hwx0_4 : ∀ i : grid0.Coords, EltTy.bits .f32 = 32 ∨ (Rect.block (s := S160000x3) S2000x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1076x512.size a ≤ S1076x512.size a
  hwx0_5 : ∀ i : grid0.Coords, EltTy.bits .bf16 = 32 ∨ (Rect.block (s := S1076x512) S1076x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S512x256.size a
  hwx0_11 : ∀ i : grid0.Coords, EltTy.bits .bf16 = 32 ∨ (Rect.block (s := S512x256) S512x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x1.size a ≤ S256x1.size a
  hwx0_15 : ∀ i : grid0.Coords, EltTy.bits .bf16 = 32 ∨ (Rect.block (s := S256x1) S256x1.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x512.size a ≤ S160000x512.size a
  hwx0_16 : ∀ i : grid0.Coords, EltTy.bits .f32 = 32 ∨ (Rect.block (s := S160000x512) S2000x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x3.size a ≤ S160000x3.size a
  hwx0_17 : ∀ i : grid0.Coords, EltTy.bits .f32 = 32 ∨ (Rect.block (s := S160000x3) S2000x3.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .f32 = 32 ∨ (Rect.block (s := S10000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S10000x512.size a
  hwx1_1 : ∀ i : grid1.Coords, EltTy.bits .f32 = 32 ∨ (Rect.block (s := S10000x512) S2000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x512.size a
  hwx1_2 : ∀ i : grid1.Coords, EltTy.bits .bf16 = 32 ∨ (Rect.block (s := S1024x512) S1024x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .bf16 = 32 ∨ (Rect.block (s := S512x512) S512x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x512.size a ≤ S10000x512.size a
  hwx1_8 : ∀ i : grid1.Coords, EltTy.bits .f32 = 32 ∨ (Rect.block (s := S10000x512) S2000x512.size (cc1_transform_8 i) (hinb1_8 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def gather_S10000x3_S160000x1_S160000x3_1_0_n_n_0_1_13 : GatherDims S10000x3 S160000x1 S160000x3 where
  offsetDims := [1]
  collapsedSliceDims := [0]
  operandBatchingDims := []
  startIndicesBatchingDims := []
  startIndexMap := [0]
  indexVectorDim := 1
  sliceSizes := ![1, 3]
  wf := gather_S10000x3_S160000x1_S160000x3_1_0_n_n_0_1_13_wf
def dot_S2000x1076_S1076x512_S2000x512_1_0_0_1_n_n : DotDims S2000x1076 S1076x512 S2000x512 where
  lhsContracting := [1]
  rhsContracting := [0]
  lhsNonContracting := [0]
  rhsNonContracting := [1]
  lhsBatch := []
  rhsBatch := []
  wf := dot_S2000x1076_S1076x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000x3_S160000x1_S160000x3_1_0_0_1 : ScatterDims S10000x3 S160000x1 S160000x3 where
  updateWindowDims := [1]
  insertedWindowDims := [0]
  scatterDimsToOperandDims := [0]
  indexVectorDim := 1
  wf := scatter_S10000x3_S160000x1_S160000x3_1_0_0_1_wf
def dot_S2000x1024_S1024x512_S2000x512_1_0_0_1_n_n : DotDims S2000x1024 S1024x512 S2000x512 where
  lhsContracting := [1]
  rhsContracting := [0]
  lhsNonContracting := [0]
  rhsNonContracting := [1]
  lhsBatch := []
  rhsBatch := []
  wf := dot_S2000x1024_S1024x512_S2000x512_1_0_0_1_n_n_wf

abbrev win0_0 : Pipeline.Window sig grid0 :=
  Pipeline.Window.ofSpec (Memref.whole main_v4) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x51.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S2000x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1076x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v28) S512x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v29) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v31) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v32) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v34) S256x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v35_0) S2000x512.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v35_1) S2000x3.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_arg0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1024x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v62) S2000x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S160000x51 : Shape := ⟨2, ![160000, 51]⟩
abbrev S10000x3 : Shape := ⟨2, ![10000, 3]⟩
abbrev S512x1076 : Shape := ⟨2, ![512, 1076]⟩
abbrev S512 : Shape := ⟨1, ![512]⟩
abbrev S512x512 : Shape := ⟨2, ![512, 512]⟩
abbrev S256x512 : Shape := ⟨2, ![256, 512]⟩
abbrev S256 : Shape := ⟨1, ![256]⟩
abbrev S256x256 : Shape := ⟨2, ![256, 256]⟩
abbrev S1x256 : Shape := ⟨2, ![1, 256]⟩
abbrev S512x1024 : Shape := ⟨2, ![512, 1024]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x3 : Shape := ⟨2, ![160000, 3]⟩
abbrev S160000x512 : Shape := ⟨2, ![160000, 512]⟩
abbrev S160000x1076 : Shape := ⟨2, ![160000, 1076]⟩
abbrev S1076x512 : Shape := ⟨2, ![1076, 512]⟩
abbrev S1x512 : Shape := ⟨2, ![1, 512]⟩
abbrev S512x256 : Shape := ⟨2, ![512, 256]⟩
abbrev S160000x256 : Shape := ⟨2, ![160000, 256]⟩
abbrev S256x1 : Shape := ⟨2, ![256, 1]⟩
abbrev S10000x1024 : Shape := ⟨2, ![10000, 1024]⟩
abbrev S1024x512 : Shape := ⟨2, ![1024, 512]⟩

abbrev nBuf : Space → Nat
  | .hbm => 212
  | .vmem => 0
  | .smem => 0
  | _ => 0

abbrev hbmTy0_0 (i : Nat) : BufTy := match i % 128 with
  | 0 => ⟨S10000x512, .f32⟩
  | 1 => ⟨S2x160000, .i32⟩
  | 2 => ⟨S160000x51, .f32⟩
  | 3 => ⟨S10000x3, .f32⟩
  | 4 => ⟨S512x1076, .f32⟩
  | 5 => ⟨S512, .f32⟩
  | 6 => ⟨S512x512, .f32⟩
  | 7 => ⟨S512, .f32⟩
  | 8 => ⟨S512x512, .f32⟩
  | 9 => ⟨S512, .f32⟩
  | 10 => ⟨S256x512, .f32⟩
  | 11 => ⟨S256, .f32⟩
  | 12 => ⟨S256x256, .f32⟩
  | 13 => ⟨S256, .f32⟩
  | 14 => ⟨S1x256, .f32⟩
  | 15 => ⟨S512x1024, .f32⟩
  | 16 => ⟨S512, .f32⟩
  | 17 => ⟨S512x512, .f32⟩
  | 18 => ⟨S512, .f32⟩
  | 19 => ⟨S512x512, .f32⟩
  | 20 => ⟨S512, .f32⟩
  | 21 => ⟨S1x160000, .i32⟩
  | 22 => ⟨S160000, .i32⟩
  | 23 => ⟨S1x160000, .i32⟩
  | 24 => ⟨S160000, .i32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S160000x3, .f32⟩
  | 34 => ⟨S_, .i32⟩
  | 35 => ⟨S160000, .i32⟩
  | 36 => ⟨S160000, .i1⟩
  | 37 => ⟨S_, .i32⟩
  | 38 => ⟨S160000, .i32⟩
  | 39 => ⟨S160000, .i32⟩
  | 40 => ⟨S160000, .i32⟩
  | 41 => ⟨S160000x1, .i32⟩
  | 42 => ⟨S160000x3, .f32⟩
  | 43 => ⟨S160000x3, .f32⟩
  | 44 => ⟨S160000x3, .f32⟩
  | 45 => ⟨S_, .f32⟩
  | 46 => ⟨S160000, .f32⟩
  | 47 => ⟨S160000x1, .f32⟩
  | 48 => ⟨S_, .f32⟩
  | 49 => ⟨S_, .f32⟩
  | 50 => ⟨S_, .f32⟩
  | 51 => ⟨S160000x1, .f32⟩
  | 52 => ⟨S160000x1, .f32⟩
  | 53 => ⟨S_, .f32⟩
  | 54 => ⟨S160000x1, .f32⟩
  | 55 => ⟨S160000x1, .f32⟩
  | 56 => ⟨S160000x1, .f32⟩
  | 57 => ⟨S_, .f32⟩
  | 58 => ⟨S160000x1, .f32⟩
  | 59 => ⟨S160000x1, .f32⟩
  | 60 => ⟨S160000x3, .f32⟩
  | 61 => ⟨S160000x3, .f32⟩
  | 62 => ⟨S_, .i32⟩
  | 63 => ⟨S160000, .i32⟩
  | 64 => ⟨S160000, .i1⟩
  | 65 => ⟨S_, .i32⟩
  | 66 => ⟨S160000, .i32⟩
  | 67 => ⟨S160000, .i32⟩
  | 68 => ⟨S160000, .i32⟩
  | 69 => ⟨S160000x1, .i32⟩
  | 70 => ⟨S160000x512, .f32⟩
  | 71 => ⟨S_, .i32⟩
  | 72 => ⟨S160000, .i32⟩
  | 73 => ⟨S160000, .i1⟩
  | 74 => ⟨S_, .i32⟩
  | 75 => ⟨S160000, .i32⟩
  | 76 => ⟨S160000, .i32⟩
  | 77 => ⟨S160000, .i32⟩
  | 78 => ⟨S160000x1, .i32⟩
  | 79 => ⟨S160000x512, .f32⟩
  | 80 => ⟨S160000x1076, .f32⟩
  | 81 => ⟨S1076x512, .f32⟩
  | 82 => ⟨S160000x512, .f32⟩
  | 83 => ⟨S1x512, .f32⟩
  | 84 => ⟨S160000x512, .f32⟩
  | 85 => ⟨S160000x512, .f32⟩
  | 86 => ⟨S160000x512, .f32⟩
  | 87 => ⟨S160000x512, .f32⟩
  | 88 => ⟨S_, .f32⟩
  | 89 => ⟨S160000x512, .f32⟩
  | 90 => ⟨S160000x512, .f32⟩
  | 91 => ⟨S_, .f32⟩
  | 92 => ⟨S160000x512, .f32⟩
  | 93 => ⟨S160000x512, .f32⟩
  | 94 => ⟨S160000x512, .f32⟩
  | 95 => ⟨S512x512, .f32⟩
  | 96 => ⟨S160000x512, .f32⟩
  | 97 => ⟨S1x512, .f32⟩
  | 98 => ⟨S160000x512, .f32⟩
  | 99 => ⟨S160000x512, .f32⟩
  | 100 => ⟨S160000x512, .f32⟩
  | 101 => ⟨S160000x512, .f32⟩
  | 102 => ⟨S_, .f32⟩
  | 103 => ⟨S160000x512, .f32⟩
  | 104 => ⟨S160000x512, .f32⟩
  | 105 => ⟨S_, .f32⟩
  | 106 => ⟨S160000x512, .f32⟩
  | 107 => ⟨S160000x512, .f32⟩
  | 108 => ⟨S160000x512, .f32⟩
  | 109 => ⟨S512x512, .f32⟩
  | 110 => ⟨S160000x512, .f32⟩
  | 111 => ⟨S1x512, .f32⟩
  | 112 => ⟨S160000x512, .f32⟩
  | 113 => ⟨S160000x512, .f32⟩
  | 114 => ⟨S512x256, .f32⟩
  | 115 => ⟨S160000x256, .f32⟩
  | 116 => ⟨S1x256, .f32⟩
  | 117 => ⟨S160000x256, .f32⟩
  | 118 => ⟨S160000x256, .f32⟩
  | 119 => ⟨S160000x256, .f32⟩
  | 120 => ⟨S160000x256, .f32⟩
  | 121 => ⟨S_, .f32⟩
  | 122 => ⟨S160000x256, .f32⟩
  | 123 => ⟨S160000x256, .f32⟩
  | 124 => ⟨S_, .f32⟩
  | 125 => ⟨S160000x256, .f32⟩
  | 126 => ⟨S160000x256, .f32⟩
  | 127 => ⟨S160000x256, .f32⟩
  | _ => ⟨S10000x512, .f32⟩

abbrev hbmTy0_1 (i : Nat) : BufTy := match i % 128 with
  | 0 => ⟨S256x256, .f32⟩
  | 1 => ⟨S160000x256, .f32⟩
  | 2 => ⟨S1x256, .f32⟩
  | 3 => ⟨S160000x256, .f32⟩
  | 4 => ⟨S160000x256, .f32⟩
  | 5 => ⟨S160000x256, .f32⟩
  | 6 => ⟨S160000x256, .f32⟩
  | 7 => ⟨S_, .f32⟩
  | 8 => ⟨S160000x256, .f32⟩
  | 9 => ⟨S160000x256, .f32⟩
  | 10 => ⟨S_, .f32⟩
  | 11 => ⟨S160000x256, .f32⟩
  | 12 => ⟨S160000x256, .f32⟩
  | 13 => ⟨S160000x256, .f32⟩
  | 14 => ⟨S256x1, .f32⟩
  | 15 => ⟨S160000x1, .f32⟩
  | 16 => ⟨S_, .f32⟩
  | 17 => ⟨S_, .f32⟩
  | 18 => ⟨S_, .f32⟩
  | 19 => ⟨S160000x1, .f32⟩
  | 20 => ⟨S160000x1, .f32⟩
  | 21 => ⟨S_, .f32⟩
  | 22 => ⟨S160000x1, .f32⟩
  | 23 => ⟨S160000x1, .f32⟩
  | 24 => ⟨S160000x3, .f32⟩
  | 25 => ⟨S160000x3, .f32⟩
  | 26 => ⟨S_, .f32⟩
  | 27 => ⟨S10000x3, .f32⟩
  | 28 => ⟨S_, .i32⟩
  | 29 => ⟨S160000, .i32⟩
  | 30 => ⟨S160000, .i1⟩
  | 31 => ⟨S_, .i32⟩
  | 32 => ⟨S160000, .i32⟩
  | 33 => ⟨S160000, .i32⟩
  | 34 => ⟨S160000, .i32⟩
  | 35 => ⟨S160000x1, .i32⟩
  | 36 => ⟨S10000x3, .f32⟩
  | 37 => ⟨S10000x3, .f32⟩
  | 38 => ⟨S_, .f32⟩
  | 39 => ⟨S10000x512, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S10000x512, .f32⟩
  | 49 => ⟨S10000x1024, .f32⟩
  | 50 => ⟨S1024x512, .f32⟩
  | 51 => ⟨S10000x512, .f32⟩
  | 52 => ⟨S1x512, .f32⟩
  | 53 => ⟨S10000x512, .f32⟩
  | 54 => ⟨S10000x512, .f32⟩
  | 55 => ⟨S10000x512, .f32⟩
  | 56 => ⟨S10000x512, .f32⟩
  | 57 => ⟨S_, .f32⟩
  | 58 => ⟨S10000x512, .f32⟩
  | 59 => ⟨S10000x512, .f32⟩
  | 60 => ⟨S_, .f32⟩
  | 61 => ⟨S10000x512, .f32⟩
  | 62 => ⟨S10000x512, .f32⟩
  | 63 => ⟨S10000x512, .f32⟩
  | 64 => ⟨S512x512, .f32⟩
  | 65 => ⟨S10000x512, .f32⟩
  | 66 => ⟨S1x512, .f32⟩
  | 67 => ⟨S10000x512, .f32⟩
  | 68 => ⟨S10000x512, .f32⟩
  | 69 => ⟨S10000x512, .f32⟩
  | 70 => ⟨S10000x512, .f32⟩
  | 71 => ⟨S_, .f32⟩
  | 72 => ⟨S10000x512, .f32⟩
  | 73 => ⟨S10000x512, .f32⟩
  | 74 => ⟨S_, .f32⟩
  | 75 => ⟨S10000x512, .f32⟩
  | 76 => ⟨S10000x512, .f32⟩
  | 77 => ⟨S10000x512, .f32⟩
  | 78 => ⟨S512x512, .f32⟩
  | 79 => ⟨S10000x512, .f32⟩
  | 80 => ⟨S1x512, .f32⟩
  | 81 => ⟨S10000x512, .f32⟩
  | 82 => ⟨S10000x512, .f32⟩
  | 83 => ⟨S10000x512, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_cst_4 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v22 : Ref sig .tc := ⟨.hbm, 55, rfl⟩
abbrev main_v23 : Ref sig .tc := ⟨.hbm, 56, rfl⟩
abbrev main_cst_5 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_6 : Ref sig .tc := ⟨.hbm, 62, rfl⟩
abbrev main_v28 : Ref sig .tc := ⟨.hbm, 63, rfl⟩
abbrev main_v29 : Ref sig .tc := ⟨.hbm, 64, rfl⟩
abbrev main_c_7 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_v35 : Ref sig .tc := ⟨.hbm, 72, rfl⟩
abbrev main_v36 : Ref sig .tc := ⟨.hbm, 73, rfl⟩
abbrev main_c_9 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_call2_v0 : Ref sig .tc := ⟨.hbm, 100, rfl⟩
abbrev main_call2_v1 : Ref sig .tc := ⟨.hbm, 101, rfl⟩
abbrev main_call2_cst : Ref sig .tc := ⟨.hbm, 102, rfl⟩
abbrev main_call2_v2 : Ref sig .tc := ⟨.hbm, 103, rfl⟩
abbrev main_call2_v3 : Ref sig .tc := ⟨.hbm, 104, rfl⟩
abbrev main_call2_cst_0 : Ref sig .tc := ⟨.hbm, 105, rfl⟩
abbrev main_call2_v4 : Ref sig .tc := ⟨.hbm, 106, rfl⟩
abbrev main_call2_v5 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_call4_v0 : Ref sig .tc := ⟨.hbm, 133, rfl⟩
abbrev main_call4_v1 : Ref sig .tc := ⟨.hbm, 134, rfl⟩
abbrev main_call4_cst : Ref sig .tc := ⟨.hbm, 135, rfl⟩
abbrev main_call4_v2 : Ref sig .tc := ⟨.hbm, 136, rfl⟩
abbrev main_call4_v3 : Ref sig .tc := ⟨.hbm, 137, rfl⟩
abbrev main_call4_cst_0 : Ref sig .tc := ⟨.hbm, 138, rfl⟩
abbrev main_call4_v4 : Ref sig .tc := ⟨.hbm, 139, rfl⟩
abbrev main_call4_v5 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_cst_10 : Ref sig .tc := ⟨.hbm, 144, rfl⟩
abbrev main_cst_11 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_12 : Ref sig .tc := ⟨.hbm, 154, rfl⟩
abbrev main_v77 : Ref sig .tc := ⟨.hbm, 155, rfl⟩
abbrev main_c_13 : Ref sig .tc := ⟨.hbm, 156, rfl⟩
abbrev main_v78 : Ref sig .tc := ⟨.hbm, 157, rfl⟩
abbrev main_v79 : Ref sig .tc := ⟨.hbm, 158, rfl⟩
abbrev main_c_14 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_cst_15 : Ref sig .tc := ⟨.hbm, 166, rfl⟩
abbrev main_v86 : Ref sig .tc := ⟨.hbm, 167, rfl⟩
abbrev main_c_16 : Ref sig .tc := ⟨.hbm, 168, rfl⟩
abbrev main_v87 : Ref sig .tc := ⟨.hbm, 169, rfl⟩
abbrev main_v88 : Ref sig .tc := ⟨.hbm, 170, rfl⟩
abbrev main_c_17 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_call6_v0 : Ref sig .tc := ⟨.hbm, 183, rfl⟩
abbrev main_call6_v1 : Ref sig .tc := ⟨.hbm, 184, rfl⟩
abbrev main_call6_cst : Ref sig .tc := ⟨.hbm, 185, rfl⟩
abbrev main_call6_v2 : Ref sig .tc := ⟨.hbm, 186, rfl⟩
abbrev main_call6_v3 : Ref sig .tc := ⟨.hbm, 187, rfl⟩
abbrev main_call6_cst_0 : Ref sig .tc := ⟨.hbm, 188, rfl⟩
abbrev main_call6_v4 : Ref sig .tc := ⟨.hbm, 189, rfl⟩
abbrev main_call6_v5 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_call7_v0 : Ref sig .tc := ⟨.hbm, 197, rfl⟩
abbrev main_call7_v1 : Ref sig .tc := ⟨.hbm, 198, rfl⟩
abbrev main_call7_cst : Ref sig .tc := ⟨.hbm, 199, rfl⟩
abbrev main_call7_v2 : Ref sig .tc := ⟨.hbm, 200, rfl⟩
abbrev main_call7_v3 : Ref sig .tc := ⟨.hbm, 201, rfl⟩
abbrev main_call7_cst_0 : Ref sig .tc := ⟨.hbm, 202, rfl⟩
abbrev main_call7_v4 : Ref sig .tc := ⟨.hbm, 203, rfl⟩
abbrev main_call7_v5 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  reducesTo_S160000x3_S160000_d1 : S160000x3.ReducesTo [1] S160000
  h_S_ : 0 < S_.numel
  bcast_S_S160000x1 : S_.BroadcastsInDim S160000x1 (![] : Fin 0 → Fin S160000x1.rank)
  bcast_S160000x1_S160000x3_0_1 : S160000x1.BroadcastsInDim S160000x3 (![0, 1] : Fin 2 → Fin S160000x3.rank)
  concatenates_S160000x512_S160000x512_S160000x51_S160000x1_S160000x1076_d1 : Shape.Concatenates [S160000x512, S160000x512, S160000x51, S160000x1] S160000x1076 1
  transposes_S512x1076_S1076x512_1_0 : S512x1076.Transposes [1, 0] S1076x512
  bcast_S512_S1x512_1 : S512.BroadcastsInDim S1x512 (![1] : Fin 1 → Fin S1x512.rank)
  bcast_S1x512_S160000x512_0_1 : S1x512.BroadcastsInDim S160000x512 (![0, 1] : Fin 2 → Fin S160000x512.rank)
  bcast_S_S160000x512 : S_.BroadcastsInDim S160000x512 (![] : Fin 0 → Fin S160000x512.rank)
  transposes_S512x512_S512x512_1_0 : S512x512.Transposes [1, 0] S512x512
  transposes_S256x512_S512x256_1_0 : S256x512.Transposes [1, 0] S512x256
  bcast_S256_S1x256_1 : S256.BroadcastsInDim S1x256 (![1] : Fin 1 → Fin S1x256.rank)
  bcast_S1x256_S160000x256_0_1 : S1x256.BroadcastsInDim S160000x256 (![0, 1] : Fin 2 → Fin S160000x256.rank)
  bcast_S_S160000x256 : S_.BroadcastsInDim S160000x256 (![] : Fin 0 → Fin S160000x256.rank)
  transposes_S256x256_S256x256_1_0 : S256x256.Transposes [1, 0] S256x256
  transposes_S1x256_S256x1_1_0 : S1x256.Transposes [1, 0] S256x1
  bcast_S_S10000x3 : S_.BroadcastsInDim S10000x3 (![] : Fin 0 → Fin S10000x3.rank)
  bcast_S_S10000x512 : S_.BroadcastsInDim S10000x512 (![] : Fin 0 → Fin S10000x512.rank)
  concatenates_S10000x512_S10000x512_S10000x1024_d1 : Shape.Concatenates [S10000x512, S10000x512] S10000x1024 1
  transposes_S512x1024_S1024x512_1_0 : S512x1024.Transposes [1, 0] S1024x512
  bcast_S1x512_S10000x512_0_1 : S1x512.BroadcastsInDim S10000x512 (![0, 1] : Fin 2 → Fin S10000x512.rank)
  gather_S10000x3_S160000x1_S160000x3_1_0_n_n_0_1_13_wf : GatherDims.WF S10000x3 S160000x1 S160000x3 [1] [0] [] [0] [] 1 ![1, 3]
  gather_S10000x512_S160000x1_S160000x512_1_0_n_n_0_1_1512_wf : GatherDims.WF S10000x512 S160000x1 S160000x512 [1] [0] [] [0] [] 1 ![1, 512]
  dot_S160000x1076_S1076x512_S160000x512_1_0_0_1_n_n_wf : DotDims.WF S160000x1076 S1076x512 S160000x512 [1] [0] [0] [1] [] []
  dot_S160000x512_S512x512_S160000x512_1_0_0_1_n_n_wf : DotDims.WF S160000x512 S512x512 S160000x512 [1] [0] [0] [1] [] []
  dot_S160000x512_S512x256_S160000x256_1_0_0_1_n_n_wf : DotDims.WF S160000x512 S512x256 S160000x256 [1] [0] [0] [1] [] []
  dot_S160000x256_S256x256_S160000x256_1_0_0_1_n_n_wf : DotDims.WF S160000x256 S256x256 S160000x256 [1] [0] [0] [1] [] []
  dot_S160000x256_S256x1_S160000x1_1_0_0_1_n_n_wf : DotDims.WF S160000x256 S256x1 S160000x1 [1] [0] [0] [1] [] []
  scatter_S10000x3_S160000x1_S160000x3_1_0_0_1_wf : ScatterDims.WF S10000x3 S160000x1 S160000x3 [1] [0] [0] 1
  scatter_S10000x512_S160000x1_S160000x512_1_0_0_1_wf : ScatterDims.WF S10000x512 S160000x1 S160000x512 [1] [0] [0] 1
  dot_S10000x1024_S1024x512_S10000x512_1_0_0_1_n_n_wf : DotDims.WF S10000x1024 S1024x512 S10000x512 [1] [0] [0] [1] [] []
  dot_S10000x512_S512x512_S10000x512_1_0_0_1_n_n_wf : DotDims.WF S10000x512 S512x512 S10000x512 [1] [0] [0] [1] [] []

variable [Facts₀]

def gather_S10000x3_S160000x1_S160000x3_1_0_n_n_0_1_13 : GatherDims S10000x3 S160000x1 S160000x3 where
  offsetDims := [1]
  collapsedSliceDims := [0]
  operandBatchingDims := []
  startIndicesBatchingDims := []
  startIndexMap := [0]
  indexVectorDim := 1
  sliceSizes := ![1, 3]
  wf := gather_S10000x3_S160000x1_S160000x3_1_0_n_n_0_1_13_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def dot_S160000x1076_S1076x512_S160000x512_1_0_0_1_n_n : DotDims S160000x1076 S1076x512 S160000x512 where
  lhsContracting := [1]
  rhsContracting := [0]
  lhsNonContracting := [0]
  rhsNonContracting := [1]
  lhsBatch := []
  rhsBatch := []
  wf := dot_S160000x1076_S1076x512_S160000x512_1_0_0_1_n_n_wf
def dot_S160000x512_S512x512_S160000x512_1_0_0_1_n_n : DotDims S160000x512 S512x512 S160000x512 where
  lhsContracting := [1]
  rhsContracting := [0]
  lhsNonContracting := [0]
  rhsNonContracting := [1]
  lhsBatch := []
  rhsBatch := []
  wf := dot_S160000x512_S512x512_S160000x512_1_0_0_1_n_n_wf
def dot_S160000x512_S512x256_S160000x256_1_0_0_1_n_n : DotDims S160000x512 S512x256 S160000x256 where
  lhsContracting := [1]
  rhsContracting := [0]
  lhsNonContracting := [0]
  rhsNonContracting := [1]
  lhsBatch := []
  rhsBatch := []
  wf := dot_S160000x512_S512x256_S160000x256_1_0_0_1_n_n_wf
def dot_S160000x256_S256x256_S160000x256_1_0_0_1_n_n : DotDims S160000x256 S256x256 S160000x256 where
  lhsContracting := [1]
  rhsContracting := [0]
  lhsNonContracting := [0]
  rhsNonContracting := [1]
  lhsBatch := []
  rhsBatch := []
  wf := dot_S160000x256_S256x256_S160000x256_1_0_0_1_n_n_wf
def dot_S160000x256_S256x1_S160000x1_1_0_0_1_n_n : DotDims S160000x256 S256x1 S160000x1 where
  lhsContracting := [1]
  rhsContracting := [0]
  lhsNonContracting := [0]
  rhsNonContracting := [1]
  lhsBatch := []
  rhsBatch := []
  wf := dot_S160000x256_S256x1_S160000x1_1_0_0_1_n_n_wf
def scatter_S10000x3_S160000x1_S160000x3_1_0_0_1 : ScatterDims S10000x3 S160000x1 S160000x3 where
  updateWindowDims := [1]
  insertedWindowDims := [0]
  scatterDimsToOperandDims := [0]
  indexVectorDim := 1
  wf := scatter_S10000x3_S160000x1_S160000x3_1_0_0_1_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x1024_S1024x512_S10000x512_1_0_0_1_n_n : DotDims S10000x1024 S1024x512 S10000x512 where
  lhsContracting := [1]
  rhsContracting := [0]
  lhsNonContracting := [0]
  rhsNonContracting := [1]
  lhsBatch := []
  rhsBatch := []
  wf := dot_S10000x1024_S1024x512_S10000x512_1_0_0_1_n_n_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.IndexRange.lean ====
/-
  Two facts about the indices of the graph's edges.

  (1) The added condition on the inputs says, of the [2, 160000] table of edge endpoints, that every word read as a
      signed number lies in [-10000, 10000). It is the last two conjuncts of the condition: each is an "all" of a
      comparison of the table against a constant, and an "all" that came out 1 had a 1 at every index.

  (2) The kernel program reads rows of a [10000, N] table by position with a guarded read: a negative position p is
      first replaced by p + 10000, the row is read at the wrapped position, and the row is replaced by a row of NaN
      unless the wrapped position lies in [0, 9999]. For positions in [-10000, 10000) the wrapped position always lies in
      [0, 9999], so the guard is 1 at every row and the guarded read is the read.
-/
import proofs.«401646_j12128987644271_1_alg».proof.Pre_finite_inputs
import proofs.«401646_j12128987644271_1_alg».proof.KernelIdeal
import Idealize.ShloMosaic.PureOps.Ideal
import Idealize.ShloMosaic.Lib.ReduceAll
import Idealize.ShloMosaic.Lib.StableHlo.Predicate
import Idealize.ShloMosaic.Lib.ValueIdx
import Idealize.ShloMosaic.Lib.Pipeline.Value

noncomputable section

namespace Cert.IndexRange

open Idealize.ShloMosaic Idealize.ShloMosaic.ValueIdx
open Cert.Pre_finite_inputs Cert.Pre_finite_inputs.Facts

/-- -10000 as a 32-bit word. -/
theorem toInt_neg10000 : (4294957296#32 : BitVec 32).toInt = -10000 := by decide

/-- 10000 as a 32-bit word. -/
theorem toInt_10000 : (10000#32 : BitVec 32).toInt = 10000 := by decide

/-- The condition on the inputs gives, at every entry e of the [2, 160000] table of endpoints, -10000 ≤ a1 e < 10000
    (signed). The condition is (c ∧ all (a1 ≥ -10000)) ∧ all (a1 < 10000) with c the conjunction of everything that
    comes before; c is not looked at. -/
theorem range_of_pre [Cert.Pre_finite_inputs.Facts]
    (a0 : FVec Ideal S10000x512 .f32) (a1 : IVec S2x160000 32) (a2 : FVec Ideal S160000x51 .f32)
    (a3 : FVec Ideal S10000x3 .f32) (a4 : FVec Ideal S512x1076 .f32) (a5 : FVec Ideal S512 .f32)
    (a6 : FVec Ideal S512x512 .f32) (a7 : FVec Ideal S512 .f32) (a8 : FVec Ideal S512x512 .f32)
    (a9 : FVec Ideal S512 .f32) (a10 : FVec Ideal S256x512 .f32) (a11 : FVec Ideal S256 .f32)
    (a12 : FVec Ideal S256x256 .f32) (a13 : FVec Ideal S256 .f32) (a14 : FVec Ideal S1x256 .f32)
    (a15 : FVec Ideal S512x1024 .f32) (a16 : FVec Ideal S512 .f32) (a17 : FVec Ideal S512x512 .f32)
    (a18 : FVec Ideal S512 .f32) (a19 : FVec Ideal S512x512 .f32) (a20 : FVec Ideal S512 .f32)
    (h : Cert.Pre_finite_inputs.fn (F := Ideal) a0 a1 a2 a3 a4 a5 a6 a7 a8 a9 a10 a11 a12 a13 a14 a15 a16 a17 a18 a19 a20
      = fun _ => 1#1) :
    ∀ e : Cert.Pre_finite_inputs.S2x160000.Idx, -10000 ≤ (a1 e).toInt ∧ (a1 e).toInt < 10000 := by
  intro e
  -- the condition, with everything before its last two conjuncts named c
  obtain ⟨c, hfn⟩ : ∃ c : IVec S_ 1,
      Cert.Pre_finite_inputs.fn (F := Ideal) a0 a1 a2 a3 a4 a5 a6 a7 a8 a9 a10 a11 a12 a13 a14 a15 a16 a17 a18 a19 a20 =
        andi
          (andi c
            (Host.reduce IntOp.andi
              (cmpi .sge a1 (broadcastInDim S2x160000 ![] bcast_S_S2x160000 (constantI S_ 32 4294957296#32)))
              (constantI S_ 1 1#1) reducesTo_S2x160000_S_d0_1 h_S_))
          (Host.reduce IntOp.andi
            (cmpi .slt a1 (broadcastInDim S2x160000 ![] bcast_S_S2x160000 (constantI S_ 32 10000#32)))
            (constantI S_ 1 1#1) reducesTo_S2x160000_S_d0_1 h_S_) := ⟨_, rfl⟩
  rw [hfn] at h
  have h0 := congrFun h ix0
  simp only [andi, IntOp.andi_eq_one] at h0
  obtain ⟨⟨-, hge⟩, hlt⟩ := h0
  haveI : Subsingleton S_.Idx := ⟨fun a b => funext fun d => d.elim0⟩
  have hge' := Host.reduce_andi_all _ _ _ _ _ hge e
  have hlt' := Host.reduce_andi_all _ _ _ _ _ hlt e
  -- an entry of a comparison against a constant spread over the table compares the entry with the constant
  change IntOp.cmpi .sge (a1 e) 4294957296#32 = 1#1 at hge'
  change IntOp.cmpi .slt (a1 e) 10000#32 = 1#1 at hlt'
  rw [IntOp.cmpi_sge, toInt_neg10000] at hge'
  rw [IntOp.cmpi_slt, toInt_10000] at hlt'
  exact ⟨hge', hlt'⟩

end Cert.IndexRange

namespace Cert.KernelIdeal.Take

open Idealize.ShloMosaic Idealize.ShloMosaic.ValueIdx
open Cert.KernelIdeal Cert.KernelIdeal.Facts₀

variable [Cert.KernelIdeal.Facts₀]

/-- The positions with the negative ones moved up by 10000: entry e is v e + 10000 when v e < 0 (signed), else v e. -/
abbrev wrapRow (v : IVec S160000 32) : IVec S160000 32 :=
  select (cmpi .slt v (broadcastInDim S160000 ![] bcast_S_S160000 (constantI S_ 32 0#32)))
    (addi v (broadcastInDim S160000 ![] bcast_S_S160000 (constantI S_ 32 10000#32))) v

/-- The wrapped positions as a [160000, 1] column: the start indices of the read. -/
abbrev w (v : IVec S160000 32) : IVec S160000x1 32 :=
  broadcastInDim S160000x1 ![0] bcast_S160000_S160000x1_0 (wrapRow v)

/-- The guard of the read, one bit per row: the wrapped position is at least 0 and at most 9999. -/
abbrev guard (v : IVec S160000 32) : IVec S160000 1 :=
  Host.reduce IntOp.andi
    (andi (cmpi .sge (w v) (broadcastInDim S160000x1 ![] bcast_S_S160000x1 (constantI S_ 32 0#32)))
      (cmpi .sle (w v)
        (broadcastInDim S160000x1 ![0, 1] bcast_S1x1_S160000x1_0_1
          (broadcastInDim S1x1 ![1] bcast_S1_S1x1_1 (constantI S1 32 9999#32)))))
    (constantI S_ 1 1#1) reducesTo_S160000x1_S160000_d1 h_S_

/-- One word: a position in [-10000, 10000), moved up by 10000 when negative, lies in [0, 9999]. The sum does not
    wrap: it is below 10000. -/
theorem wrap_word (x : BitVec 32) (hx : -10000 ≤ x.toInt ∧ x.toInt < 10000) :
    IntOp.cmpi .sge (Scalar.select (IntOp.cmpi .slt x 0#32) (IntOp.addi x 10000#32) x) 0#32 = 1#1 ∧
      IntOp.cmpi .sle (Scalar.select (IntOp.cmpi .slt x 0#32) (IntOp.addi x 10000#32) x) 9999#32 = 1#1 := by
  have h0 : (0#32 : BitVec 32).toInt = 0 := by decide
  have h9 : (9999#32 : BitVec 32).toInt = 9999 := by decide
  have h1 : (10000#32 : BitVec 32).toInt = 10000 := by decide
  rw [IntOp.cmpi_sge, IntOp.cmpi_sle, h0, h9]
  unfold Scalar.select
  by_cases hneg : x.toInt < 0
  · have hc : IntOp.cmpi .slt x 0#32 = 1 := IntOp.cmpi_slt.2 (by rw [h0]; exact hneg)
    rw [if_pos hc]
    have hs : (IntOp.addi x 10000#32).toInt = x.toInt + 10000 := by
      show (x + 10000#32).toInt = x.toInt + 10000
      rw [BitVec.toInt_add, h1]
      rw [Int.bmod_def]; omega
    rw [hs]; omega
  · have hc : ¬ IntOp.cmpi .slt x 0#32 = 1 := fun hc => hneg (by have := IntOp.cmpi_slt.1 hc; rwa [h0] at this)
    rw [if_neg hc]; omega

/-- Every wrapped position lies in [0, 9999], as the two comparisons the guard makes. -/
theorem wrapRow_range (v : IVec S160000 32) (hv : ∀ e, -10000 ≤ (v e).toInt ∧ (v e).toInt < 10000) (k : S160000.Idx) :
    IntOp.cmpi .sge (wrapRow v k) 0#32 = 1#1 ∧ IntOp.cmpi .sle (wrapRow v k) 9999#32 = 1#1 :=
  wrap_word (v k) (hv k)

/-- A left fold by "and" from 1 over words that are all 1 is 1. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a]
    exact foldl_andi_ones f hf l

/-- The guard is 1 at every row. -/
theorem mask_ones (v : IVec S160000 32) (hv : ∀ e, -10000 ≤ (v e).toInt ∧ (v e).toInt < 10000) :
    Host.reduce IntOp.andi
        (andi (cmpi .sge (w v) (broadcastInDim S160000x1 ![] bcast_S_S160000x1 (constantI S_ 32 0#32)))
          (cmpi .sle (w v)
            (broadcastInDim S160000x1 ![0, 1] bcast_S1x1_S160000x1_0_1
              (broadcastInDim S1x1 ![1] bcast_S1_S1x1_1 (constantI S1 32 9999#32)))))
        (constantI S_ 1 1#1) reducesTo_S160000x1_S160000_d1 h_S_
      = fun _ => 1#1 := by
  funext j
  rw [Host.reduce_eq_foldl]
  refine foldl_andi_ones _ (fun i => ?_) _
  -- at a row of the column, the two comparisons are those of the wrapped position of that row
  exact IntOp.andi_eq_one.2 (wrapRow_range v hv _)

/-- A choice between two [160000, 512] arrays by a row mask that is 1 at every row is the first array. -/
theorem select_ones512 {α : Type} (a b : S160000x512.Idx → α) :
    select (broadcastInDim (s := S160000) S160000x512 ![0] bcast_S160000_S160000x512_0 (fun _ => (1#1 : BitVec 1))) a b = a := by
  funext i
  show (if (1#1 : BitVec 1) = 1 then a i else b i) = a i
  exact if_pos rfl

/-- A choice between two [160000, 3] arrays by a row mask that is 1 at every row is the first array. -/
theorem select_ones3 {α : Type} (a b : S160000x3.Idx → α) :
    select (broadcastInDim (s := S160000) S160000x3 ![0] bcast_S160000_S160000x3_0 (fun _ => (1#1 : BitVec 1))) a b = a := by
  funext i
  show (if (1#1 : BitVec 1) = 1 then a i else b i) = a i
  exact if_pos rfl

/-- The guarded read of rows of a [10000, 512] table at positions in [-10000, 10000) is the read at the wrapped
    positions: the guard never fires. -/
theorem take512_eq_gather (x : FVec Ideal S10000x512 .f32) (v : IVec S160000 32)
    (hv : ∀ e, -10000 ≤ (v e).toInt ∧ (v e).toInt < 10000) :
    select
        (broadcastInDim S160000x512 ![0] bcast_S160000_S160000x512_0
          (Host.reduce IntOp.andi
            (andi (cmpi .sge (w v) (broadcastInDim S160000x1 ![] bcast_S_S160000x1 (constantI S_ 32 0#32)))
              (cmpi .sle (w v)
                (broadcastInDim S160000x1 ![0, 1] bcast_S1x1_S160000x1_0_1
                  (broadcastInDim S1x1 ![1] bcast_S1_S1x1_1 (constantI S1 32 9999#32)))))
            (constantI S_ 1 1#1) reducesTo_S160000x1_S160000_d1 h_S_))
        (Host.gather gather_S10000x512_S160000x1_S160000x512_1_0_n_n_0_1_1512 x (w v))
        (broadcastInDim S160000x512 ![] bcast_S_S160000x512 (constant (F := Ideal) S_ .f32 0x7FC00000#32))
      = Host.gather gather_S10000x512_S160000x1_S160000x512_1_0_n_n_0_1_1512 x (w v) := by
  rw [mask_ones v hv]
  exact select_ones512 _ _

/-- The same for a [10000, 3] table. -/
theorem take3_eq_gather (x : FVec Ideal S10000x3 .f32) (v : IVec S160000 32)
    (hv : ∀ e, -10000 ≤ (v e).toInt ∧ (v e).toInt < 10000) :
    select
        (broadcastInDim S160000x3 ![0] bcast_S160000_S160000x3_0
          (Host.reduce IntOp.andi
            (andi (cmpi .sge (w v) (broadcastInDim S160000x1 ![] bcast_S_S160000x1 (constantI S_ 32 0#32)))
              (cmpi .sle (w v)
                (broadcastInDim S160000x1 ![0, 1] bcast_S1x1_S160000x1_0_1
                  (broadcastInDim S1x1 ![1] bcast_S1_S1x1_1 (constantI S1 32 9999#32)))))
            (constantI S_ 1 1#1) reducesTo_S160000x1_S160000_d1 h_S_))
        (Host.gather gather_S10000x3_S160000x1_S160000x3_1_0_n_n_0_1_13 x (w v))
        (broadcastInDim S160000x3 ![] bcast_S_S160000x3 (constant (F := Ideal) S_ .f32 0x7FC00000#32))
      = Host.gather gather_S10000x3_S160000x1_S160000x3_1_0_n_n_0_1_13 x (w v) := by
  rw [mask_ones v hv]
  exact select_ones3 _ _

end Cert.KernelIdeal.Take

end
-- ==== Proof.KData.lean ====
/-
  The data path of the kernel program against the reference's, stage by stage.

  The two programs' host sides are the same operations in the same order on the same arguments: the two rows of
  edge endpoints, the four gathers, the squared length with its clip, the normalised difference, and after the
  first region the two scatter-adds and the new positions. Each buffer of the kernel program is shown to hold
  exactly the reference's stage of the same name in the mathematics; the one place where the programs differ —
  the kernel program's gathers answer a fill value at an index outside the table, the reference's clamp — is
  closed by the index range the precondition states.
-/
import proofs.«401646_j12128987644271_1_alg».proof.Proof.Gen.KernelIdeal.Frame
import proofs.«401646_j12128987644271_1_alg».proof.Proof.Gen.ReferenceIdeal.Read
import proofs.«401646_j12128987644271_1_alg».proof.Proof.IndexRange
import Idealize.ShloMosaic.PureOps.Ideal
import Idealize.ShloMosaic.Lib.StableHlo.Run
import Idealize.ShloMosaic.Lib.Pipeline.Value
import Idealize.ShloMosaic.Lib.ValueIdx

set_option maxRecDepth 16384

noncomputable section

namespace Cert.KernelIdeal.Data

open Cert.KernelIdeal Cert.KernelIdeal.Gen Idealize.ShloMosaic Idealize.ShloMosaic.TcCoe Idealize.ShloMosaic.Tactic
open Idealize.SL.Sem Idealize.ShloMosaic.StableHlo Idealize.ShloMosaic.ValueIdx

/-- A stretch of host operations leaves a buffer none of them writes as it found it. -/
macro "unwritten" : tactic =>
  `(tactic| (refine StableHlo.after_of_forall_not_mem _ _ (List.forall_iff_forall_mem.mp ?_)
             simp only [hostOps0, hostOps0_1, hostOps0_2, hostOps0_3, hostOps0_4, hostOps0_5, hostOps0_6, hostOps0_7, hostOps1,
               List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg)

/-! ## Buffers walked back to the boundary where they were written -/

section Walks
variable (c : Dev nD)

theorem W1_arg0 : W1 m ρ c (Proc.devRef .tc main_arg0) = m ((c : Thread nD τ).loc main_arg0) :=
  calc W1 m ρ c (Proc.devRef .tc main_arg0)
    _ = W0 m ρ c (Proc.devRef .tc main_arg0) := by unwritten
    _ = m ((c : Thread nD τ).loc main_arg0) := rfl
theorem W2_arg0 : W2 m ρ c (Proc.devRef .tc main_arg0) = m ((c : Thread nD τ).loc main_arg0) :=
  calc W2 m ρ c (Proc.devRef .tc main_arg0)
    _ = W1 m ρ c (Proc.devRef .tc main_arg0) := by unwritten
    _ = W0 m ρ c (Proc.devRef .tc main_arg0) := by unwritten
    _ = m ((c : Thread nD τ).loc main_arg0) := rfl
theorem W3_arg3 : W3 m ρ c (Proc.devRef .tc main_arg3) = m ((c : Thread nD τ).loc main_arg3) :=
  calc W3 m ρ c (Proc.devRef .tc main_arg3)
    _ = W2 m ρ c (Proc.devRef .tc main_arg3) := by unwritten
    _ = W1 m ρ c (Proc.devRef .tc main_arg3) := by unwritten
    _ = W0 m ρ c (Proc.devRef .tc main_arg3) := by unwritten
    _ = m ((c : Thread nD τ).loc main_arg3) := rfl
theorem W4_arg3 : W4 m ρ c (Proc.devRef .tc main_arg3) = m ((c : Thread nD τ).loc main_arg3) :=
  calc W4 m ρ c (Proc.devRef .tc main_arg3)
    _ = W3 m ρ c (Proc.devRef .tc main_arg3) := by unwritten
    _ = W2 m ρ c (Proc.devRef .tc main_arg3) := by unwritten
    _ = W1 m ρ c (Proc.devRef .tc main_arg3) := by unwritten
    _ = W0 m ρ c (Proc.devRef .tc main_arg3) := by unwritten
    _ = m ((c : Thread nD τ).loc main_arg3) := rfl
theorem W8_arg2 : W8 m ρ c (Proc.devRef .tc main_arg2) = m ((c : Thread nD τ).loc main_arg2) :=
  calc W8 m ρ c (Proc.devRef .tc main_arg2)
    _ = W7 m ρ c (Proc.devRef .tc main_arg2) := by unwritten
    _ = W6 m ρ c (Proc.devRef .tc main_arg2) := by unwritten
    _ = W5 m ρ c (Proc.devRef .tc main_arg2) := by unwritten
    _ = W4 m ρ c (Proc.devRef .tc main_arg2) := by unwritten
    _ = W3 m ρ c (Proc.devRef .tc main_arg2) := by unwritten
    _ = W2 m ρ c (Proc.devRef .tc main_arg2) := by unwritten
    _ = W1 m ρ c (Proc.devRef .tc main_arg2) := by unwritten
    _ = W0 m ρ c (Proc.devRef .tc main_arg2) := by unwritten
    _ = m ((c : Thread nD τ).loc main_arg2) := rfl
theorem W2_v3 : W2 m ρ c (Proc.devRef .tc main_v3) = W1 m ρ c (Proc.devRef .tc main_v3) :=
  calc W2 m ρ c (Proc.devRef .tc main_v3)
    _ = W1 m ρ c (Proc.devRef .tc main_v3) := by unwritten
theorem W3_v1 : W3 m ρ c (Proc.devRef .tc main_v1) = W1 m ρ c (Proc.devRef .tc main_v1) :=
  calc W3 m ρ c (Proc.devRef .tc main_v1)
    _ = W2 m ρ c (Proc.devRef .tc main_v1) := by unwritten
    _ = W1 m ρ c (Proc.devRef .tc main_v1) := by unwritten
theorem W4_v3 : W4 m ρ c (Proc.devRef .tc main_v3) = W1 m ρ c (Proc.devRef .tc main_v3) :=
  calc W4 m ρ c (Proc.devRef .tc main_v3)
    _ = W3 m ρ c (Proc.devRef .tc main_v3) := by unwritten
    _ = W2 m ρ c (Proc.devRef .tc main_v3) := by unwritten
    _ = W1 m ρ c (Proc.devRef .tc main_v3) := by unwritten
theorem W5_v6 : W5 m ρ c (Proc.devRef .tc main_v6) = W4 m ρ c (Proc.devRef .tc main_v6) :=
  calc W5 m ρ c (Proc.devRef .tc main_v6)
    _ = W4 m ρ c (Proc.devRef .tc main_v6) := by unwritten
theorem W7_v8 : W7 m ρ c (Proc.devRef .tc main_v8) = W6 m ρ c (Proc.devRef .tc main_v8) :=
  calc W7 m ρ c (Proc.devRef .tc main_v8)
    _ = W6 m ρ c (Proc.devRef .tc main_v8) := by unwritten
theorem W8_v4 : W8 m ρ c (Proc.devRef .tc main_v4) = W2 m ρ c (Proc.devRef .tc main_v4) :=
  calc W8 m ρ c (Proc.devRef .tc main_v4)
    _ = W7 m ρ c (Proc.devRef .tc main_v4) := by unwritten
    _ = W6 m ρ c (Proc.devRef .tc main_v4) := by unwritten
    _ = W5 m ρ c (Proc.devRef .tc main_v4) := by unwritten
    _ = W4 m ρ c (Proc.devRef .tc main_v4) := by unwritten
    _ = W3 m ρ c (Proc.devRef .tc main_v4) := by unwritten
    _ = W2 m ρ c (Proc.devRef .tc main_v4) := by unwritten
theorem W8_v5 : W8 m ρ c (Proc.devRef .tc main_v5) = W3 m ρ c (Proc.devRef .tc main_v5) :=
  calc W8 m ρ c (Proc.devRef .tc main_v5)
    _ = W7 m ρ c (Proc.devRef .tc main_v5) := by unwritten
    _ = W6 m ρ c (Proc.devRef .tc main_v5) := by unwritten
    _ = W5 m ρ c (Proc.devRef .tc main_v5) := by unwritten
    _ = W4 m ρ c (Proc.devRef .tc main_v5) := by unwritten
    _ = W3 m ρ c (Proc.devRef .tc main_v5) := by unwritten
theorem W8_v12 : W8 m ρ c (Proc.devRef .tc main_v12) = W7 m ρ c (Proc.devRef .tc main_v12) :=
  calc W8 m ρ c (Proc.devRef .tc main_v12)
    _ = W7 m ρ c (Proc.devRef .tc main_v12) := by unwritten
theorem W8_v1 : W8 m ρ c (Proc.devRef .tc main_v1) = W1 m ρ c (Proc.devRef .tc main_v1) :=
  calc W8 m ρ c (Proc.devRef .tc main_v1)
    _ = W7 m ρ c (Proc.devRef .tc main_v1) := by unwritten
    _ = W6 m ρ c (Proc.devRef .tc main_v1) := by unwritten
    _ = W5 m ρ c (Proc.devRef .tc main_v1) := by unwritten
    _ = W4 m ρ c (Proc.devRef .tc main_v1) := by unwritten
    _ = W3 m ρ c (Proc.devRef .tc main_v1) := by unwritten
    _ = W2 m ρ c (Proc.devRef .tc main_v1) := by unwritten
    _ = W1 m ρ c (Proc.devRef .tc main_v1) := by unwritten

end Walks

/-! ## The two rows of endpoints -/

/-- The row of first endpoints: row 0 of the table, as a vector. -/
theorem row_eq (c : Dev nD) : Cert.ReferenceIdeal.Read.val_main_v1 (F := Ideal) (m ((c : Thread nD τ).loc main_arg1)) = W1 m ρ c (Proc.devRef .tc main_v1) := by
  have h1 : W0 m ρ c (Proc.devRef .tc main_arg1) = m ((c : Thread nD τ).loc main_arg1) := rfl
  symm
  dsimp only [W1]
  generalize W0 m ρ c = V at h1 ⊢
  dsimp only [hostOps0]
  after_results_simp
  rw [h1]
  rfl

/-- The row of second endpoints: row 1 of the table, as a vector. -/
theorem col_eq (c : Dev nD) : Cert.ReferenceIdeal.Read.val_main_v3 (F := Ideal) (m ((c : Thread nD τ).loc main_arg1)) = W1 m ρ c (Proc.devRef .tc main_v3) := by
  have h1 : W0 m ρ c (Proc.devRef .tc main_arg1) = m ((c : Thread nD τ).loc main_arg1) := rfl
  symm
  dsimp only [W1]
  generalize W0 m ρ c = V at h1 ⊢
  dsimp only [hostOps0]
  after_results_simp
  rw [h1]
  rfl

/-- Every first endpoint lies in the range the condition on the inputs states for the table. -/
theorem row_range (c : Dev nD) (hr : ∀ e : S2x160000.Idx, -10000 ≤ ((m ((c : Thread nD τ).loc main_arg1) : IVec S2x160000 32) e).toInt ∧ ((m ((c : Thread nD τ).loc main_arg1) : IVec S2x160000 32) e).toInt < 10000) :
    ∀ e, -10000 ≤ (Cert.ReferenceIdeal.Read.val_main_v1 (F := Ideal) (m ((c : Thread nD τ).loc main_arg1)) e).toInt ∧ (Cert.ReferenceIdeal.Read.val_main_v1 (F := Ideal) (m ((c : Thread nD τ).loc main_arg1)) e).toInt < 10000 := fun e => by
  rw [Cert.ReferenceIdeal.Read.val_main_v1_apply, Cert.ReferenceIdeal.Read.val_main_v0_apply]; exact hr _
/-- Every second endpoint likewise. -/
theorem col_range (c : Dev nD) (hr : ∀ e : S2x160000.Idx, -10000 ≤ ((m ((c : Thread nD τ).loc main_arg1) : IVec S2x160000 32) e).toInt ∧ ((m ((c : Thread nD τ).loc main_arg1) : IVec S2x160000 32) e).toInt < 10000) :
    ∀ e, -10000 ≤ (Cert.ReferenceIdeal.Read.val_main_v3 (F := Ideal) (m ((c : Thread nD τ).loc main_arg1)) e).toInt ∧ (Cert.ReferenceIdeal.Read.val_main_v3 (F := Ideal) (m ((c : Thread nD τ).loc main_arg1)) e).toInt < 10000 := fun e => by
  rw [Cert.ReferenceIdeal.Read.val_main_v3_apply, Cert.ReferenceIdeal.Read.val_main_v2_apply]; exact hr _

/-! ## The four gathers: with every endpoint in range the guard is 1 everywhere and the guarded read is the read -/

/-- The feature rows of the first endpoints. -/
theorem hrow_eq (c : Dev nD) (hr : ∀ e : S2x160000.Idx, -10000 ≤ ((m ((c : Thread nD τ).loc main_arg1) : IVec S2x160000 32) e).toInt ∧ ((m ((c : Thread nD τ).loc main_arg1) : IVec S2x160000 32) e).toInt < 10000) : Cert.ReferenceIdeal.Read.val_main_v34 (F := Ideal) (m ((c : Thread nD τ).loc main_arg0)) (m ((c : Thread nD τ).loc main_arg1)) = W2 m ρ c (Proc.devRef .tc main_v4) := by
  have h0 := W1_arg0 m ρ c
  have h1 := row_eq m ρ c
  symm
  dsimp only [W2]
  generalize W1 m ρ c = V at h0 h1 ⊢
  dsimp only [hostOps0_1]
  after_results_simp
  rw [h0, ← h1]
  -- the stretch's composed term is the guarded read; the guarded read is the read; the read is the reference's stage
  refine Eq.trans ?_ ((Cert.KernelIdeal.Take.take512_eq_gather (m ((c : Thread nD τ).loc main_arg0)) (Cert.ReferenceIdeal.Read.val_main_v1 (F := Ideal) (m ((c : Thread nD τ).loc main_arg1))) (row_range m c hr)).trans ?_)
  · set_option maxRecDepth 200000 in rfl
  · set_option maxRecDepth 200000 in rfl

/-- The feature rows of the second endpoints. -/
theorem hcol_eq (c : Dev nD) (hr : ∀ e : S2x160000.Idx, -10000 ≤ ((m ((c : Thread nD τ).loc main_arg1) : IVec S2x160000 32) e).toInt ∧ ((m ((c : Thread nD τ).loc main_arg1) : IVec S2x160000 32) e).toInt < 10000) : Cert.ReferenceIdeal.Read.val_main_v41 (F := Ideal) (m ((c : Thread nD τ).loc main_arg0)) (m ((c : Thread nD τ).loc main_arg1)) = W3 m ρ c (Proc.devRef .tc main_v5) := by
  have h0 := W2_arg0 m ρ c
  have h1 := (W2_v3 m ρ c).trans (col_eq m ρ c).symm
  symm
  dsimp only [W3]
  generalize W2 m ρ c = V at h0 h1 ⊢
  dsimp only [hostOps0_2]
  after_results_simp
  rw [h0, h1]
  -- the stretch's composed term is the guarded read; the guarded read is the read; the read is the reference's stage
  refine Eq.trans ?_ ((Cert.KernelIdeal.Take.take512_eq_gather (m ((c : Thread nD τ).loc main_arg0)) (Cert.ReferenceIdeal.Read.val_main_v3 (F := Ideal) (m ((c : Thread nD τ).loc main_arg1))) (col_range m c hr)).trans ?_)
  · set_option maxRecDepth 200000 in rfl
  · set_option maxRecDepth 200000 in rfl

/-- The positions of the first endpoints. -/
theorem prow_eq (c : Dev nD) (hr : ∀ e : S2x160000.Idx, -10000 ≤ ((m ((c : Thread nD τ).loc main_arg1) : IVec S2x160000 32) e).toInt ∧ ((m ((c : Thread nD τ).loc main_arg1) : IVec S2x160000 32) e).toInt < 10000) : Cert.ReferenceIdeal.Read.val_main_v10 (F := Ideal) (m ((c : Thread nD τ).loc main_arg1)) (m ((c : Thread nD τ).loc main_arg3)) = W4 m ρ c (Proc.devRef .tc main_v6) := by
  have h0 := W3_arg3 m ρ c
  have h1 := (W3_v1 m ρ c).trans (row_eq m ρ c).symm
  symm
  dsimp only [W4]
  generalize W3 m ρ c = V at h0 h1 ⊢
  dsimp only [hostOps0_3]
  after_results_simp
  rw [h0, h1]
  -- the stretch's composed term is the guarded read; the guarded read is the read; the read is the reference's stage
  refine Eq.trans ?_ ((Cert.KernelIdeal.Take.take3_eq_gather (m ((c : Thread nD τ).loc main_arg3)) (Cert.ReferenceIdeal.Read.val_main_v1 (F := Ideal) (m ((c : Thread nD τ).loc main_arg1))) (row_range m c hr)).trans ?_)
  · set_option maxRecDepth 200000 in rfl
  · set_option maxRecDepth 200000 in rfl

/-- The positions of the second endpoints. -/
theorem pcol_eq (c : Dev nD) (hr : ∀ e : S2x160000.Idx, -10000 ≤ ((m ((c : Thread nD τ).loc main_arg1) : IVec S2x160000 32) e).toInt ∧ ((m ((c : Thread nD τ).loc main_arg1) : IVec S2x160000 32) e).toInt < 10000) : Cert.ReferenceIdeal.Read.val_main_v17 (F := Ideal) (m ((c : Thread nD τ).loc main_arg1)) (m ((c : Thread nD τ).loc main_arg3)) = W5 m ρ c (Proc.devRef .tc main_v7) := by
  have h0 := W4_arg3 m ρ c
  have h1 := (W4_v3 m ρ c).trans (col_eq m ρ c).symm
  symm
  dsimp only [W5]
  generalize W4 m ρ c = V at h0 h1 ⊢
  dsimp only [hostOps0_4]
  after_results_simp
  rw [h0, h1]
  -- the stretch's composed term is the guarded read; the guarded read is the read; the read is the reference's stage
  refine Eq.trans ?_ ((Cert.KernelIdeal.Take.take3_eq_gather (m ((c : Thread nD τ).loc main_arg3)) (Cert.ReferenceIdeal.Read.val_main_v3 (F := Ideal) (m ((c : Thread nD τ).loc main_arg1))) (col_range m c hr)).trans ?_)
  · set_option maxRecDepth 200000 in rfl
  · set_option maxRecDepth 200000 in rfl

/-! ## The squared length, clipped, and the normalised difference: the same operations on the same values -/

/-- The difference of the endpoints' positions. -/
theorem diff_eq (c : Dev nD) (hr : ∀ e : S2x160000.Idx, -10000 ≤ ((m ((c : Thread nD τ).loc main_arg1) : IVec S2x160000 32) e).toInt ∧ ((m ((c : Thread nD τ).loc main_arg1) : IVec S2x160000 32) e).toInt < 10000) : Cert.ReferenceIdeal.Read.val_main_v18 (F := Ideal) (m ((c : Thread nD τ).loc main_arg1)) (m ((c : Thread nD τ).loc main_arg3)) = W6 m ρ c (Proc.devRef .tc main_v8) := by
  have h6 := (W5_v6 m ρ c).trans (prow_eq m ρ c hr).symm
  have h7 := (pcol_eq m ρ c hr).symm
  symm
  dsimp only [W6]
  generalize W5 m ρ c = V at h6 h7 ⊢
  dsimp only [hostOps0_5]
  after_results_simp
  rw [h6, h7]
  rfl

/-- The squared length of the difference, as a column. -/
theorem sq_eq (c : Dev nD) (hr : ∀ e : S2x160000.Idx, -10000 ≤ ((m ((c : Thread nD τ).loc main_arg1) : IVec S2x160000 32) e).toInt ∧ ((m ((c : Thread nD τ).loc main_arg1) : IVec S2x160000 32) e).toInt < 10000) : Cert.ReferenceIdeal.Read.val_main_v21 (F := Ideal) (m ((c : Thread nD τ).loc main_arg1)) (m ((c : Thread nD τ).loc main_arg3)) = W6 m ρ c (Proc.devRef .tc main_v11) := by
  have h6 := (W5_v6 m ρ c).trans (prow_eq m ρ c hr).symm
  have h7 := (pcol_eq m ρ c hr).symm
  symm
  dsimp only [W6]
  generalize W5 m ρ c = V at h6 h7 ⊢
  dsimp only [hostOps0_5]
  after_results_simp
  rw [h6, h7]
  rfl

/-- The lower clip bound. -/
theorem lo_eq (c : Dev nD) : Cert.ReferenceIdeal.Read.val_main_cst_3 (F := Ideal) = W6 m ρ c (Proc.devRef .tc main_cst_0) := by
  have h : True := trivial
  symm
  dsimp only [W6]
  generalize W5 m ρ c = V at h ⊢
  dsimp only [hostOps0_5]
  after_results_simp
  rfl

/-- The upper clip bound. -/
theorem hi_eq (c : Dev nD) : Cert.ReferenceIdeal.Read.val_main_cst_4 (F := Ideal) = W6 m ρ c (Proc.devRef .tc main_cst_1) := by
  have h : True := trivial
  symm
  dsimp only [W6]
  generalize W5 m ρ c = V at h ⊢
  dsimp only [hostOps0_5]
  after_results_simp
  rfl

/-- The clipped squared length. -/
theorem dist2_eq (c : Dev nD) (hr : ∀ e : S2x160000.Idx, -10000 ≤ ((m ((c : Thread nD τ).loc main_arg1) : IVec S2x160000 32) e).toInt ∧ ((m ((c : Thread nD τ).loc main_arg1) : IVec S2x160000 32) e).toInt < 10000) : Cert.ReferenceIdeal.Read.val_main_v22 (F := Ideal) (m ((c : Thread nD τ).loc main_arg1)) (m ((c : Thread nD τ).loc main_arg3)) = W7 m ρ c (Proc.devRef .tc main_v12) := by
  have h11 := (sq_eq m ρ c hr).symm
  have hlo := (lo_eq m ρ c).symm
  have hhi := (hi_eq m ρ c).symm
  symm
  dsimp only [W7]
  generalize W6 m ρ c = V at h11 hlo hhi ⊢
  dsimp only [hostOps0_6]
  after_results_simp
  rw [h11, hlo, hhi]
  rfl

/-- The difference over its length. -/
theorem unit_eq (c : Dev nD) (hr : ∀ e : S2x160000.Idx, -10000 ≤ ((m ((c : Thread nD τ).loc main_arg1) : IVec S2x160000 32) e).toInt ∧ ((m ((c : Thread nD τ).loc main_arg1) : IVec S2x160000 32) e).toInt < 10000) : Cert.ReferenceIdeal.Read.val_main_v27 (F := Ideal) (m ((c : Thread nD τ).loc main_arg1)) (m ((c : Thread nD τ).loc main_arg3)) = W8 m ρ c (Proc.devRef .tc main_v17) := by
  have h8 := (W7_v8 m ρ c).trans (diff_eq m ρ c hr).symm
  have h12 := (dist2_eq m ρ c hr).symm
  symm
  dsimp only [W8]
  generalize W7 m ρ c = V at h8 h12 ⊢
  dsimp only [hostOps0_7]
  after_results_simp
  rw [h8, h12]
  rfl

end Cert.KernelIdeal.Data

end
-- ==== Proof.KHost1.lean ====
/-
  What the host side leaves after the first region, and which buffers the regions' arrays are.

  Between the two regions the host adds every edge's message row into a zero table of 10000 node rows at the row of
  the edge's first endpoint, does the same for the edge's three gated coordinate differences, and adds that second
  table to the positions; an endpoint index below zero has 10000 added to it first. The two tables are stated here
  as those sums over the buffers the first region leaves (`agg_eq`, `posnew_eq`). A buffer that no later stretch of
  host operations and no region writes holds, at every later boundary, what it held when it was written: the first
  row of endpoint indices, the positions and the node rows are walked back that way (`W9_v1`, `W9_arg3`,
  `W10_arg0`). Each region's windows are arrays in named buffers (`arr0_w`, `arr1_w`), and at a region's exit an
  output window's buffer holds the region's array (`W9_msgs`, `W9_trans`, `W11_hnew`) while every buffer that is no
  window's array is untouched (`W11_posnew`).
-/
import proofs.«401646_j12128987644271_1_alg».proof.Proof.Gen.KernelIdeal.Frame
import Idealize.ShloMosaic.PureOps.Ideal
import Idealize.ShloMosaic.Lib.StableHlo.Run
import Idealize.ShloMosaic.Lib.Pipeline.Value
import Idealize.ShloMosaic.Lib.ValueIdx

set_option maxRecDepth 16384

noncomputable section

namespace Cert.KernelIdeal.Host1

open Cert.KernelIdeal Cert.KernelIdeal.Gen Idealize.ShloMosaic Idealize.ShloMosaic.TcCoe Idealize.ShloMosaic.Tactic
open Idealize.SL.Sem Idealize.ShloMosaic.StableHlo Idealize.ShloMosaic.ValueIdx

/-- A stretch of host operations leaves a buffer none of them writes as it found it. -/
macro "unwritten" : tactic =>
  `(tactic| (refine StableHlo.after_of_forall_not_mem _ _ (List.forall_iff_forall_mem.mp ?_)
             simp only [hostOps0, hostOps0_1, hostOps0_2, hostOps0_3, hostOps0_4, hostOps0_5, hostOps0_6, hostOps0_7, hostOps1,
               List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg)

/-! ## The two sums over edges and the new positions

After the first region the program adds, into a table of zeros with one row per node, every edge's message row at
the row of the edge's first endpoint, does the same with the edge's three gated coordinate differences, and adds
the second table to the positions. An endpoint index below zero is read as counting from the end of the table:
`10000` is added to it. -/

/-- The endpoint indices with `10000` added to each negative one, as a column. -/
def wrapCol (v : IVec S160000 32) : IVec S160000x1 32 :=
  broadcastInDim S160000x1 ![0] bcast_S160000_S160000x1_0
    (select (cmpi .slt v (broadcastInDim S160000 ![] bcast_S_S160000 (constantI S_ 32 0#32)))
      (addi v (broadcastInDim S160000 ![] bcast_S_S160000 (constantI S_ 32 10000#32))) v)

/-- The table of summed messages: the zero table with every edge's message row added at the edge's wrapped first
    endpoint. -/
theorem agg_eq (c : Dev nD) :
    Host.scatterAdd (F := Ideal) scatter_S10000x512_S160000x1_S160000x512_1_0_0_1
        (broadcastInDim S10000x512 ![] bcast_S_S10000x512 (constant S_ .f32 0x00000000#32))
        (wrapCol (W9 m ρ c (Proc.devRef .tc main_v1))) (W9 m ρ c (Proc.devRef .tc main_v35_0))
      = W10 m ρ c (Proc.devRef .tc main_v43) := by
  symm
  dsimp only [W10]
  generalize W9 m ρ c = V
  dsimp only [hostOps1]
  after_results_simp
  rfl

/-- The new positions: the positions plus the zero table with every edge's three gated coordinate differences
    added at the edge's wrapped first endpoint. -/
theorem posnew_eq (c : Dev nD) :
    addf (F := Ideal) (W9 m ρ c (Proc.devRef .tc main_arg3))
        (Host.scatterAdd scatter_S10000x3_S160000x1_S160000x3_1_0_0_1
          (broadcastInDim S10000x3 ![] bcast_S_S10000x3 (constant S_ .f32 0x00000000#32))
          (wrapCol (W9 m ρ c (Proc.devRef .tc main_v1))) (W9 m ρ c (Proc.devRef .tc main_v35_1)))
      = W10 m ρ c (Proc.devRef .tc main_v52) := by
  symm
  dsimp only [W10]
  generalize W9 m ρ c = V
  dsimp only [hostOps1]
  after_results_simp
  rfl

/-! ## Buffers no later stretch writes, walked back to where they were written -/

/-- The first row of endpoint indices is, after the first region, what the first stretch left. -/
theorem W9_v1 (c : Dev nD) : W9 m ρ c (Proc.devRef .tc main_v1) = W1 m ρ c (Proc.devRef .tc main_v1) :=
  calc W9 m ρ c (Proc.devRef .tc main_v1)
    _ = W8 m ρ c (Proc.devRef .tc main_v1) := W9_of_ne m ρ c main_v1 (by decide)
    _ = W7 m ρ c (Proc.devRef .tc main_v1) := by unwritten
    _ = W6 m ρ c (Proc.devRef .tc main_v1) := by unwritten
    _ = W5 m ρ c (Proc.devRef .tc main_v1) := by unwritten
    _ = W4 m ρ c (Proc.devRef .tc main_v1) := by unwritten
    _ = W3 m ρ c (Proc.devRef .tc main_v1) := by unwritten
    _ = W2 m ρ c (Proc.devRef .tc main_v1) := by unwritten
    _ = W1 m ρ c (Proc.devRef .tc main_v1) := by unwritten

/-- The positions are, after the first region, the launch memory's. -/
theorem W9_arg3 (c : Dev nD) : m ((c : Thread nD τ).loc main_arg3) = W9 m ρ c (Proc.devRef .tc main_arg3) :=
  Eq.symm <|
  calc W9 m ρ c (Proc.devRef .tc main_arg3)
    _ = W8 m ρ c (Proc.devRef .tc main_arg3) := W9_of_ne m ρ c main_arg3 (by decide)
    _ = W7 m ρ c (Proc.devRef .tc main_arg3) := by unwritten
    _ = W6 m ρ c (Proc.devRef .tc main_arg3) := by unwritten
    _ = W5 m ρ c (Proc.devRef .tc main_arg3) := by unwritten
    _ = W4 m ρ c (Proc.devRef .tc main_arg3) := by unwritten
    _ = W3 m ρ c (Proc.devRef .tc main_arg3) := by unwritten
    _ = W2 m ρ c (Proc.devRef .tc main_arg3) := by unwritten
    _ = W1 m ρ c (Proc.devRef .tc main_arg3) := by unwritten
    _ = W0 m ρ c (Proc.devRef .tc main_arg3) := by unwritten
    _ = m ((c : Thread nD τ).loc main_arg3) := rfl

/-- The node rows are, at the second region's entry, the launch memory's. -/
theorem W10_arg0 (c : Dev nD) : m ((c : Thread nD τ).loc main_arg0) = W10 m ρ c (Proc.devRef .tc main_arg0) :=
  Eq.symm <|
  calc W10 m ρ c (Proc.devRef .tc main_arg0)
    _ = W9 m ρ c (Proc.devRef .tc main_arg0) := by unwritten
    _ = W8 m ρ c (Proc.devRef .tc main_arg0) := W9_of_ne m ρ c main_arg0 (by decide)
    _ = W7 m ρ c (Proc.devRef .tc main_arg0) := by unwritten
    _ = W6 m ρ c (Proc.devRef .tc main_arg0) := by unwritten
    _ = W5 m ρ c (Proc.devRef .tc main_arg0) := by unwritten
    _ = W4 m ρ c (Proc.devRef .tc main_arg0) := by unwritten
    _ = W3 m ρ c (Proc.devRef .tc main_arg0) := by unwritten
    _ = W2 m ρ c (Proc.devRef .tc main_arg0) := by unwritten
    _ = W1 m ρ c (Proc.devRef .tc main_arg0) := by unwritten
    _ = W0 m ρ c (Proc.devRef .tc main_arg0) := by unwritten
    _ = m ((c : Thread nD τ).loc main_arg0) := rfl

/-! ## Which buffer each window's array is -/

theorem arr0_0 : Pipeline.arrRef spec0 0 = main_v4 := rfl
theorem arr0_1 : Pipeline.arrRef spec0 1 = main_v5 := rfl
theorem arr0_2 : Pipeline.arrRef spec0 2 = main_arg2 := rfl
theorem arr0_3 : Pipeline.arrRef spec0 3 = main_v12 := rfl
theorem arr0_4 : Pipeline.arrRef spec0 4 = main_v17 := rfl
theorem arr0_5 : Pipeline.arrRef spec0 5 = main_v19 := rfl
theorem arr0_6 : Pipeline.arrRef spec0 6 = main_v20 := rfl
theorem arr0_7 : Pipeline.arrRef spec0 7 = main_v22 := rfl
theorem arr0_8 : Pipeline.arrRef spec0 8 = main_v23 := rfl
theorem arr0_9 : Pipeline.arrRef spec0 9 = main_v25 := rfl
theorem arr0_10 : Pipeline.arrRef spec0 10 = main_v26 := rfl
theorem arr0_11 : Pipeline.arrRef spec0 11 = main_v28 := rfl
theorem arr0_12 : Pipeline.arrRef spec0 12 = main_v29 := rfl
theorem arr0_13 : Pipeline.arrRef spec0 13 = main_v31 := rfl
theorem arr0_14 : Pipeline.arrRef spec0 14 = main_v32 := rfl
theorem arr0_15 : Pipeline.arrRef spec0 15 = main_v34 := rfl
theorem arr0_16 : Pipeline.arrRef spec0 16 = main_v35_0 := rfl
theorem arr0_17 : Pipeline.arrRef spec0 17 = main_v35_1 := rfl

theorem arr1_0 : Pipeline.arrRef spec1 0 = main_arg0 := rfl
theorem arr1_1 : Pipeline.arrRef spec1 1 = main_v43 := rfl
theorem arr1_2 : Pipeline.arrRef spec1 2 = main_v54 := rfl
theorem arr1_3 : Pipeline.arrRef spec1 3 = main_v55 := rfl
theorem arr1_4 : Pipeline.arrRef spec1 4 = main_v57 := rfl
theorem arr1_5 : Pipeline.arrRef spec1 5 = main_v58 := rfl
theorem arr1_6 : Pipeline.arrRef spec1 6 = main_v60 := rfl
theorem arr1_7 : Pipeline.arrRef spec1 7 = main_v61 := rfl
theorem arr1_8 : Pipeline.arrRef spec1 8 = main_v62 := rfl

/-! ## The regions' output arrays at the boundaries -/

/-- The first region's first output, the message rows, is what its array holds after the region. -/
theorem W9_msgs (c : Dev nD) : (dat0 (V8 m ρ) c).arrAt 16 cfg0.N = W9 m ρ c (Proc.devRef .tc main_v35_0) :=
  (W9_arr m ρ c 16).symm

/-- The first region's second output, the gated coordinate differences. -/
theorem W9_trans (c : Dev nD) : (dat0 (V8 m ρ) c).arrAt 17 cfg0.N = W9 m ρ c (Proc.devRef .tc main_v35_1) :=
  (W9_arr m ρ c 17).symm

/-- The second region's output, the new node rows, is what its array holds at the end. -/
theorem W11_hnew (c : Dev nD) : (dat1 (V10 m ρ) c).arrAt 8 cfg1.N = W11 m ρ c (Proc.devRef .tc main_v62) :=
  (W11_arr m ρ c 8).symm

/-- The second region leaves the new positions as it found them: none of its arrays is that buffer. -/
theorem W11_posnew (c : Dev nD) : W10 m ρ c (Proc.devRef .tc main_v52) = W11 m ρ c (Proc.devRef .tc main_v52) :=
  (W11_of_ne m ρ c main_v52 (by decide)).symm

end Cert.KernelIdeal.Host1

end
-- ==== Proof.KWeights.lean ====
import proofs.«401646_j12128987644271_1_alg».proof.Proof.Gen.KernelIdeal.Frame
import Idealize.ShloMosaic.PureOps.Ideal
import Idealize.ShloMosaic.Lib.StableHlo.Run
import Idealize.ShloMosaic.Lib.Pipeline.Value
import Idealize.ShloMosaic.Lib.ValueIdx
import Idealize.ShloMosaic.Lib.ValueLayout

set_option maxRecDepth 16384
noncomputable section
namespace Cert.KernelIdeal.Weights
open Cert.KernelIdeal Cert.KernelIdeal.Gen Idealize.ShloMosaic Idealize.ShloMosaic.TcCoe Idealize.ShloMosaic.Tactic Idealize.SL.Sem Idealize.ShloMosaic.StableHlo Idealize.ShloMosaic.ValueIdx
variable (m : (ℓ : Loc nD τ sig) → Buf (Elt Ideal) ℓ) (ρ : Dev nD → PrngReg)

/-! # The weight and bias buffers the host prepares, read at an entry

Before each of the two fused networks runs, the host program lays out that network's parameters: a weight matrix the
caller stores output-axis-first (`W : out × in`) is transposed to `in × out` and narrowed to the storage format of the
matrix unit (at the exact instance a change of format is the identity), and a bias vector of length `n` becomes the
single row of a `1 × n` matrix. No other operation touches these buffers or the launch arguments they are computed
from, so each prepared buffer, read at one entry, is an entry of a launch argument:

* prepared matrix, entry `(k, j)`  =  the caller's `W (j, k)`;
* prepared bias row, entry `(0, j)`  =  the caller's `b j`.
-/

/-! ## The two layout changes at an entry -/

/-- The transpose of a `B × A` matrix, narrowed entry by entry, at `(k, j)` is the matrix at `(j, k)`. -/
theorem stored_entry {A B : Nat} (x : FVec Ideal ⟨2, ![B, A]⟩ .f32)
    (h : (⟨2, ![B, A]⟩ : Shape).Transposes [1, 0] ⟨2, ![A, B]⟩) (hb : FTy.bf16.bits < FTy.f32.bits)
    (k : Fin A) (j : Fin B) :
    (truncf .bf16 (transpose ⟨2, ![A, B]⟩ [1, 0] x h) hb : FVec Ideal ⟨2, ![A, B]⟩ .bf16) (ix2 k j) = x (ix2 j k) := by
  refine (truncf_apply (ψ := .bf16) (φ := .f32) (transpose ⟨2, ![A, B]⟩ [1, 0] x h) hb (ix2 k j)).trans ?_
  refine transpose_apply _ _ _ _ (ix2 j k) ?_
  intro b
  match b with
  | ⟨0, _⟩ => rfl
  | ⟨1, _⟩ => rfl

/-- A vector of length `N` recast as a `1 × N` matrix, at `(0, j)`, is the vector at `j`: both sit at row-major
    position `j`. -/
theorem row_entry {α : Type} {N : Nat} (x : (⟨1, ![N]⟩ : Shape).Idx → α)
    (h : (⟨1, ![N]⟩ : Shape).ShapeCasts ⟨2, ![1, N]⟩) (j : Fin N) :
    shapeCast ⟨2, ![1, N]⟩ x h (ix2 0 j) = x (ix1 j) := by
  refine shapeCast_apply _ _ _ (ix1 j) ?_
  refine (Shape.rowMajor_val_one _).trans ?_
  refine Eq.trans ?_ (Shape.rowMajor_val_two (d := ![1, N]) (ix2 0 j)).symm
  show j.val = (0 : Fin 1).val * N + j.val
  simp

/-! ## The launch arguments are never written

A parameter argument is read by one transpose or one reshape and written by nothing: every host stretch before the
stretch that prepares it, and the first fused call for the second network's parameters, leaves it as launched. -/

/-- A host stretch leaves a buffer that none of its operations writes as it found it: the list of the stretch's
    written buffers is spelled out and the buffer is compared with each. -/
local macro "unwritten% " ops:ident : term =>
  `(StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- From the contents before the last host stretch of the first network back to the launch memory: seven stretches,
    none of which writes a launch argument. -/
local macro "launch_walk" : tactic =>
  `(tactic| exact
      (unwritten% hostOps0_6).trans <| (unwritten% hostOps0_5).trans <| (unwritten% hostOps0_4).trans <|
      (unwritten% hostOps0_3).trans <| (unwritten% hostOps0_2).trans <| (unwritten% hostOps0_1).trans <|
      (unwritten% hostOps0))

/-- Unfold one host stretch at the buffer in the goal, with the contents before the stretch kept opaque, and replace
    the one launch argument the result reads by its launch value (`h`). -/
local macro "read_stretch " W:ident V:term:max ops:ident h:term:max : tactic =>
  `(tactic| (dsimp only [$W:ident]; have hV := $h; generalize $V = V at hV ⊢; dsimp only [$ops:ident]
             after_results_simp; rw [hV]))

/-! ### Before the first network's parameters are prepared -/

theorem W7_arg4 (c : Dev nD) : W7 m ρ c (Proc.devRef .tc main_arg4) = m ((c : Thread nD τ).loc main_arg4) := by
  launch_walk

theorem W7_arg5 (c : Dev nD) : W7 m ρ c (Proc.devRef .tc main_arg5) = m ((c : Thread nD τ).loc main_arg5) := by
  launch_walk

theorem W7_arg6 (c : Dev nD) : W7 m ρ c (Proc.devRef .tc main_arg6) = m ((c : Thread nD τ).loc main_arg6) := by
  launch_walk

theorem W7_arg7 (c : Dev nD) : W7 m ρ c (Proc.devRef .tc main_arg7) = m ((c : Thread nD τ).loc main_arg7) := by
  launch_walk

theorem W7_arg8 (c : Dev nD) : W7 m ρ c (Proc.devRef .tc main_arg8) = m ((c : Thread nD τ).loc main_arg8) := by
  launch_walk

theorem W7_arg9 (c : Dev nD) : W7 m ρ c (Proc.devRef .tc main_arg9) = m ((c : Thread nD τ).loc main_arg9) := by
  launch_walk

theorem W7_arg10 (c : Dev nD) : W7 m ρ c (Proc.devRef .tc main_arg10) = m ((c : Thread nD τ).loc main_arg10) := by
  launch_walk

theorem W7_arg11 (c : Dev nD) : W7 m ρ c (Proc.devRef .tc main_arg11) = m ((c : Thread nD τ).loc main_arg11) := by
  launch_walk

theorem W7_arg12 (c : Dev nD) : W7 m ρ c (Proc.devRef .tc main_arg12) = m ((c : Thread nD τ).loc main_arg12) := by
  launch_walk

theorem W7_arg13 (c : Dev nD) : W7 m ρ c (Proc.devRef .tc main_arg13) = m ((c : Thread nD τ).loc main_arg13) := by
  launch_walk

theorem W7_arg14 (c : Dev nD) : W7 m ρ c (Proc.devRef .tc main_arg14) = m ((c : Thread nD τ).loc main_arg14) := by
  launch_walk

theorem W7_arg15 (c : Dev nD) : W7 m ρ c (Proc.devRef .tc main_arg15) = m ((c : Thread nD τ).loc main_arg15) := by
  launch_walk

theorem W7_arg16 (c : Dev nD) : W7 m ρ c (Proc.devRef .tc main_arg16) = m ((c : Thread nD τ).loc main_arg16) := by
  launch_walk

theorem W7_arg17 (c : Dev nD) : W7 m ρ c (Proc.devRef .tc main_arg17) = m ((c : Thread nD τ).loc main_arg17) := by
  launch_walk

theorem W7_arg18 (c : Dev nD) : W7 m ρ c (Proc.devRef .tc main_arg18) = m ((c : Thread nD τ).loc main_arg18) := by
  launch_walk

theorem W7_arg19 (c : Dev nD) : W7 m ρ c (Proc.devRef .tc main_arg19) = m ((c : Thread nD τ).loc main_arg19) := by
  launch_walk

theorem W7_arg20 (c : Dev nD) : W7 m ρ c (Proc.devRef .tc main_arg20) = m ((c : Thread nD τ).loc main_arg20) := by
  launch_walk

/-! ### After the first fused call (which reads and writes none of the second network's parameters) -/

theorem W9_arg15 (c : Dev nD) : W9 m ρ c (Proc.devRef .tc main_arg15) = m ((c : Thread nD τ).loc main_arg15) :=
  (W9_of_ne m ρ c main_arg15 (by decide)).trans <| (unwritten% hostOps0_7).trans <| W7_arg15 m ρ c

theorem W9_arg16 (c : Dev nD) : W9 m ρ c (Proc.devRef .tc main_arg16) = m ((c : Thread nD τ).loc main_arg16) :=
  (W9_of_ne m ρ c main_arg16 (by decide)).trans <| (unwritten% hostOps0_7).trans <| W7_arg16 m ρ c

theorem W9_arg17 (c : Dev nD) : W9 m ρ c (Proc.devRef .tc main_arg17) = m ((c : Thread nD τ).loc main_arg17) :=
  (W9_of_ne m ρ c main_arg17 (by decide)).trans <| (unwritten% hostOps0_7).trans <| W7_arg17 m ρ c

theorem W9_arg18 (c : Dev nD) : W9 m ρ c (Proc.devRef .tc main_arg18) = m ((c : Thread nD τ).loc main_arg18) :=
  (W9_of_ne m ρ c main_arg18 (by decide)).trans <| (unwritten% hostOps0_7).trans <| W7_arg18 m ρ c

theorem W9_arg19 (c : Dev nD) : W9 m ρ c (Proc.devRef .tc main_arg19) = m ((c : Thread nD τ).loc main_arg19) :=
  (W9_of_ne m ρ c main_arg19 (by decide)).trans <| (unwritten% hostOps0_7).trans <| W7_arg19 m ρ c

theorem W9_arg20 (c : Dev nD) : W9 m ρ c (Proc.devRef .tc main_arg20) = m ((c : Thread nD τ).loc main_arg20) :=
  (W9_of_ne m ρ c main_arg20 (by decide)).trans <| (unwritten% hostOps0_7).trans <| W7_arg20 m ρ c

/-! ## The first network's parameters (edge network: three layers of the message map, two of the gate, the gate's
    final column) -/

/-- Entry `(k, j)` of the prepared `1076 × 512` weight is entry `(j, k)` of the caller's `512 × 1076` weight. -/
theorem w_v19 (c : Dev nD) (k : Fin 1076) (j : Fin 512) :
    (W8 m ρ c (Proc.devRef .tc main_v19) : Vec Ideal S1076x512 .bf16) (ix2 k j)
      = (m ((c : Thread nD τ).loc main_arg4) : Vec Ideal S512x1076 .f32) (ix2 j k) := by
  read_stretch W8 (W7 m ρ c) hostOps0_7 (W7_arg4 m ρ c)
  exact stored_entry _ _ _ k j

/-- Entry `(0, j)` of the prepared `1 × 512` bias row is entry `j` of the caller's bias. -/
theorem w_v20 (c : Dev nD) (j : Fin 512) :
    (W8 m ρ c (Proc.devRef .tc main_v20) : Vec Ideal S1x512 .f32) (ix2 0 j)
      = (m ((c : Thread nD τ).loc main_arg5) : Vec Ideal S512 .f32) (ix1 j) := by
  read_stretch W8 (W7 m ρ c) hostOps0_7 (W7_arg5 m ρ c)
  exact row_entry _ _ j

/-- Entry `(k, j)` of the prepared `512 × 512` weight is entry `(j, k)` of the caller's `512 × 512` weight. -/
theorem w_v22 (c : Dev nD) (k : Fin 512) (j : Fin 512) :
    (W8 m ρ c (Proc.devRef .tc main_v22) : Vec Ideal S512x512 .bf16) (ix2 k j)
      = (m ((c : Thread nD τ).loc main_arg6) : Vec Ideal S512x512 .f32) (ix2 j k) := by
  read_stretch W8 (W7 m ρ c) hostOps0_7 (W7_arg6 m ρ c)
  exact stored_entry _ _ _ k j

/-- Entry `(0, j)` of the prepared `1 × 512` bias row is entry `j` of the caller's bias. -/
theorem w_v23 (c : Dev nD) (j : Fin 512) :
    (W8 m ρ c (Proc.devRef .tc main_v23) : Vec Ideal S1x512 .f32) (ix2 0 j)
      = (m ((c : Thread nD τ).loc main_arg7) : Vec Ideal S512 .f32) (ix1 j) := by
  read_stretch W8 (W7 m ρ c) hostOps0_7 (W7_arg7 m ρ c)
  exact row_entry _ _ j

/-- Entry `(k, j)` of the prepared `512 × 512` weight is entry `(j, k)` of the caller's `512 × 512` weight. -/
theorem w_v25 (c : Dev nD) (k : Fin 512) (j : Fin 512) :
    (W8 m ρ c (Proc.devRef .tc main_v25) : Vec Ideal S512x512 .bf16) (ix2 k j)
      = (m ((c : Thread nD τ).loc main_arg8) : Vec Ideal S512x512 .f32) (ix2 j k) := by
  read_stretch W8 (W7 m ρ c) hostOps0_7 (W7_arg8 m ρ c)
  exact stored_entry _ _ _ k j

/-- Entry `(0, j)` of the prepared `1 × 512` bias row is entry `j` of the caller's bias. -/
theorem w_v26 (c : Dev nD) (j : Fin 512) :
    (W8 m ρ c (Proc.devRef .tc main_v26) : Vec Ideal S1x512 .f32) (ix2 0 j)
      = (m ((c : Thread nD τ).loc main_arg9) : Vec Ideal S512 .f32) (ix1 j) := by
  read_stretch W8 (W7 m ρ c) hostOps0_7 (W7_arg9 m ρ c)
  exact row_entry _ _ j

/-- Entry `(k, j)` of the prepared `512 × 256` weight is entry `(j, k)` of the caller's `256 × 512` weight. -/
theorem w_v28 (c : Dev nD) (k : Fin 512) (j : Fin 256) :
    (W8 m ρ c (Proc.devRef .tc main_v28) : Vec Ideal S512x256 .bf16) (ix2 k j)
      = (m ((c : Thread nD τ).loc main_arg10) : Vec Ideal S256x512 .f32) (ix2 j k) := by
  read_stretch W8 (W7 m ρ c) hostOps0_7 (W7_arg10 m ρ c)
  exact stored_entry _ _ _ k j

/-- Entry `(0, j)` of the prepared `1 × 256` bias row is entry `j` of the caller's bias. -/
theorem w_v29 (c : Dev nD) (j : Fin 256) :
    (W8 m ρ c (Proc.devRef .tc main_v29) : Vec Ideal S1x256 .f32) (ix2 0 j)
      = (m ((c : Thread nD τ).loc main_arg11) : Vec Ideal S256 .f32) (ix1 j) := by
  read_stretch W8 (W7 m ρ c) hostOps0_7 (W7_arg11 m ρ c)
  exact row_entry _ _ j

/-- Entry `(k, j)` of the prepared `256 × 256` weight is entry `(j, k)` of the caller's `256 × 256` weight. -/
theorem w_v31 (c : Dev nD) (k : Fin 256) (j : Fin 256) :
    (W8 m ρ c (Proc.devRef .tc main_v31) : Vec Ideal S256x256 .bf16) (ix2 k j)
      = (m ((c : Thread nD τ).loc main_arg12) : Vec Ideal S256x256 .f32) (ix2 j k) := by
  read_stretch W8 (W7 m ρ c) hostOps0_7 (W7_arg12 m ρ c)
  exact stored_entry _ _ _ k j

/-- Entry `(0, j)` of the prepared `1 × 256` bias row is entry `j` of the caller's bias. -/
theorem w_v32 (c : Dev nD) (j : Fin 256) :
    (W8 m ρ c (Proc.devRef .tc main_v32) : Vec Ideal S1x256 .f32) (ix2 0 j)
      = (m ((c : Thread nD τ).loc main_arg13) : Vec Ideal S256 .f32) (ix1 j) := by
  read_stretch W8 (W7 m ρ c) hostOps0_7 (W7_arg13 m ρ c)
  exact row_entry _ _ j

/-- Entry `(k, 0)` of the prepared `256 × 1` column is entry `(0, k)` of the caller's `1 × 256` row. -/
theorem w_v34 (c : Dev nD) (k : Fin 256) :
    (W8 m ρ c (Proc.devRef .tc main_v34) : Vec Ideal S256x1 .bf16) (ix2 k 0)
      = (m ((c : Thread nD τ).loc main_arg14) : Vec Ideal S1x256 .f32) (ix2 0 k) := by
  read_stretch W8 (W7 m ρ c) hostOps0_7 (W7_arg14 m ρ c)
  exact stored_entry _ _ _ k 0

/-! ## The second network's parameters (node network: three layers) -/

/-- Entry `(k, j)` of the prepared `1024 × 512` weight is entry `(j, k)` of the caller's `512 × 1024` weight. -/
theorem w_v54 (c : Dev nD) (k : Fin 1024) (j : Fin 512) :
    (W10 m ρ c (Proc.devRef .tc main_v54) : Vec Ideal S1024x512 .bf16) (ix2 k j)
      = (m ((c : Thread nD τ).loc main_arg15) : Vec Ideal S512x1024 .f32) (ix2 j k) := by
  read_stretch W10 (W9 m ρ c) hostOps1 (W9_arg15 m ρ c)
  exact stored_entry _ _ _ k j

/-- Entry `(0, j)` of the prepared `1 × 512` bias row is entry `j` of the caller's bias. -/
theorem w_v55 (c : Dev nD) (j : Fin 512) :
    (W10 m ρ c (Proc.devRef .tc main_v55) : Vec Ideal S1x512 .f32) (ix2 0 j)
      = (m ((c : Thread nD τ).loc main_arg16) : Vec Ideal S512 .f32) (ix1 j) := by
  read_stretch W10 (W9 m ρ c) hostOps1 (W9_arg16 m ρ c)
  exact row_entry _ _ j

/-- Entry `(k, j)` of the prepared `512 × 512` weight is entry `(j, k)` of the caller's `512 × 512` weight. -/
theorem w_v57 (c : Dev nD) (k : Fin 512) (j : Fin 512) :
    (W10 m ρ c (Proc.devRef .tc main_v57) : Vec Ideal S512x512 .bf16) (ix2 k j)
      = (m ((c : Thread nD τ).loc main_arg17) : Vec Ideal S512x512 .f32) (ix2 j k) := by
  read_stretch W10 (W9 m ρ c) hostOps1 (W9_arg17 m ρ c)
  exact stored_entry _ _ _ k j

/-- Entry `(0, j)` of the prepared `1 × 512` bias row is entry `j` of the caller's bias. -/
theorem w_v58 (c : Dev nD) (j : Fin 512) :
    (W10 m ρ c (Proc.devRef .tc main_v58) : Vec Ideal S1x512 .f32) (ix2 0 j)
      = (m ((c : Thread nD τ).loc main_arg18) : Vec Ideal S512 .f32) (ix1 j) := by
  read_stretch W10 (W9 m ρ c) hostOps1 (W9_arg18 m ρ c)
  exact row_entry _ _ j

/-- Entry `(k, j)` of the prepared `512 × 512` weight is entry `(j, k)` of the caller's `512 × 512` weight. -/
theorem w_v60 (c : Dev nD) (k : Fin 512) (j : Fin 512) :
    (W10 m ρ c (Proc.devRef .tc main_v60) : Vec Ideal S512x512 .bf16) (ix2 k j)
      = (m ((c : Thread nD τ).loc main_arg19) : Vec Ideal S512x512 .f32) (ix2 j k) := by
  read_stretch W10 (W9 m ρ c) hostOps1 (W9_arg19 m ρ c)
  exact stored_entry _ _ _ k j

/-- Entry `(0, j)` of the prepared `1 × 512` bias row is entry `j` of the caller's bias. -/
theorem w_v61 (c : Dev nD) (j : Fin 512) :
    (W10 m ρ c (Proc.devRef .tc main_v61) : Vec Ideal S1x512 .f32) (ix2 0 j)
      = (m ((c : Thread nD τ).loc main_arg20) : Vec Ideal S512 .f32) (ix1 j) := by
  read_stretch W10 (W9 m ρ c) hostOps1 (W9_arg20 m ρ c)
  exact row_entry _ _ j

end Cert.KernelIdeal.Weights
end
-- ==== Proof.Spec.lean ====
/-
  One layer of an equivariant graph network, as functions of ROWS over the extended reals.

  Both programs compute, for every edge `e` with endpoints `row e`, `col e`:
    the message   `msg e = L₂ (σ (L₁ (σ (L₀ [h (row e), h (col e), attr e, d² e]))))`,  a row of 512 numbers,
    the gate      `g e   = clip₋₁¹ (⟨σ (C₁ (σ (C₀ (msg e)))), c₂⟩)`,                      one number,
  and, for every node `n` with `agg n` the sum of the messages of the edges whose `row` is `n`:
    the new row   `h' n  = h n + N₂ (σ (N₁ (σ (N₀ [h n, agg n]))))`.
  Here `Lᵢ x = x · W + b` is an affine map of a row, `σ` is `x ↦ x · (1 + e^(−x))⁻¹` entry by entry, and `[·, ·]`
  joins rows end to end. Every function below is one of these pieces; nothing here mentions a program.
-/
import Idealize.ShloMosaic.PureOps.Ideal
import Idealize.ShloMosaic.Lib.ValueIdx

noncomputable section

namespace Cert.Egnn

open Idealize.ShloMosaic Idealize.ShloMosaic.ValueIdx

/-- `x · (1 + e^(−x))⁻¹`, the smooth gate both programs apply between affine maps. -/
def silu (x : EReal) : EReal := x * Ideal.logistic x

/-- The gate applied to every entry of a row. -/
def act {N : Nat} (x : Fin N → EReal) : Fin N → EReal := fun j => silu (x j)

/-- The affine map of a row: entry `j` of `x · W + b`. -/
def lin {K N : Nat} (x : Fin K → EReal) (W : Fin K → Fin N → EReal) (b : Fin N → EReal) : Fin N → EReal :=
  fun j => (∑ k : Fin K, x k * W k j) + b j

/-- The inner product of two rows. -/
def dot {K : Nat} (x w : Fin K → EReal) : EReal := ∑ k : Fin K, x k * w k

/-- Two rows of 512 joined end to end. -/
def cat2 (a b : Fin 512 → EReal) : Fin 1024 → EReal := fun k =>
  if h : k.val < 512 then a ⟨k.val, h⟩ else b ⟨k.val - 512, by omega⟩

/-- The edge network's input row: two rows of 512, a row of 51 and one number, joined end to end. -/
def cat4 (a b : Fin 512 → EReal) (c : Fin 51 → EReal) (d : EReal) : Fin 1076 → EReal := fun k =>
  if h : k.val < 512 then a ⟨k.val, h⟩
  else if h₂ : k.val < 1024 then b ⟨k.val - 512, by omega⟩
  else if h₃ : k.val < 1075 then c ⟨k.val - 1024, by omega⟩
  else d

/-- Three affine maps with the gate between them. -/
def mlp3 {K A B N : Nat} (x : Fin K → EReal) (W₀ : Fin K → Fin A → EReal) (b₀ : Fin A → EReal)
    (W₁ : Fin A → Fin B → EReal) (b₁ : Fin B → EReal) (W₂ : Fin B → Fin N → EReal) (b₂ : Fin N → EReal) : Fin N → EReal :=
  lin (act (lin (act (lin x W₀ b₀)) W₁ b₁)) W₂ b₂

/-- An edge's message from its two endpoint rows, its attributes and its clipped squared length. -/
def msg (hr hc : Fin 512 → EReal) (ea : Fin 51 → EReal) (d2 : EReal)
    (W₀ : Fin 1076 → Fin 512 → EReal) (b₀ : Fin 512 → EReal) (W₁ : Fin 512 → Fin 512 → EReal) (b₁ : Fin 512 → EReal)
    (W₂ : Fin 512 → Fin 512 → EReal) (b₂ : Fin 512 → EReal) : Fin 512 → EReal :=
  mlp3 (cat4 hr hc ea d2) W₀ b₀ W₁ b₁ W₂ b₂

/-- Clipping to `[-1, 1]`, the bounds as the two programs carry them (the f32 words of `-1` and `1`). -/
def clip1 (x : EReal) : EReal :=
  min (Ideal.ofBits .f32 0x3F800000#32) (max (Ideal.ofBits .f32 0xBF800000#32) x)

/-- An edge's gate from its message: two gated affine maps, an inner product with the last weight row, clipped. -/
def gate (e : Fin 512 → EReal) (C₀ : Fin 512 → Fin 256 → EReal) (c₀ : Fin 256 → EReal)
    (C₁ : Fin 256 → Fin 256 → EReal) (c₁ : Fin 256 → EReal) (c₂ : Fin 256 → EReal) : EReal :=
  clip1 (dot (act (lin (act (lin e C₀ c₀)) C₁ c₁)) c₂)

/-- A node's new row from its row and the sum of the messages sent to it. -/
def node (h agg : Fin 512 → EReal) (N₀ : Fin 1024 → Fin 512 → EReal) (n₀ : Fin 512 → EReal)
    (N₁ : Fin 512 → Fin 512 → EReal) (n₁ : Fin 512 → EReal) (N₂ : Fin 512 → Fin 512 → EReal) (n₂ : Fin 512 → EReal) :
    Fin 512 → EReal :=
  fun j => h j + mlp3 (cat2 h agg) N₀ n₀ N₁ n₁ N₂ n₂ j

/-- Row `r` of a two-axis array. -/
abbrev rowOf {A B : Nat} (X : (⟨2, ![A, B]⟩ : Shape).Idx → EReal) (r : Fin A) : Fin B → EReal := fun k => X (ix2 r k)

/-- A weight matrix stored with the output axis first, read as the map's matrix: `W k j = w (j, k)`. -/
abbrev matT {A B : Nat} (w : (⟨2, ![A, B]⟩ : Shape).Idx → EReal) : Fin B → Fin A → EReal := fun k j => w (ix2 j k)

/-- A weight matrix stored with the input axis first: `W k j = w (k, j)`. -/
abbrev mat {A B : Nat} (w : (⟨2, ![A, B]⟩ : Shape).Idx → EReal) : Fin A → Fin B → EReal := fun k j => w (ix2 k j)

/-- A bias stored as a vector. -/
abbrev vec {A : Nat} (b : (⟨1, ![A]⟩ : Shape).Idx → EReal) : Fin A → EReal := fun j => b (ix1 j)

/-- A bias stored as a one-row matrix. -/
abbrev vecRow {A : Nat} (b : (⟨2, ![1, A]⟩ : Shape).Idx → EReal) : Fin A → EReal := fun j => b (ix2 0 j)

/-- A weight column stored as a `K × 1` matrix. -/
abbrev vecCol {A : Nat} (w : (⟨2, ![A, 1]⟩ : Shape).Idx → EReal) : Fin A → EReal := fun k => w (ix2 k 0)

end Cert.Egnn

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KBody0.lean ====
/-
  The two arrays the edge network's first body stores, read at an entry, over the extended reals.

  The body joins, for each of its 2000 edges, the two endpoint rows, the attribute row and the squared length into
  one row of 1076 numbers, and sends it through three affine maps with the gate `x ↦ x · (1 + e^(−x))⁻¹` between
  them: entry `(y, j)` of the first stored array is entry `j` of edge `y`'s message. From that array two more gated
  affine maps and an inner product with a weight column give one number per edge, clipped to `[-1, 1]`; the second
  stored array is the edge's three coordinate differences, each times that number.

  Every affine map is a matrix product into a zero accumulator plus a bias row repeated down the rows, so its row
  `y` is `x ↦ x · W + b` of the operand's row `y` (`layerV_row`); the gate acts entry by entry (`gateV_row`); the
  joined array's row is the rows joined end to end (`cat_row`). A change of format is the identity here.
-/
import proofs.«401646_j12128987644271_1_alg».proof.Proof.Gen.KernelIdeal.Skeleton
import proofs.«401646_j12128987644271_1_alg».proof.Proof.Spec
import proofs.«401646_j12128987644271_1_alg».proof.Proof.LibPlainDot
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Body0

open Cert.KernelIdeal Cert.KernelIdeal.Gen Cert.Egnn Idealize.ShloMosaic Idealize.ShloMosaic.ValueIdx

section Generic
variable {B K N : Nat}

/-- One affine map of a `B × K` array: its product with a `K × N` weight block, plus a `1 × N` bias row repeated
    down the `B` rows. -/
def layerV (hlt : FTy.bits .bf16 < FTy.bits .f32)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![B, N]⟩)
    (x : FVec Ideal ⟨2, ![B, K]⟩ .f32) (w : FVec Ideal ⟨2, ![K, N]⟩ .bf16) (b : FVec Ideal ⟨2, ![1, N]⟩ .f32) :
    FVec Ideal ⟨2, ![B, N]⟩ .f32 :=
  addf (matmul (DotDims.plain B K N) none (truncf .bf16 x hlt) (shapeCast ⟨2, ![K, N]⟩ w hw) (constant ⟨2, ![B, N]⟩ .f32 0x00000000#32))
    (broadcastTo ⟨2, ![B, N]⟩ (shapeCast ⟨2, ![1, N]⟩ b hb) hbc)

/-- Row `y` of an affine map of an array is the affine map `x ↦ x · W + b` of the array's row `y`:
    entry `j` is `∑ k, x (y, k) · w (k, j) + b (0, j)`. -/
theorem layerV_row (hlt : FTy.bits .bf16 < FTy.bits .f32)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![B, N]⟩)
    (x : FVec Ideal ⟨2, ![B, K]⟩ .f32) (w : FVec Ideal ⟨2, ![K, N]⟩ .bf16) (b : FVec Ideal ⟨2, ![1, N]⟩ .f32) (y : Fin B) :
    rowOf (layerV hlt hw hb hbc x w b) y = lin (rowOf x y) (mat w) (vecRow b) := by
  funext j
  show (FloatOps.matmul (DotDims.plain B K N) none (truncf .bf16 x hlt) (shapeCast ⟨2, ![K, N]⟩ w hw) (constant ⟨2, ![B, N]⟩ .f32 0x00000000#32)) (ix2 y j)
    + (broadcastTo ⟨2, ![B, N]⟩ (shapeCast ⟨2, ![1, N]⟩ b hb) hbc) (ix2 y j) = _
  rw [shapeCast_self, shapeCast_self, Cert.Lib.PlainDot.matmul_zero_apply]
  -- the bias row is read at `(0, j)`: its first axis has one entry, its second is the result's column
  rw [broadcastTo_apply b hbc (ix2 y j) (ix2 0 j) (fun a => by
    match a with
    | ⟨0, _⟩ => exact (if_pos rfl).symm
    | ⟨1, _⟩ =>
      show j.val = if N = 1 then 0 else j.val
      split
      · have := j.isLt; omega
      · rfl)]
  rfl

/-- The gate `x ↦ x · (1 + e^(−x))⁻¹` applied to every entry of an array. -/
def gateV {s : Shape} (v : FVec Ideal s .f32) : FVec Ideal s .f32 := mulf v (logistic v)

/-- Row `y` of a gated array is the gated row `y`. -/
theorem gateV_row (v : FVec Ideal ⟨2, ![B, N]⟩ .f32) (y : Fin B) : rowOf (gateV v) y = act (rowOf v y) := rfl

/-- The product of a `B × K` array with a `K × 1` weight column. -/
def dotV (hlt : FTy.bits .bf16 < FTy.bits .f32) (hw : (⟨2, ![K, 1]⟩ : Shape).ShapeCasts ⟨2, ![K, 1]⟩)
    (x : FVec Ideal ⟨2, ![B, K]⟩ .f32) (w : FVec Ideal ⟨2, ![K, 1]⟩ .bf16) : FVec Ideal ⟨2, ![B, 1]⟩ .f32 :=
  matmul (DotDims.plain B K 1) none (truncf .bf16 x hlt) (shapeCast ⟨2, ![K, 1]⟩ w hw) (constant ⟨2, ![B, 1]⟩ .f32 0x00000000#32)

/-- Its entry `(y, 0)` is the inner product of the array's row `y` with the column: `∑ k, x (y, k) · w (k, 0)`. -/
theorem dotV_apply (hlt : FTy.bits .bf16 < FTy.bits .f32) (hw : (⟨2, ![K, 1]⟩ : Shape).ShapeCasts ⟨2, ![K, 1]⟩)
    (x : FVec Ideal ⟨2, ![B, K]⟩ .f32) (w : FVec Ideal ⟨2, ![K, 1]⟩ .bf16) (y : Fin B) :
    dotV hlt hw x w (ix2 y 0) = dot (rowOf x y) (vecCol w) := by
  unfold dotV
  rw [shapeCast_self]
  exact Cert.Lib.PlainDot.matmul_zero_apply none (truncf .bf16 x hlt) w y 0

end Generic

/-- Row `y` of four blocks of 512, 512, 51 and 1 columns joined on the column axis is the four rows joined end to
    end: column `k` falls in the first block for `k < 512`, in the second for `512 ≤ k < 1024` (at `k − 512`), in the
    third for `1024 ≤ k < 1075` (at `k − 1024`), and `k = 1075` is the last block's one column. -/
theorem cat_row (v0 v2 : FVec Ideal S2000x512 .f32) (v4 : FVec Ideal S2000x51 .f32) (v5 : FVec Ideal S2000x1 .f32)
    (h : Shape.Concatenates [S2000x512, S2000x512, S2000x51, S2000x1] S2000x1076 1) (y : Fin 2000) :
    rowOf (concatenate S2000x1076 1 [⟨S2000x512, v0⟩, ⟨S2000x512, v2⟩, ⟨S2000x51, v4⟩, ⟨S2000x1, v5⟩] h) y
      = cat4 (rowOf v0 y) (rowOf v2 y) (rowOf v4 y) (v5 (ix2 y 0)) := by
  funext k
  unfold cat4
  show concatenate S2000x1076 1 [⟨S2000x512, v0⟩, ⟨S2000x512, v2⟩, ⟨S2000x51, v4⟩, ⟨S2000x1, v5⟩] h (ix2 y k) = _
  split
  · next h1 =>
    exact concatenate_apply_piece (t := S2000x1076) 1 [⟨S2000x512, v0⟩, ⟨S2000x512, v2⟩, ⟨S2000x51, v4⟩, ⟨S2000x1, v5⟩] h (ix2 y k)
      0 (by show (0 : Nat) < 4; omega) S2000x512 v0 rfl rfl 0 rfl (ix2 y ⟨k.val, h1⟩)
      (fun b hb => by
        match b with
        | ⟨0, _⟩ => rfl
        | ⟨1, _⟩ => exact absurd rfl hb)
      (Nat.zero_add _)
  · next h1 =>
    split
    · next h2 =>
      exact concatenate_apply_piece (t := S2000x1076) 1 [⟨S2000x512, v0⟩, ⟨S2000x512, v2⟩, ⟨S2000x51, v4⟩, ⟨S2000x1, v5⟩] h (ix2 y k)
        1 (by show (1 : Nat) < 4; omega) S2000x512 v2 rfl rfl 512 rfl (ix2 y ⟨k.val - 512, by omega⟩)
        (fun b hb => by
          match b with
          | ⟨0, _⟩ => rfl
          | ⟨1, _⟩ => exact absurd rfl hb)
        (by show 512 + (k.val - 512) = k.val; omega)
    · next h2 =>
      split
      · next h3 =>
        exact concatenate_apply_piece (t := S2000x1076) 1 [⟨S2000x512, v0⟩, ⟨S2000x512, v2⟩, ⟨S2000x51, v4⟩, ⟨S2000x1, v5⟩] h (ix2 y k)
          2 (by show (2 : Nat) < 4; omega) S2000x51 v4 rfl rfl 1024 rfl (ix2 y ⟨k.val - 1024, by omega⟩)
          (fun b hb => by
            match b with
            | ⟨0, _⟩ => rfl
            | ⟨1, _⟩ => exact absurd rfl hb)
          (by show 1024 + (k.val - 1024) = k.val; omega)
      · next h3 =>
        exact concatenate_apply_piece (t := S2000x1076) 1 [⟨S2000x512, v0⟩, ⟨S2000x512, v2⟩, ⟨S2000x51, v4⟩, ⟨S2000x1, v5⟩] h (ix2 y k)
          3 (by show (3 : Nat) < 4; omega) S2000x1 v5 rfl rfl 1075 rfl (ix2 y 0)
          (fun b hb => by
            match b with
            | ⟨0, _⟩ => rfl
            | ⟨1, _⟩ => exact absurd rfl hb)
          (by show 1075 + 0 = k.val; have := k.isLt; omega)

/-- The first stored array is three affine maps, gated in between, of the joined array. -/
theorem pay1_eq (v0 v2 : Vec Ideal S2000x512 .f32) (v4 : Vec Ideal S2000x51 .f32) (v5 : Vec Ideal S2000x1 .f32)
    (v11 : Vec Ideal S1076x512 .bf16) (v14 : Vec Ideal S1x512 .f32) (v21 : Vec Ideal S512x512 .bf16) (v24 : Vec Ideal S1x512 .f32)
    (v31 : Vec Ideal S512x512 .bf16) (v34 : Vec Ideal S1x512 .f32) :
    k0_pay1 (F := Ideal) (k0_pay4 (F := Ideal) v0 v2 v4 v5 v11 v14 v21 v24 v31) v34
      = layerV bitsLt_bf16_f32 shapeCasts_S512x512_S512x512 shapeCasts_S1x512_S1x512 broadcasts_S1x512_S2000x512
          (gateV (layerV bitsLt_bf16_f32 shapeCasts_S512x512_S512x512 shapeCasts_S1x512_S1x512 broadcasts_S1x512_S2000x512
            (gateV (layerV bitsLt_bf16_f32 shapeCasts_S1076x512_S1076x512 shapeCasts_S1x512_S1x512 broadcasts_S1x512_S2000x512
              (concatenate S2000x1076 1
                [⟨S2000x512, shapeCast S2000x512 v0 shapeCasts_S2000x512_S2000x512⟩,
                  ⟨S2000x512, shapeCast S2000x512 v2 shapeCasts_S2000x512_S2000x512⟩, ⟨S2000x51, v4⟩,
                  ⟨S2000x1, shapeCast S2000x1 v5 shapeCasts_S2000x1_S2000x1⟩]
                concatenates_S2000x512_S2000x512_S2000x51_S2000x1_S2000x1076_d1)
              v11 v14))
            v21 v24))
          v31 v34 := rfl

/-- Entry `(y, j)` of the first stored array is entry `j` of edge `y`'s message. -/
theorem pay_msg (v0 v2 : Vec Ideal S2000x512 .f32) (v4 : Vec Ideal S2000x51 .f32) (v5 : Vec Ideal S2000x1 .f32)
    (v11 : Vec Ideal S1076x512 .bf16) (v14 : Vec Ideal S1x512 .f32) (v21 : Vec Ideal S512x512 .bf16) (v24 : Vec Ideal S1x512 .f32)
    (v31 : Vec Ideal S512x512 .bf16) (v34 : Vec Ideal S1x512 .f32) (y : Fin 2000) (j : Fin 512) :
    k0_pay1 (F := Ideal) (k0_pay4 (F := Ideal) v0 v2 v4 v5 v11 v14 v21 v24 v31) v34 (ix2 y j)
      = msg (rowOf v0 y) (rowOf v2 y) (rowOf v4 y) (v5 (ix2 y 0)) (mat v11) (vecRow v14) (mat v21) (vecRow v24)
          (mat v31) (vecRow v34) j := by
  rw [pay1_eq]
  refine (congrFun (layerV_row _ _ _ _ _ v31 v34 y) j).trans ?_
  rw [gateV_row, layerV_row, gateV_row, layerV_row, cat_row, shapeCast_self, shapeCast_self, shapeCast_self]
  rfl

/-- The second stored array is the coordinate differences times the clipped product of two more gated affine maps
    of the first stored array with the weight column, repeated along the three columns. -/
theorem pay2_eq (v8 : FVec Ideal S2000x3 .f32) (v33 : FVec Ideal S2000x512 .f32) (v34 : Vec Ideal S1x512 .f32)
    (v40 : Vec Ideal S512x256 .bf16) (v43 : Vec Ideal S1x256 .f32) (v50 : Vec Ideal S256x256 .bf16) (v53 : Vec Ideal S1x256 .f32)
    (v60 : Vec Ideal S256x1 .bf16) :
    k0_pay2 (F := Ideal) v8 v33 v34 v40 v43 v50 v53 v60
      = mulf v8 (broadcastTo S2000x3
          (minimumf (broadcast S2000x1 (Ideal.ofBits .f32 0x3F800000#32))
            (maximumf (broadcast S2000x1 (Ideal.ofBits .f32 0xBF800000#32))
              (dotV bitsLt_bf16_f32 shapeCasts_S256x1_S256x1
                (gateV (layerV bitsLt_bf16_f32 shapeCasts_S256x256_S256x256 shapeCasts_S1x256_S1x256 broadcasts_S1x256_S2000x256
                  (gateV (layerV bitsLt_bf16_f32 shapeCasts_S512x256_S512x256 shapeCasts_S1x256_S1x256 broadcasts_S1x256_S2000x256
                    (k0_pay1 (F := Ideal) v33 v34) v40 v43))
                  v50 v53))
                v60)))
          broadcasts_S2000x1_S2000x3) := rfl

/-- Entry `(y, a)` of the second stored array is edge `y`'s coordinate difference `a` times the edge's gate. -/
theorem pay_trans (v8 : FVec Ideal S2000x3 .f32) (v33 : FVec Ideal S2000x512 .f32) (v34 : Vec Ideal S1x512 .f32)
    (v40 : Vec Ideal S512x256 .bf16) (v43 : Vec Ideal S1x256 .f32) (v50 : Vec Ideal S256x256 .bf16) (v53 : Vec Ideal S1x256 .f32)
    (v60 : Vec Ideal S256x1 .bf16) (y : Fin 2000) (a : Fin 3) :
    k0_pay2 (F := Ideal) v8 v33 v34 v40 v43 v50 v53 v60 (ix2 y a)
      = v8 (ix2 y a) * gate (rowOf (k0_pay1 (F := Ideal) v33 v34) y) (mat v40) (vecRow v43) (mat v50) (vecRow v53) (vecCol v60) := by
  rw [pay2_eq, mulf_apply]
  -- the one number of edge `y` is read at `(y, 0)` for each of the three columns
  rw [broadcastTo_apply _ broadcasts_S2000x1_S2000x3 (ix2 y a) (ix2 y 0) (fun b => by
    match b with
    | ⟨0, _⟩ => rfl
    | ⟨1, _⟩ => rfl)]
  rw [minimumf_apply, maximumf_apply, broadcast_apply, broadcast_apply, dotV_apply, gateV_row, layerV_row, gateV_row, layerV_row]
  rfl

/-- A change of an array's shape to the same shape is the array. -/
theorem pay3_id (v7 : Vec Ideal S2000x3 .f32) : k0_pay3 (F := Ideal) v7 = v7 :=
  shapeCast_self v7 shapeCasts_S2000x3_S2000x3

end Cert.KernelIdeal.Body0

end
-- ==== Proof.KRegion0.lean ====
/-
  The edge network's two output arrays after the whole grid has run, entry by entry.

  The grid has 80 points. Point t reads rows 2000·t … 2000·t + 1999 of the five per-edge arrays (the two gathered
  endpoint arrays, the attributes, the clipped squared lengths, the normalised differences), all of every weight
  and bias array, and writes rows 2000·t … 2000·t + 1999 of the two outputs. Since each output row is a function of
  the same row of the inputs, what point t writes is rows 2000·t … of ONE function of the whole input arrays:

    E r j = msg (h_row r) (h_col r) (attr r) (d² r) W₀ b₀ W₁ b₁ W₂ b₂ j            (the message, 512 numbers a row)
    T r k = diff r k · gate (E r) C₀ c₀ C₁ c₁ c₂                                     (the gated difference, 3 a row)

  and as every row r lies in the block of point r / 2000, the output arrays end holding E and T.

  The steps: the index maps evaluated over the 80 points (index_facts); each input block read at an entry
  (block_hRow … block_g2); where a block entry sits in the output array (emb_16, emb_17); what a point writes back
  (flushed_16, flushed_17); which rows a block holds (mem_blk_16, mem_blk_17); every row is in some block
  (cover_16, cover_17); the arrays after the run (final16, final17).
-/
import proofs.«401646_j12128987644271_1_alg».proof.Proof.Gen.KernelIdeal.Frame
import proofs.«401646_j12128987644271_1_alg».proof.Proof.KBody0
import proofs.«401646_j12128987644271_1_alg».proof.Proof.Spec
import Idealize.ShloMosaic.PureOps.Ideal
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Egnn Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The two output arrays as functions of the input arrays -/

/-- The arrays the region finds, each at its own shape: the two gathered endpoint arrays, -/
abbrev hRow (c : Dev nD) : S160000x512.Idx → EReal := V c (Pipeline.arrRef spec0 0)
abbrev hCol (c : Dev nD) : S160000x512.Idx → EReal := V c (Pipeline.arrRef spec0 1)
/-- the edge attributes, the clipped squared lengths and the normalised differences, -/
abbrev attr (c : Dev nD) : S160000x51.Idx → EReal := V c (Pipeline.arrRef spec0 2)
abbrev dist2 (c : Dev nD) : S160000x1.Idx → EReal := V c (Pipeline.arrRef spec0 3)
abbrev diff (c : Dev nD) : S160000x3.Idx → EReal := V c (Pipeline.arrRef spec0 4)
/-- the edge network's three weight matrices and biases, -/
abbrev w0 (c : Dev nD) : S1076x512.Idx → EReal := V c (Pipeline.arrRef spec0 5)
abbrev b0 (c : Dev nD) : S1x512.Idx → EReal := V c (Pipeline.arrRef spec0 6)
abbrev w1 (c : Dev nD) : S512x512.Idx → EReal := V c (Pipeline.arrRef spec0 7)
abbrev b1 (c : Dev nD) : S1x512.Idx → EReal := V c (Pipeline.arrRef spec0 8)
abbrev w2 (c : Dev nD) : S512x512.Idx → EReal := V c (Pipeline.arrRef spec0 9)
abbrev b2 (c : Dev nD) : S1x512.Idx → EReal := V c (Pipeline.arrRef spec0 10)
/-- and the gate network's two weight matrices and biases and its last weight column. -/
abbrev g0 (c : Dev nD) : S512x256.Idx → EReal := V c (Pipeline.arrRef spec0 11)
abbrev c0 (c : Dev nD) : S1x256.Idx → EReal := V c (Pipeline.arrRef spec0 12)
abbrev g1 (c : Dev nD) : S256x256.Idx → EReal := V c (Pipeline.arrRef spec0 13)
abbrev c1 (c : Dev nD) : S1x256.Idx → EReal := V c (Pipeline.arrRef spec0 14)
abbrev g2 (c : Dev nD) : S256x1.Idx → EReal := V c (Pipeline.arrRef spec0 15)

/-- The message array: row `r` is the message of edge `r`, from row `r` of the two endpoint arrays, of the
    attributes and of the squared lengths, and the three weight matrices and biases of the edge network. -/
def E (c : Dev nD) : Fin 160000 → Fin 512 → EReal := fun r j =>
  msg (rowOf (hRow V c) r) (rowOf (hCol V c) r) (rowOf (attr V c) r) (dist2 V c (ix2 r 0))
    (mat (w0 V c)) (vecRow (b0 V c)) (mat (w1 V c)) (vecRow (b1 V c)) (mat (w2 V c)) (vecRow (b2 V c)) j

/-- The gated differences: row `r` is row `r` of the difference array times the gate of edge `r`'s message. -/
def T (c : Dev nD) : Fin 160000 → Fin 3 → EReal := fun r k =>
  diff V c (ix2 r k) * gate (E V c r) (mat (g0 V c)) (vecRow (c0 V c)) (mat (g1 V c)) (vecRow (c1 V c)) (vecCol (g2 V c))

/-! ## The index maps over the grid -/

theorem zeros2 : (![0, 0] : Fin 2 → Nat) = fun _ => 0 := funext fun a => by fin_cases a <;> rfl

/-- At point `t` the five per-edge inputs and the two outputs are at block `(t, 0)`; every weight and bias array
    is at block `(0, 0)`. -/
theorem index_facts : ∀ t : Fin cfg0.N,
    (win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_16.index t (0 : Fin 2) = t.val ∧ win0_16.index t (1 : Fin 2) = 0
    ∧ win0_17.index t (0 : Fin 2) = t.val ∧ win0_17.index t (1 : Fin 2) = 0)
    ∧ (win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0)
    ∧ (win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0) :=
  (by decide +kernel : ∀ t : Fin grid0.N, _)

/-- Row `y` of point `t`'s block is row `2000 · t + y` of the array. -/
def rowAt (t : Fin cfg0.N) (y : Fin 2000) : Fin 160000 :=
  ⟨2000 * t.val + y.val, by have ht : t.val < 80 := t.isLt; have hy := y.isLt; omega⟩

/-! ## Each input block, read at an entry -/

/-- Entry `(y, k)` of point `t`'s block of input 0 is entry `(2000 · t + y, k)` of the array. -/
theorem block_hRow (c : Dev nD) (t : Fin cfg0.N) (y : Fin 2000) (k : Fin 512) :
    iblk0 V c 0 t (ix2 y k) = hRow V c (ix2 (rowAt t y) k) := by
  obtain ⟨⟨e00, e01, e10, e11, e20, e21, e30, e31, e40, e41, o60, o61, o70, o71⟩, -, -⟩ := index_facts t
  show V c (Pipeline.arrRef spec0 0) (((cfg0.win 0).blk t).view.emb (ix2 y k)) = V c (Pipeline.arrRef spec0 0) (ix2 (rowAt t y) k)
  refine congrArg _ (funext fun a => Fin.ext ?_)
  match a with
  | ⟨0, _⟩ => show win0_0.index t (0 : Fin 2) * 2000 + 1 * y.val = 2000 * t.val + y.val; omega
  | ⟨1, _⟩ => show win0_0.index t (1 : Fin 2) * 512 + 1 * k.val = k.val; omega

/-- Entry `(y, k)` of point `t`'s block of input 1 is entry `(2000 · t + y, k)` of the array. -/
theorem block_hCol (c : Dev nD) (t : Fin cfg0.N) (y : Fin 2000) (k : Fin 512) :
    iblk0 V c 1 t (ix2 y k) = hCol V c (ix2 (rowAt t y) k) := by
  obtain ⟨⟨e00, e01, e10, e11, e20, e21, e30, e31, e40, e41, o60, o61, o70, o71⟩, -, -⟩ := index_facts t
  show V c (Pipeline.arrRef spec0 1) (((cfg0.win 1).blk t).view.emb (ix2 y k)) = V c (Pipeline.arrRef spec0 1) (ix2 (rowAt t y) k)
  refine congrArg _ (funext fun a => Fin.ext ?_)
  match a with
  | ⟨0, _⟩ => show win0_1.index t (0 : Fin 2) * 2000 + 1 * y.val = 2000 * t.val + y.val; omega
  | ⟨1, _⟩ => show win0_1.index t (1 : Fin 2) * 512 + 1 * k.val = k.val; omega

/-- Entry `(y, k)` of point `t`'s block of input 2 is entry `(2000 · t + y, k)` of the array. -/
theorem block_attr (c : Dev nD) (t : Fin cfg0.N) (y : Fin 2000) (k : Fin 51) :
    iblk0 V c 2 t (ix2 y k) = attr V c (ix2 (rowAt t y) k) := by
  obtain ⟨⟨e00, e01, e10, e11, e20, e21, e30, e31, e40, e41, o60, o61, o70, o71⟩, -, -⟩ := index_facts t
  show V c (Pipeline.arrRef spec0 2) (((cfg0.win 2).blk t).view.emb (ix2 y k)) = V c (Pipeline.arrRef spec0 2) (ix2 (rowAt t y) k)
  refine congrArg _ (funext fun a => Fin.ext ?_)
  match a with
  | ⟨0, _⟩ => show win0_2.index t (0 : Fin 2) * 2000 + 1 * y.val = 2000 * t.val + y.val; omega
  | ⟨1, _⟩ => show win0_2.index t (1 : Fin 2) * 51 + 1 * k.val = k.val; omega

/-- Entry `(y, k)` of point `t`'s block of input 3 is entry `(2000 · t + y, k)` of the array. -/
theorem block_dist2 (c : Dev nD) (t : Fin cfg0.N) (y : Fin 2000) (k : Fin 1) :
    iblk0 V c 3 t (ix2 y k) = dist2 V c (ix2 (rowAt t y) k) := by
  obtain ⟨⟨e00, e01, e10, e11, e20, e21, e30, e31, e40, e41, o60, o61, o70, o71⟩, -, -⟩ := index_facts t
  show V c (Pipeline.arrRef spec0 3) (((cfg0.win 3).blk t).view.emb (ix2 y k)) = V c (Pipeline.arrRef spec0 3) (ix2 (rowAt t y) k)
  refine congrArg _ (funext fun a => Fin.ext ?_)
  match a with
  | ⟨0, _⟩ => show win0_3.index t (0 : Fin 2) * 2000 + 1 * y.val = 2000 * t.val + y.val; omega
  | ⟨1, _⟩ => show win0_3.index t (1 : Fin 2) * 1 + 1 * k.val = k.val; omega

/-- Entry `(y, k)` of point `t`'s block of input 4 is entry `(2000 · t + y, k)` of the array. -/
theorem block_diff (c : Dev nD) (t : Fin cfg0.N) (y : Fin 2000) (k : Fin 3) :
    iblk0 V c 4 t (ix2 y k) = diff V c (ix2 (rowAt t y) k) := by
  obtain ⟨⟨e00, e01, e10, e11, e20, e21, e30, e31, e40, e41, o60, o61, o70, o71⟩, -, -⟩ := index_facts t
  show V c (Pipeline.arrRef spec0 4) (((cfg0.win 4).blk t).view.emb (ix2 y k)) = V c (Pipeline.arrRef spec0 4) (ix2 (rowAt t y) k)
  refine congrArg _ (funext fun a => Fin.ext ?_)
  match a with
  | ⟨0, _⟩ => show win0_4.index t (0 : Fin 2) * 2000 + 1 * y.val = 2000 * t.val + y.val; omega
  | ⟨1, _⟩ => show win0_4.index t (1 : Fin 2) * 3 + 1 * k.val = k.val; omega

/-- Point `t`'s block of input 5 is the whole array. -/
theorem block_w0 (c : Dev nD) (t : Fin cfg0.N) : iblk0 V c 5 t = w0 V c := by
  obtain ⟨-, ⟨p50, p51, p60, p61, p70, p71, p80, p81, p90, p91, p100, p101⟩, -⟩ := index_facts t
  funext i
  show V c (Pipeline.arrRef spec0 5) (((cfg0.win 5).blk t).view.emb i) = V c (Pipeline.arrRef spec0 5) i
  refine congrArg _ (funext fun a => Fin.ext ?_)
  match a with
  | ⟨0, _⟩ => show win0_5.index t (0 : Fin 2) * 1076 + 1 * (i 0).val = (i 0).val; omega
  | ⟨1, _⟩ => show win0_5.index t (1 : Fin 2) * 512 + 1 * (i 1).val = (i 1).val; omega

/-- Point `t`'s block of input 6 is the whole array. -/
theorem block_b0 (c : Dev nD) (t : Fin cfg0.N) : iblk0 V c 6 t = b0 V c := by
  obtain ⟨-, ⟨p50, p51, p60, p61, p70, p71, p80, p81, p90, p91, p100, p101⟩, -⟩ := index_facts t
  funext i
  show V c (Pipeline.arrRef spec0 6) (((cfg0.win 6).blk t).view.emb i) = V c (Pipeline.arrRef spec0 6) i
  refine congrArg _ (funext fun a => Fin.ext ?_)
  match a with
  | ⟨0, _⟩ => show win0_6.index t (0 : Fin 2) * 1 + 1 * (i 0).val = (i 0).val; omega
  | ⟨1, _⟩ => show win0_6.index t (1 : Fin 2) * 512 + 1 * (i 1).val = (i 1).val; omega

/-- Point `t`'s block of input 7 is the whole array. -/
theorem block_w1 (c : Dev nD) (t : Fin cfg0.N) : iblk0 V c 7 t = w1 V c := by
  obtain ⟨-, ⟨p50, p51, p60, p61, p70, p71, p80, p81, p90, p91, p100, p101⟩, -⟩ := index_facts t
  funext i
  show V c (Pipeline.arrRef spec0 7) (((cfg0.win 7).blk t).view.emb i) = V c (Pipeline.arrRef spec0 7) i
  refine congrArg _ (funext fun a => Fin.ext ?_)
  match a with
  | ⟨0, _⟩ => show win0_7.index t (0 : Fin 2) * 512 + 1 * (i 0).val = (i 0).val; omega
  | ⟨1, _⟩ => show win0_7.index t (1 : Fin 2) * 512 + 1 * (i 1).val = (i 1).val; omega

/-- Point `t`'s block of input 8 is the whole array. -/
theorem block_b1 (c : Dev nD) (t : Fin cfg0.N) : iblk0 V c 8 t = b1 V c := by
  obtain ⟨-, ⟨p50, p51, p60, p61, p70, p71, p80, p81, p90, p91, p100, p101⟩, -⟩ := index_facts t
  funext i
  show V c (Pipeline.arrRef spec0 8) (((cfg0.win 8).blk t).view.emb i) = V c (Pipeline.arrRef spec0 8) i
  refine congrArg _ (funext fun a => Fin.ext ?_)
  match a with
  | ⟨0, _⟩ => show win0_8.index t (0 : Fin 2) * 1 + 1 * (i 0).val = (i 0).val; omega
  | ⟨1, _⟩ => show win0_8.index t (1 : Fin 2) * 512 + 1 * (i 1).val = (i 1).val; omega

/-- Point `t`'s block of input 9 is the whole array. -/
theorem block_w2 (c : Dev nD) (t : Fin cfg0.N) : iblk0 V c 9 t = w2 V c := by
  obtain ⟨-, ⟨p50, p51, p60, p61, p70, p71, p80, p81, p90, p91, p100, p101⟩, -⟩ := index_facts t
  funext i
  show V c (Pipeline.arrRef spec0 9) (((cfg0.win 9).blk t).view.emb i) = V c (Pipeline.arrRef spec0 9) i
  refine congrArg _ (funext fun a => Fin.ext ?_)
  match a with
  | ⟨0, _⟩ => show win0_9.index t (0 : Fin 2) * 512 + 1 * (i 0).val = (i 0).val; omega
  | ⟨1, _⟩ => show win0_9.index t (1 : Fin 2) * 512 + 1 * (i 1).val = (i 1).val; omega

/-- Point `t`'s block of input 10 is the whole array. -/
theorem block_b2 (c : Dev nD) (t : Fin cfg0.N) : iblk0 V c 10 t = b2 V c := by
  obtain ⟨-, ⟨p50, p51, p60, p61, p70, p71, p80, p81, p90, p91, p100, p101⟩, -⟩ := index_facts t
  funext i
  show V c (Pipeline.arrRef spec0 10) (((cfg0.win 10).blk t).view.emb i) = V c (Pipeline.arrRef spec0 10) i
  refine congrArg _ (funext fun a => Fin.ext ?_)
  match a with
  | ⟨0, _⟩ => show win0_10.index t (0 : Fin 2) * 1 + 1 * (i 0).val = (i 0).val; omega
  | ⟨1, _⟩ => show win0_10.index t (1 : Fin 2) * 512 + 1 * (i 1).val = (i 1).val; omega

/-- Point `t`'s block of input 11 is the whole array. -/
theorem block_g0 (c : Dev nD) (t : Fin cfg0.N) : iblk0 V c 11 t = g0 V c := by
  obtain ⟨-, -, ⟨p110, p111, p120, p121, p130, p131, p140, p141, p150, p151⟩⟩ := index_facts t
  funext i
  show V c (Pipeline.arrRef spec0 11) (((cfg0.win 11).blk t).view.emb i) = V c (Pipeline.arrRef spec0 11) i
  refine congrArg _ (funext fun a => Fin.ext ?_)
  match a with
  | ⟨0, _⟩ => show win0_11.index t (0 : Fin 2) * 512 + 1 * (i 0).val = (i 0).val; omega
  | ⟨1, _⟩ => show win0_11.index t (1 : Fin 2) * 256 + 1 * (i 1).val = (i 1).val; omega

/-- Point `t`'s block of input 12 is the whole array. -/
theorem block_c0 (c : Dev nD) (t : Fin cfg0.N) : iblk0 V c 12 t = c0 V c := by
  obtain ⟨-, -, ⟨p110, p111, p120, p121, p130, p131, p140, p141, p150, p151⟩⟩ := index_facts t
  funext i
  show V c (Pipeline.arrRef spec0 12) (((cfg0.win 12).blk t).view.emb i) = V c (Pipeline.arrRef spec0 12) i
  refine congrArg _ (funext fun a => Fin.ext ?_)
  match a with
  | ⟨0, _⟩ => show win0_12.index t (0 : Fin 2) * 1 + 1 * (i 0).val = (i 0).val; omega
  | ⟨1, _⟩ => show win0_12.index t (1 : Fin 2) * 256 + 1 * (i 1).val = (i 1).val; omega

/-- Point `t`'s block of input 13 is the whole array. -/
theorem block_g1 (c : Dev nD) (t : Fin cfg0.N) : iblk0 V c 13 t = g1 V c := by
  obtain ⟨-, -, ⟨p110, p111, p120, p121, p130, p131, p140, p141, p150, p151⟩⟩ := index_facts t
  funext i
  show V c (Pipeline.arrRef spec0 13) (((cfg0.win 13).blk t).view.emb i) = V c (Pipeline.arrRef spec0 13) i
  refine congrArg _ (funext fun a => Fin.ext ?_)
  match a with
  | ⟨0, _⟩ => show win0_13.index t (0 : Fin 2) * 256 + 1 * (i 0).val = (i 0).val; omega
  | ⟨1, _⟩ => show win0_13.index t (1 : Fin 2) * 256 + 1 * (i 1).val = (i 1).val; omega

/-- Point `t`'s block of input 14 is the whole array. -/
theorem block_c1 (c : Dev nD) (t : Fin cfg0.N) : iblk0 V c 14 t = c1 V c := by
  obtain ⟨-, -, ⟨p110, p111, p120, p121, p130, p131, p140, p141, p150, p151⟩⟩ := index_facts t
  funext i
  show V c (Pipeline.arrRef spec0 14) (((cfg0.win 14).blk t).view.emb i) = V c (Pipeline.arrRef spec0 14) i
  refine congrArg _ (funext fun a => Fin.ext ?_)
  match a with
  | ⟨0, _⟩ => show win0_14.index t (0 : Fin 2) * 1 + 1 * (i 0).val = (i 0).val; omega
  | ⟨1, _⟩ => show win0_14.index t (1 : Fin 2) * 256 + 1 * (i 1).val = (i 1).val; omega

/-- Point `t`'s block of input 15 is the whole array. -/
theorem block_g2 (c : Dev nD) (t : Fin cfg0.N) : iblk0 V c 15 t = g2 V c := by
  obtain ⟨-, -, ⟨p110, p111, p120, p121, p130, p131, p140, p141, p150, p151⟩⟩ := index_facts t
  funext i
  show V c (Pipeline.arrRef spec0 15) (((cfg0.win 15).blk t).view.emb i) = V c (Pipeline.arrRef spec0 15) i
  refine congrArg _ (funext fun a => Fin.ext ?_)
  match a with
  | ⟨0, _⟩ => show win0_15.index t (0 : Fin 2) * 256 + 1 * (i 0).val = (i 0).val; omega
  | ⟨1, _⟩ => show win0_15.index t (1 : Fin 2) * 1 + 1 * (i 1).val = (i 1).val; omega

/-! ## What a point writes back -/

/-- The message array as contents of the first output's array. -/
abbrev G16 (c : Dev nD) : S160000x512.Idx → EReal := fun i => E V c (i 0) (i 1)

/-- The gated differences as contents of the second output's array. -/
abbrev G17 (c : Dev nD) : S160000x3.Idx → EReal := fun i => T V c (i 0) (i 1)

/-- Entry `(y, j)` of point `t`'s block of the first output sits at `(2000 · t + y, j)` of its array. -/
theorem emb_16 (t : Fin cfg0.N) (y : Fin 2000) (j : Fin 512) :
    ((cfg0.win 16).blk t).view.emb (ix2 y j) = (ix2 (rowAt t y) j : S160000x512.Idx) := by
  obtain ⟨⟨e00, e01, e10, e11, e20, e21, e30, e31, e40, e41, o60, o61, o70, o71⟩, -, -⟩ := index_facts t
  refine funext fun a => Fin.ext ?_
  match a with
  | ⟨0, _⟩ => show win0_16.index t (0 : Fin 2) * 2000 + 1 * y.val = 2000 * t.val + y.val; omega
  | ⟨1, _⟩ => show win0_16.index t (1 : Fin 2) * 512 + 1 * j.val = j.val; omega

/-- Entry `(y, k)` of point `t`'s block of the second output sits at `(2000 · t + y, k)` of its array. -/
theorem emb_17 (t : Fin cfg0.N) (y : Fin 2000) (k : Fin 3) :
    ((cfg0.win 17).blk t).view.emb (ix2 y k) = (ix2 (rowAt t y) k : S160000x3.Idx) := by
  obtain ⟨⟨e00, e01, e10, e11, e20, e21, e30, e31, e40, e41, o60, o61, o70, o71⟩, -, -⟩ := index_facts t
  refine funext fun a => Fin.ext ?_
  match a with
  | ⟨0, _⟩ => show win0_17.index t (0 : Fin 2) * 2000 + 1 * y.val = 2000 * t.val + y.val; omega
  | ⟨1, _⟩ => show win0_17.index t (1 : Fin 2) * 3 + 1 * k.val = k.val; omega

/-- The message of block row `y` at point `t`, from the blocks, is row `2000 · t + y` of the message array. -/
theorem msg_blocks (c : Dev nD) (t : Fin cfg0.N) (y : Fin 2000) :
    msg (rowOf (iblk0 V c 0 t) y) (rowOf (iblk0 V c 1 t) y) (rowOf (iblk0 V c 2 t) y) (iblk0 V c 3 t (ix2 y 0))
        (mat (iblk0 V c 5 t)) (vecRow (iblk0 V c 6 t)) (mat (iblk0 V c 7 t)) (vecRow (iblk0 V c 8 t))
        (mat (iblk0 V c 9 t)) (vecRow (iblk0 V c 10 t))
      = E V c (rowAt t y) := by
  have r0 : rowOf (iblk0 V c 0 t) y = rowOf (hRow V c) (rowAt t y) := funext fun k => block_hRow V c t y k
  have r1 : rowOf (iblk0 V c 1 t) y = rowOf (hCol V c) (rowAt t y) := funext fun k => block_hCol V c t y k
  have r2 : rowOf (iblk0 V c 2 t) y = rowOf (attr V c) (rowAt t y) := funext fun k => block_attr V c t y k
  rw [r0, r1, r2, block_dist2 V c t y 0, block_w0 V c t, block_b0 V c t, block_w1 V c t, block_b1 V c t, block_w2 V c t, block_b2 V c t]
  rfl

/-- What point `t` writes back to the first output is its block of the message array. -/
theorem flushed_16 (c : Dev nD) (t : Fin cfg0.N) :
    (dat0 V c).flushed 16 t = ((cfg0.win 16).blk t).view.read (Elt Ideal) (G16 V c) := by
  show (cfg0.win 16).cut (grid0.coords t) ((dat0 V c).after 16 t) = _
  rw [after0_16]
  unfold out0_16
  rw [View.canon_unit_zero zeros2]
  simp only [View.ld_unit_zero (S := S2000x512) zeros2, View.ld_unit_zero (S := S2000x51) zeros2, View.ld_unit_zero (S := S2000x1) zeros2,
    View.ld_unit_zero (S := S1076x512) zeros2, View.ld_unit_zero (S := S1x512) zeros2, View.ld_unit_zero (S := S512x512) zeros2]
  funext idx
  obtain ⟨y, j, rfl⟩ : ∃ (y : Fin 2000) (j : Fin 512), idx = ix2 y j := ⟨idx 0, idx 1, eq_ix2 idx⟩
  refine (Body0.pay_msg (iblk0 V c 0 t) (iblk0 V c 1 t) (iblk0 V c 2 t) (iblk0 V c 3 t) (iblk0 V c 5 t) (iblk0 V c 6 t)
    (iblk0 V c 7 t) (iblk0 V c 8 t) (iblk0 V c 9 t) (iblk0 V c 10 t) y j).trans ?_
  show _ = G16 V c (((cfg0.win 16).blk t).view.emb (ix2 y j))
  rw [emb_16 t y j, msg_blocks V c t y]

/-- What point `t` writes back to the second output is its block of the gated differences: the gate is of the
    block's message row, which is the message array's row. -/
theorem flushed_17 (c : Dev nD) (t : Fin cfg0.N) :
    (dat0 V c).flushed 17 t = ((cfg0.win 17).blk t).view.read (Elt Ideal) (G17 V c) := by
  show (cfg0.win 17).cut (grid0.coords t) ((dat0 V c).after 17 t) = _
  rw [after0_17]
  unfold out0_17
  rw [View.canon_unit_zero zeros2]
  simp only [View.ld_unit_zero (S := S2000x512) zeros2, View.ld_unit_zero (S := S2000x51) zeros2, View.ld_unit_zero (S := S2000x1) zeros2,
    View.ld_unit_zero (S := S2000x3) zeros2, View.ld_unit_zero (S := S1076x512) zeros2, View.ld_unit_zero (S := S1x512) zeros2,
    View.ld_unit_zero (S := S512x512) zeros2, View.ld_unit_zero (S := S512x256) zeros2, View.ld_unit_zero (S := S1x256) zeros2,
    View.ld_unit_zero (S := S256x256) zeros2, View.ld_unit_zero (S := S256x1) zeros2]
  funext idx
  obtain ⟨y, k, rfl⟩ : ∃ (y : Fin 2000) (k : Fin 3), idx = ix2 y k := ⟨idx 0, idx 1, eq_ix2 idx⟩
  refine (Body0.pay_trans (k0_pay3 (F := Ideal) (iblk0 V c 4 t))
    (k0_pay4 (F := Ideal) (iblk0 V c 0 t) (iblk0 V c 1 t) (iblk0 V c 2 t) (iblk0 V c 3 t) (iblk0 V c 5 t) (iblk0 V c 6 t)
      (iblk0 V c 7 t) (iblk0 V c 8 t) (iblk0 V c 9 t))
    (iblk0 V c 10 t) (iblk0 V c 11 t) (iblk0 V c 12 t) (iblk0 V c 13 t) (iblk0 V c 14 t) (iblk0 V c 15 t) y k).trans ?_
  show _ = G17 V c (((cfg0.win 17).blk t).view.emb (ix2 y k))
  have hrow : rowOf (k0_pay1 (F := Ideal)
      (k0_pay4 (F := Ideal) (iblk0 V c 0 t) (iblk0 V c 1 t) (iblk0 V c 2 t) (iblk0 V c 3 t) (iblk0 V c 5 t) (iblk0 V c 6 t)
        (iblk0 V c 7 t) (iblk0 V c 8 t) (iblk0 V c 9 t)) (iblk0 V c 10 t)) y = E V c (rowAt t y) :=
    (funext fun j => Body0.pay_msg (iblk0 V c 0 t) (iblk0 V c 1 t) (iblk0 V c 2 t) (iblk0 V c 3 t) (iblk0 V c 5 t) (iblk0 V c 6 t)
      (iblk0 V c 7 t) (iblk0 V c 8 t) (iblk0 V c 9 t) (iblk0 V c 10 t) y j).trans (msg_blocks V c t y)
  rw [emb_17 t y k, hrow, Body0.pay3_id (iblk0 V c 4 t), block_diff V c t y k, block_g0 V c t, block_c0 V c t, block_g1 V c t,
    block_c1 V c t, block_g2 V c t]
  rfl

/-! ## Which rows a block holds, and that every row is in one -/

/-- An entry of the first output's array is in point `t`'s block iff each coordinate is in the block's range. -/
theorem mem_blk_16 (t : Fin cfg0.N) (i : S160000x512.Idx) :
    i ∈ ((cfg0.win 16).blk t).view.set ↔ ∀ a : Fin 2, win0_16.index t a * S2000x512.size a ≤ (i a).val ∧ (i a).val < win0_16.index t a * S2000x512.size a + S2000x512.size a := by
  show i ∈ ((View.whole main_v35_0).slice (win0_16.rect t)).set ↔ _
  rw [View.set_slice_whole, Rect.mem_set_unit]
  exact Iff.rfl

/-- An entry of the second output's array is in point `t`'s block iff each coordinate is in the block's range. -/
theorem mem_blk_17 (t : Fin cfg0.N) (i : S160000x3.Idx) :
    i ∈ ((cfg0.win 17).blk t).view.set ↔ ∀ a : Fin 2, win0_17.index t a * S2000x3.size a ≤ (i a).val ∧ (i a).val < win0_17.index t a * S2000x3.size a + S2000x3.size a := by
  show i ∈ ((View.whole main_v35_1).slice (win0_17.rect t)).set ↔ _
  rw [View.set_slice_whole, Rect.mem_set_unit]
  exact Iff.rfl

/-- Row `r` of the first output is in the block of point `r / 2000`. -/
theorem cover_16 (i : S160000x512.Idx) :
    ∃ t : Fin cfg0.N, (cfg0.win 16).flush t = true ∧ i ∈ ((cfg0.win 16).blk t).view.set := by
  have hi0 : (i 0).val < 160000 := (i 0).isLt
  have hi1 : (i 1).val < 512 := (i 1).isLt
  let t : Fin cfg0.N := ⟨(i 0).val / 2000, by show (i 0).val / 2000 < 80; omega⟩
  have htv : t.val = (i 0).val / 2000 := rfl
  obtain ⟨⟨e00, e01, e10, e11, e20, e21, e30, e31, e40, e41, o60, o61, o70, o71⟩, -, -⟩ := index_facts t
  refine ⟨t, flush0_16 t, ?_⟩
  rw [mem_blk_16]
  intro a
  match a with
  | ⟨0, _⟩ => show win0_16.index t (0 : Fin 2) * 2000 ≤ (i 0).val ∧ (i 0).val < win0_16.index t (0 : Fin 2) * 2000 + 2000; omega
  | ⟨1, _⟩ => show win0_16.index t (1 : Fin 2) * 512 ≤ (i 1).val ∧ (i 1).val < win0_16.index t (1 : Fin 2) * 512 + 512; omega

/-- Row `r` of the second output is in the block of point `r / 2000`. -/
theorem cover_17 (i : S160000x3.Idx) :
    ∃ t : Fin cfg0.N, (cfg0.win 17).flush t = true ∧ i ∈ ((cfg0.win 17).blk t).view.set := by
  have hi0 : (i 0).val < 160000 := (i 0).isLt
  have hi1 : (i 1).val < 3 := (i 1).isLt
  let t : Fin cfg0.N := ⟨(i 0).val / 2000, by show (i 0).val / 2000 < 80; omega⟩
  have htv : t.val = (i 0).val / 2000 := rfl
  obtain ⟨⟨e00, e01, e10, e11, e20, e21, e30, e31, e40, e41, o60, o61, o70, o71⟩, -, -⟩ := index_facts t
  refine ⟨t, flush0_17 t, ?_⟩
  rw [mem_blk_17]
  intro a
  match a with
  | ⟨0, _⟩ => show win0_17.index t (0 : Fin 2) * 2000 ≤ (i 0).val ∧ (i 0).val < win0_17.index t (0 : Fin 2) * 2000 + 2000; omega
  | ⟨1, _⟩ => show win0_17.index t (1 : Fin 2) * 3 ≤ (i 1).val ∧ (i 1).val < win0_17.index t (1 : Fin 2) * 3 + 3; omega

/-! ## The arrays after the run -/

/-- The first output after the 80 points is the message array. -/
theorem final16 (c : Dev nD) : (dat0 V c).arrAt 16 cfg0.N = fun i => E V c (i 0) (i 1) :=
  (dat0 V c).arrAt_eq_of_cover 16 (G16 V c) (fun t _ => flushed_16 V c t) cover_16

/-- The second output after the 80 points is the gated differences. -/
theorem final17 (c : Dev nD) : (dat0 V c).arrAt 17 cfg0.N = fun i => T V c (i 0) (i 1) :=
  (dat0 V c).arrAt_eq_of_cover 17 (G17 V c) (fun t _ => flushed_17 V c t) cover_17

end Cert.KernelIdeal.Region0

end
-- ==== Proof.KBody1.lean ====
/-
  The node network's stored value, read at one entry.

  The stored array is, row by row, a row of the first input plus three affine maps of the joined row
  [first input's row, second input's row], with the smooth gate x ↦ x · (1 + e^(−x))⁻¹ between the maps. Over the
  extended reals a change of number format is the identity, a matrix product into the zero array is the plain sum
  of products, and a one-row bias repeated down the rows adds its entry of that column. So entry (y, j) of the
  stored array is entry j of the row function node applied to row y of the two inputs.

  The steps: one affine layer at an entry (layer_entry), the gate at an entry (gate_entry), the joined row at an
  entry (cat_entry), and their chain (pay_node).
-/
import proofs.«401646_j12128987644271_1_alg».proof.Proof.Gen.KernelIdeal.Skeleton
import proofs.«401646_j12128987644271_1_alg».proof.Proof.Spec
import proofs.«401646_j12128987644271_1_alg».proof.Proof.LibPlainDot
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Body1

open Cert.KernelIdeal Cert.KernelIdeal.Gen Cert.Egnn Idealize.ShloMosaic Idealize.ShloMosaic.ValueIdx

/-- A one-row array repeated down B rows, read at (y, j), is the row's entry j. -/
theorem bias_entry {B N : Nat} (b : FVec Ideal ⟨2, ![1, N]⟩ .f32)
    (hb : (⟨2, ![1, N]⟩ : Shape).ShapeCasts ⟨2, ![1, N]⟩) (hbc : (⟨2, ![1, N]⟩ : Shape).Broadcasts ⟨2, ![B, N]⟩)
    (y : Fin B) (j : Fin N) :
    broadcastTo ⟨2, ![B, N]⟩ (shapeCast ⟨2, ![1, N]⟩ b hb) hbc (ix2 y j) = b (ix2 0 j) := by
  rw [shapeCast_self]
  refine broadcastTo_apply b hbc (ix2 y j) (ix2 0 j) fun a => ?_
  match a with
  | ⟨0, _⟩ => rfl
  | ⟨1, _⟩ =>
    show j.val = if N = 1 then 0 else j.val
    have hj := j.isLt
    split
    · omega
    · rfl

/-- One affine layer at an entry: the product of x (narrowed, which changes nothing here) with the K×N block w into
    the zero array, plus the bias row b repeated down the rows, at (y, j), is entry j of row y of x times w plus b:
    (∑ k, x (y, k) · w (k, j)) + b (0, j). The row of x is given as xr. -/
theorem layer_entry {B K N : Nat} {d : DotDims ⟨2, ![B, K]⟩ ⟨2, ![K, N]⟩ ⟨2, ![B, N]⟩} (hd : d = DotDims.plain B K N)
    {x : FVec Ideal ⟨2, ![B, K]⟩ .f32} {w : FVec Ideal ⟨2, ![K, N]⟩ .bf16} {b : FVec Ideal ⟨2, ![1, N]⟩ .f32}
    {hlt : FTy.bits .bf16 < FTy.bits .f32}
    {hw : (⟨2, ![K, N]⟩ : Shape).ShapeCasts ⟨2, ![K, N]⟩} {hb : (⟨2, ![1, N]⟩ : Shape).ShapeCasts ⟨2, ![1, N]⟩}
    {hbc : (⟨2, ![1, N]⟩ : Shape).Broadcasts ⟨2, ![B, N]⟩} {y : Fin B} {j : Fin N} {xr : Fin K → EReal}
    (hx : ∀ k : Fin K, x (ix2 y k) = xr k) :
    addf (matmul d none (truncf .bf16 x hlt) (shapeCast ⟨2, ![K, N]⟩ w hw) (constant ⟨2, ![B, N]⟩ .f32 0x00000000#32))
        (broadcastTo ⟨2, ![B, N]⟩ (shapeCast ⟨2, ![1, N]⟩ b hb) hbc) (ix2 y j)
      = lin xr (mat w) (vecRow b) j := by
  subst hd
  have h1 := Cert.Lib.PlainDot.matmul_zero_apply (M := B) (K := K) (N := N) none (truncf .bf16 x hlt)
    (shapeCast ⟨2, ![K, N]⟩ w hw) y j
  rw [addf_apply, bias_entry b hb hbc y j]
  unfold lin
  refine congrArg (· + b (ix2 0 j)) ?_
  refine h1.trans (Finset.sum_congr rfl fun k _ => ?_)
  rw [truncf_apply, shapeCast_self, hx k]

/-- The gate at an entry: v · logistic v at (y, k) is the gate of v's entry there. -/
theorem gate_entry {B N : Nat} {v : FVec Ideal ⟨2, ![B, N]⟩ .f32} {y : Fin B} {k : Fin N} {f : Fin N → EReal}
    (h : v (ix2 y k) = f k) : mulf v (logistic v) (ix2 y k) = act f k := by
  show v (ix2 y k) * Ideal.logistic (v (ix2 y k)) = silu (f k)
  rw [h]
  rfl

/-- Two 2000×512 arrays joined along the columns, read at (y, k): column k of the first for k < 512, column
    k − 512 of the second otherwise: the joined row of the two rows y. -/
theorem cat_entry (a b : FVec Ideal S2000x512 .f32) (hs : S2000x512.ShapeCasts S2000x512)
    (hc : Shape.Concatenates [S2000x512, S2000x512] S2000x1024 1) (y : Fin 2000) (k : Fin 1024) :
    concatenate S2000x1024 1 [⟨S2000x512, a⟩, ⟨S2000x512, shapeCast S2000x512 b hs⟩] hc (ix2 y k)
      = cat2 (rowOf a y) (rowOf b y) k := by
  rw [shapeCast_self]
  unfold cat2
  have hk := k.isLt
  by_cases h : k.val < 512
  · rw [dif_pos h]
    exact concatenate_pair_apply_left (1 : Fin 2) a b hc (ix2 y k) rfl (ix2 y ⟨k.val, h⟩) fun c => by
      match c with
      | ⟨0, _⟩ => rfl
      | ⟨1, _⟩ => rfl
  · rw [dif_neg h]
    exact concatenate_pair_apply_right (1 : Fin 2) a b hc (ix2 y k) rfl rfl (ix2 y ⟨k.val - 512, by omega⟩)
      (fun c hne => by
        match c with
        | ⟨0, _⟩ => rfl
        | ⟨1, _⟩ => exact absurd rfl hne)
      (by show k.val - 512 + 512 = k.val; omega)

/-- The stored value at (y, j): entry j of the node's new row from row y of the two inputs. -/
theorem pay_node (v0 v1 : Vec Ideal S2000x512 .f32) (v5 : Vec Ideal S1024x512 .bf16) (v8 : Vec Ideal S1x512 .f32)
    (v15 : Vec Ideal S512x512 .bf16) (v18 : Vec Ideal S1x512 .f32) (v25 : Vec Ideal S512x512 .bf16)
    (v28 : Vec Ideal S1x512 .f32) (y : Fin 2000) (j : Fin 512) :
    k1_pay1 (F := Ideal) v0 v1 v5 v8 v15 v18 v25 v28 (ix2 y j)
      = node (rowOf v0 y) (rowOf v1 y) (mat v5) (vecRow v8) (mat v15) (vecRow v18) (mat v25) (vecRow v28) j := by
  unfold k1_pay1 node mlp3
  rw [addf_apply]
  refine congrArg (v0 (ix2 y j) + ·) ?_
  -- the third affine map, of the gated second
  refine layer_entry rfl fun k₂ => ?_
  refine gate_entry ?_
  -- the second affine map, of the gated first
  refine layer_entry rfl fun k₁ => ?_
  refine gate_entry ?_
  -- the first affine map, of the joined row
  refine layer_entry rfl fun k₀ => ?_
  exact cat_entry v0 v1 _ _ y k₀

end Cert.KernelIdeal.Body1

end
-- ==== Proof.KRegion1.lean ====
/-
  The node network's region: from the blocks its five grid points read to the output array after the last point.

  The region runs over one axis of five points. Point t reads rows 2000 t … 2000 t + 1999 of the nodes' rows and of
  the summed messages, and the three weight matrices and bias rows whole; it writes rows 2000 t … 2000 t + 1999 of
  the output. What it stores at (y, j) of its block is entry j of the node network's row function applied to row y
  of its two row blocks (the stored value read at an entry). Row y of point t's block is row 2000 t + y of the
  array, so each point writes back its 2000 rows of ONE array G: G (n, j) = entry j of the node network applied to
  row n of the nodes' rows and of the summed messages. The five blocks of 2000 rows fill the 10000 rows (row n is
  point n / 2000's), so after the last point the output array is G.
-/
import proofs.«401646_j12128987644271_1_alg».proof.Proof.Gen.KernelIdeal.Frame
import proofs.«401646_j12128987644271_1_alg».proof.Proof.KBody1
import proofs.«401646_j12128987644271_1_alg».proof.Proof.Spec
import Idealize.ShloMosaic.PureOps.Ideal
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Egnn Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The arrays as the region finds them -/

/-- The nodes' rows, 10000 × 512. -/
abbrev a0 (c : Dev nD) : S10000x512.Idx → EReal := V c (Pipeline.arrRef spec1 0)
/-- The summed messages, one row per node, 10000 × 512. -/
abbrev a1 (c : Dev nD) : S10000x512.Idx → EReal := V c (Pipeline.arrRef spec1 1)
/-- The first affine map's matrix, 1024 × 512. -/
abbrev a2 (c : Dev nD) : S1024x512.Idx → EReal := V c (Pipeline.arrRef spec1 2)
/-- The first affine map's bias row. -/
abbrev a3 (c : Dev nD) : S1x512.Idx → EReal := V c (Pipeline.arrRef spec1 3)
/-- The second affine map's matrix, 512 × 512. -/
abbrev a4 (c : Dev nD) : S512x512.Idx → EReal := V c (Pipeline.arrRef spec1 4)
/-- The second affine map's bias row. -/
abbrev a5 (c : Dev nD) : S1x512.Idx → EReal := V c (Pipeline.arrRef spec1 5)
/-- The third affine map's matrix, 512 × 512. -/
abbrev a6 (c : Dev nD) : S512x512.Idx → EReal := V c (Pipeline.arrRef spec1 6)
/-- The third affine map's bias row. -/
abbrev a7 (c : Dev nD) : S1x512.Idx → EReal := V c (Pipeline.arrRef spec1 7)

/-- The node network over the whole arrays: entry j of node n's new row, from row n of the nodes' rows and of the
    summed messages. -/
def H (c : Dev nD) : Fin 10000 → Fin 512 → EReal := fun n j =>
  node (rowOf (a0 V c) n) (rowOf (a1 V c) n) (mat (a2 V c)) (vecRow (a3 V c)) (mat (a4 V c)) (vecRow (a5 V c))
    (mat (a6 V c)) (vecRow (a7 V c)) j

/-- The same as an array over the output's indices. -/
def G (c : Dev nD) : S10000x512.Idx → EReal := fun i => H V c (i 0) (i 1)

theorem hz : (![0, 0] : Fin 2 → Nat) = fun _ => 0 := funext fun a => by fin_cases a <;> rfl

/-- The block index of every window at grid point t, decided over the five points: the row-blocked windows
    0, 1, 8 are at block (t, 0), the whole-array windows 2 … 7 at block (0, 0); and t is below 5. -/
theorem idx_facts : ∀ t : Fin cfg1.N, t.val < 5
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-! ## Each input block as the array read where the point's rows are -/

/-- Row y of point t's block of the nodes' rows is row 2000 t + y of the array. -/
theorem blk0_apply (c : Dev nD) (t : Fin cfg1.N) (y : Fin 2000) (k : Fin 512) (hy : 2000 * t.val + y.val < 10000) :
    (iblk1 V c 0 t : S2000x512.Idx → EReal) (ix2 y k) = a0 V c (ix2 ⟨2000 * t.val + y.val, hy⟩ k) := by
  obtain ⟨-, e0, e1, -⟩ := idx_facts t
  show V c (Pipeline.arrRef spec1 0) (((cfg1.win 0).blk t).view.emb (ix2 y k)) = _
  refine congrArg _ (funext fun a => Fin.ext ?_)
  match a with
  | ⟨0, _⟩ => show win1_0.index t (0 : Fin 2) * 2000 + 1 * y.val = 2000 * t.val + y.val; rw [e0]; omega
  | ⟨1, _⟩ => show win1_0.index t (1 : Fin 2) * 512 + 1 * k.val = k.val; rw [e1]; omega

/-- Row y of point t's block of the summed messages is row 2000 t + y of the array. -/
theorem blk1_apply (c : Dev nD) (t : Fin cfg1.N) (y : Fin 2000) (k : Fin 512) (hy : 2000 * t.val + y.val < 10000) :
    (iblk1 V c 1 t : S2000x512.Idx → EReal) (ix2 y k) = a1 V c (ix2 ⟨2000 * t.val + y.val, hy⟩ k) := by
  obtain ⟨-, -, -, e0, e1, -⟩ := idx_facts t
  show V c (Pipeline.arrRef spec1 1) (((cfg1.win 1).blk t).view.emb (ix2 y k)) = _
  refine congrArg _ (funext fun a => Fin.ext ?_)
  match a with
  | ⟨0, _⟩ => show win1_1.index t (0 : Fin 2) * 2000 + 1 * y.val = 2000 * t.val + y.val; rw [e0]; omega
  | ⟨1, _⟩ => show win1_1.index t (1 : Fin 2) * 512 + 1 * k.val = k.val; rw [e1]; omega

/-- Every point's block of the first matrix is the whole matrix. -/
theorem blk2_eq (c : Dev nD) (t : Fin cfg1.N) : (iblk1 V c 2 t : S1024x512.Idx → EReal) = a2 V c := by
  obtain ⟨-, -, -, -, -, e0, e1, -⟩ := idx_facts t
  funext idx
  show V c (Pipeline.arrRef spec1 2) (((cfg1.win 2).blk t).view.emb idx) = V c (Pipeline.arrRef spec1 2) idx
  refine congrArg _ (funext fun a => Fin.ext ?_)
  match a with
  | ⟨0, _⟩ => show win1_2.index t (0 : Fin 2) * 1024 + 1 * (idx 0).val = (idx 0).val; rw [e0]; omega
  | ⟨1, _⟩ => show win1_2.index t (1 : Fin 2) * 512 + 1 * (idx 1).val = (idx 1).val; rw [e1]; omega

/-- Every point's block of the first bias row is the whole row. -/
theorem blk3_eq (c : Dev nD) (t : Fin cfg1.N) : (iblk1 V c 3 t : S1x512.Idx → EReal) = a3 V c := by
  obtain ⟨-, -, -, -, -, -, -, e0, e1, -⟩ := idx_facts t
  funext idx
  show V c (Pipeline.arrRef spec1 3) (((cfg1.win 3).blk t).view.emb idx) = V c (Pipeline.arrRef spec1 3) idx
  refine congrArg _ (funext fun a => Fin.ext ?_)
  match a with
  | ⟨0, _⟩ => show win1_3.index t (0 : Fin 2) * 1 + 1 * (idx 0).val = (idx 0).val; rw [e0]; omega
  | ⟨1, _⟩ => show win1_3.index t (1 : Fin 2) * 512 + 1 * (idx 1).val = (idx 1).val; rw [e1]; omega

/-- Every point's block of the second matrix is the whole matrix. -/
theorem blk4_eq (c : Dev nD) (t : Fin cfg1.N) : (iblk1 V c 4 t : S512x512.Idx → EReal) = a4 V c := by
  obtain ⟨-, -, -, -, -, -, -, -, -, e0, e1, -⟩ := idx_facts t
  funext idx
  show V c (Pipeline.arrRef spec1 4) (((cfg1.win 4).blk t).view.emb idx) = V c (Pipeline.arrRef spec1 4) idx
  refine congrArg _ (funext fun a => Fin.ext ?_)
  match a with
  | ⟨0, _⟩ => show win1_4.index t (0 : Fin 2) * 512 + 1 * (idx 0).val = (idx 0).val; rw [e0]; omega
  | ⟨1, _⟩ => show win1_4.index t (1 : Fin 2) * 512 + 1 * (idx 1).val = (idx 1).val; rw [e1]; omega

/-- Every point's block of the second bias row is the whole row. -/
theorem blk5_eq (c : Dev nD) (t : Fin cfg1.N) : (iblk1 V c 5 t : S1x512.Idx → EReal) = a5 V c := by
  obtain ⟨-, -, -, -, -, -, -, -, -, -, -, e0, e1, -⟩ := idx_facts t
  funext idx
  show V c (Pipeline.arrRef spec1 5) (((cfg1.win 5).blk t).view.emb idx) = V c (Pipeline.arrRef spec1 5) idx
  refine congrArg _ (funext fun a => Fin.ext ?_)
  match a with
  | ⟨0, _⟩ => show win1_5.index t (0 : Fin 2) * 1 + 1 * (idx 0).val = (idx 0).val; rw [e0]; omega
  | ⟨1, _⟩ => show win1_5.index t (1 : Fin 2) * 512 + 1 * (idx 1).val = (idx 1).val; rw [e1]; omega

/-- Every point's block of the third matrix is the whole matrix. -/
theorem blk6_eq (c : Dev nD) (t : Fin cfg1.N) : (iblk1 V c 6 t : S512x512.Idx → EReal) = a6 V c := by
  obtain ⟨-, -, -, -, -, -, -, -, -, -, -, -, -, e0, e1, -⟩ := idx_facts t
  funext idx
  show V c (Pipeline.arrRef spec1 6) (((cfg1.win 6).blk t).view.emb idx) = V c (Pipeline.arrRef spec1 6) idx
  refine congrArg _ (funext fun a => Fin.ext ?_)
  match a with
  | ⟨0, _⟩ => show win1_6.index t (0 : Fin 2) * 512 + 1 * (idx 0).val = (idx 0).val; rw [e0]; omega
  | ⟨1, _⟩ => show win1_6.index t (1 : Fin 2) * 512 + 1 * (idx 1).val = (idx 1).val; rw [e1]; omega

/-- Every point's block of the third bias row is the whole row. -/
theorem blk7_eq (c : Dev nD) (t : Fin cfg1.N) : (iblk1 V c 7 t : S1x512.Idx → EReal) = a7 V c := by
  obtain ⟨-, -, -, -, -, -, -, -, -, -, -, -, -, -, -, e0, e1, -⟩ := idx_facts t
  funext idx
  show V c (Pipeline.arrRef spec1 7) (((cfg1.win 7).blk t).view.emb idx) = V c (Pipeline.arrRef spec1 7) idx
  refine congrArg _ (funext fun a => Fin.ext ?_)
  match a with
  | ⟨0, _⟩ => show win1_7.index t (0 : Fin 2) * 1 + 1 * (idx 0).val = (idx 0).val; rw [e0]; omega
  | ⟨1, _⟩ => show win1_7.index t (1 : Fin 2) * 512 + 1 * (idx 1).val = (idx 1).val; rw [e1]; omega

/-- Entry (y, j) of point t's output block sits at (2000 t + y, j) of the output array. -/
theorem emb8 (t : Fin cfg1.N) (y : Fin 2000) (j : Fin 512) (hy : 2000 * t.val + y.val < 10000) :
    ((cfg1.win 8).blk t).view.emb (ix2 y j) = (ix2 ⟨2000 * t.val + y.val, hy⟩ j : S10000x512.Idx) := by
  obtain ⟨-, -, -, -, -, -, -, -, -, -, -, -, -, -, -, -, -, e0, e1⟩ := idx_facts t
  refine funext fun a => Fin.ext ?_
  match a with
  | ⟨0, _⟩ => show win1_8.index t (0 : Fin 2) * 2000 + 1 * y.val = 2000 * t.val + y.val; rw [e0]; omega
  | ⟨1, _⟩ => show win1_8.index t (1 : Fin 2) * 512 + 1 * j.val = j.val; rw [e1]; omega

/-! ## What a point writes back, and the array after the last point -/

/-- Point t writes back block t of G: rows 2000 t … 2000 t + 1999 of the node network over the whole arrays. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S2000x512) hz, View.ld_unit_zero (S := S1024x512) hz,
    View.ld_unit_zero (S := S1x512) hz, View.ld_unit_zero (S := S512x512) hz]
  funext idx
  obtain ⟨y, j, rfl⟩ : ∃ (y : Fin 2000) (j : Fin 512), idx = ix2 y j := ⟨idx 0, idx 1, eq_ix2 idx⟩
  have ht : t.val < 5 := (idx_facts t).1
  have hy : 2000 * t.val + y.val < 10000 := by have := y.isLt; omega
  refine (Body1.pay_node (iblk1 V c 0 t) (iblk1 V c 1 t) (iblk1 V c 2 t) (iblk1 V c 3 t) (iblk1 V c 4 t)
    (iblk1 V c 5 t) (iblk1 V c 6 t) (iblk1 V c 7 t) y j).trans ?_
  have r0 : rowOf (iblk1 V c 0 t) y = rowOf (a0 V c) ⟨2000 * t.val + y.val, hy⟩ :=
    funext fun k => blk0_apply V c t y k hy
  have r1 : rowOf (iblk1 V c 1 t) y = rowOf (a1 V c) ⟨2000 * t.val + y.val, hy⟩ :=
    funext fun k => blk1_apply V c t y k hy
  rw [r0, r1, blk2_eq V c t, blk3_eq V c t, blk4_eq V c t, blk5_eq V c t, blk6_eq V c t, blk7_eq V c t,
    View.read_apply, emb8 t y j hy]
  rfl

/-- An index of the output array is in point t's block iff each coordinate is in the block's range on its axis. -/
theorem mem_blk (t : Fin cfg1.N) (i : S10000x512.Idx) :
    i ∈ ((cfg1.win 8).blk t).view.set ↔ ∀ a : Fin 2, win1_8.index t a * S2000x512.size a ≤ (i a).val
      ∧ (i a).val < win1_8.index t a * S2000x512.size a + S2000x512.size a := by
  show i ∈ ((View.whole main_v62).slice (win1_8.rect t)).set ↔ _
  rw [View.set_slice_whole, Rect.mem_set_unit]
  exact Iff.rfl

/-- Row n of the output array is written by point n / 2000: the five blocks of 2000 rows fill the 10000 rows. -/
theorem cover (i : S10000x512.Idx) :
    ∃ t : Fin cfg1.N, (cfg1.win 8).flush t = true ∧ i ∈ ((cfg1.win 8).blk t).view.set := by
  have hi0 : (i 0).val < 10000 := (i 0).isLt
  have hi1 : (i 1).val < 512 := (i 1).isLt
  obtain ⟨t, ht⟩ : ∃ t : Fin cfg1.N, t.val = (i 0).val / 2000 :=
    ⟨⟨(i 0).val / 2000, by rw [show cfg1.N = 5 from N_1]; omega⟩, rfl⟩
  obtain ⟨-, -, -, -, -, -, -, -, -, -, -, -, -, -, -, -, -, e0, e1⟩ := idx_facts t
  refine ⟨t, flush1_8 t, ?_⟩
  rw [mem_blk]
  intro a
  match a with
  | ⟨0, _⟩ =>
    show win1_8.index t (0 : Fin 2) * 2000 ≤ (i 0).val ∧ (i 0).val < win1_8.index t (0 : Fin 2) * 2000 + 2000
    rw [e0]; omega
  | ⟨1, _⟩ =>
    show win1_8.index t (1 : Fin 2) * 512 ≤ (i 1).val ∧ (i 1).val < win1_8.index t (1 : Fin 2) * 512 + 512
    rw [e1]; omega

/-- The output array after the region's last point: the node network of the input arrays, row by row. -/
theorem final8 (c : Dev nD) : (dat1 V c).arrAt 8 cfg1.N = fun i => H V c (i 0) (i 1) :=
  (dat1 V c).arrAt_eq_of_cover 8 (G V c) (fun t _ => flushed_eq V c t) cover

end Cert.KernelIdeal.Region1

end
-- ==== Proof.RefEdge.lean ====
/-
  The reference program's per-edge stages, read at an entry.

  For an edge `r` the reference joins four rows end to end (the two endpoint rows of 512, the 51 attributes, the
  clipped squared length), applies three affine maps `x ↦ x · Wᵀ + b` (each weight stored output axis first) with
  the gate `x ↦ x · (1 + e^(−x))⁻¹` between them, and obtains the message, a row of 512. From the message two more
  gated affine maps, an inner product with a weight row of 256 and a clip to `[-1, 1]` give one number, by which
  the edge's three coordinate differences are multiplied.

  Each lemma below reads one of these stages at entry `(r, j)` as the specification's function of the previous
  stage's row `r`; the two theorems chain them.
-/
import proofs.«401646_j12128987644271_1_alg».proof.Proof.Gen.ReferenceIdeal.Read
import proofs.«401646_j12128987644271_1_alg».proof.Proof.Spec
import proofs.«401646_j12128987644271_1_alg».proof.Proof.LibPlainDot
import Idealize.ShloMosaic.PureOps.Ideal
import Idealize.ShloMosaic.Lib.IdealHost
import Idealize.ShloMosaic.Lib.ValueIdx
import Idealize.ShloMosaic.Lib.Pipeline.Value

noncomputable section

namespace Cert.ReferenceIdeal.Edge

open Cert.ReferenceIdeal Cert.ReferenceIdeal.Read Cert.Egnn Idealize.ShloMosaic Idealize.ShloMosaic.ValueIdx

/-! ## Indices -/

/-- Two two-axis indices with the same coordinates are equal. -/
theorem idx2_ext {A B : Nat} {f g : (⟨2, ![A, B]⟩ : Shape).Idx}
    (h0 : (f 0).val = (g 0).val) (h1 : (f 1).val = (g 1).val) : f = g :=
  funext fun a => Fin.ext (by
    match a with
    | ⟨0, _⟩ => exact h0
    | ⟨1, _⟩ => exact h1)

/-- Two one-axis indices with the same coordinate are equal. -/
theorem idx1_ext {A : Nat} {f g : (⟨1, ![A]⟩ : Shape).Idx} (h0 : (f 0).val = (g 0).val) : f = g :=
  funext fun a => Fin.ext (by
    match a with
    | ⟨0, _⟩ => exact h0)

/-! ## The gate and the clip, entry by entry -/

/-- `x · (1 / (1 + e^(−x)))`, the one written as its f32 word, is the gate `silu x`. -/
theorem silu_eq (x : Ideal .f32) :
    FloatOps.mulf x (FloatOps.hostDivf (FloatOps.ofBits (F := Ideal) .f32 0x3F800000#32)
        (FloatOps.addf (FloatOps.ofBits (F := Ideal) .f32 0x3F800000#32) (FloatOps.hostUnary .exp (FloatOps.hostNegf x))))
      = silu x := by
  rw [Ideal.mulf_def, Ideal.hostDivf_def, Ideal.addf_def, Ideal.hostUnary_exp_def, Ideal.hostNegf_def, Ideal.negf_def,
    Ideal.ofBits_def, Ideal.ofBits_one_f32]
  rfl

/-- `min hi (max lo x)` with the bounds' f32 words is the clip `clip1 x`. -/
theorem clip_eq (x : Ideal .f32) :
    FloatOps.minimumf (FloatOps.ofBits (F := Ideal) .f32 0x3F800000#32)
        (FloatOps.maximumf (FloatOps.ofBits (F := Ideal) .f32 0xBF800000#32) x)
      = clip1 x := by
  rw [Ideal.minimumf_def, Ideal.maximumf_def, Ideal.ofBits_def, Ideal.ofBits_def]
  rfl

variable (x0 : (⟨S10000x512, .f32⟩ : BufTy).Contents (Elt Ideal)) (x1 : (⟨S2x160000, .i32⟩ : BufTy).Contents (Elt Ideal))
  (x2 : (⟨S160000x51, .f32⟩ : BufTy).Contents (Elt Ideal)) (x3 : (⟨S10000x3, .f32⟩ : BufTy).Contents (Elt Ideal))
  (x4 : (⟨S512x1076, .f32⟩ : BufTy).Contents (Elt Ideal)) (x5 : (⟨S512, .f32⟩ : BufTy).Contents (Elt Ideal))
  (x6 : (⟨S512x512, .f32⟩ : BufTy).Contents (Elt Ideal)) (x7 : (⟨S512, .f32⟩ : BufTy).Contents (Elt Ideal))
  (x8 : (⟨S512x512, .f32⟩ : BufTy).Contents (Elt Ideal)) (x9 : (⟨S512, .f32⟩ : BufTy).Contents (Elt Ideal))
  (x10 : (⟨S256x512, .f32⟩ : BufTy).Contents (Elt Ideal)) (x11 : (⟨S256, .f32⟩ : BufTy).Contents (Elt Ideal))
  (x12 : (⟨S256x256, .f32⟩ : BufTy).Contents (Elt Ideal)) (x13 : (⟨S256, .f32⟩ : BufTy).Contents (Elt Ideal))
  (x14 : (⟨S1x256, .f32⟩ : BufTy).Contents (Elt Ideal))

/-! ## The joined input row -/

/-- Entry `(r, k)` of the joined array is entry `k` of the four rows of edge `r` joined end to end. -/
theorem v42_at (r : Fin 160000) (k : Fin 1076) :
    val_main_v42 (F := Ideal) x0 x1 x2 x3 (ix2 r k)
      = cat4 (rowOf (val_main_v34 (F := Ideal) x0 x1) r) (rowOf (val_main_v41 (F := Ideal) x0 x1) r) (rowOf x2 r)
          (val_main_v22 (F := Ideal) x1 x3 (ix2 r 0)) k := by
  unfold val_main_v42
  generalize val_main_v34 (F := Ideal) x0 x1 = A
  generalize val_main_v41 (F := Ideal) x0 x1 = B
  generalize val_main_v22 (F := Ideal) x1 x3 = D
  have hk := k.isLt
  unfold cat4
  by_cases h1 : k.val < 512
  · -- the first endpoint's row
    rw [dif_pos h1]
    exact concatenate_apply_piece 1 _ _ (ix2 r k) 0 (by show (0 : Nat) < 4; omega) S160000x512 A rfl rfl 0 rfl (ix2 r ⟨k.val, h1⟩)
      (fun b hb => by
        match b with
        | ⟨0, _⟩ => rfl
        | ⟨1, _⟩ => exact absurd rfl hb)
      (by show 0 + k.val = k.val; omega)
  · rw [dif_neg h1]
    by_cases h2 : k.val < 1024
    · -- the second endpoint's row
      rw [dif_pos h2]
      exact concatenate_apply_piece 1 _ _ (ix2 r k) 1 (by show (1 : Nat) < 4; omega) S160000x512 B rfl rfl 512 rfl
        (ix2 r ⟨k.val - 512, by omega⟩)
        (fun b hb => by
          match b with
          | ⟨0, _⟩ => rfl
          | ⟨1, _⟩ => exact absurd rfl hb)
        (by show 512 + (k.val - 512) = k.val; omega)
    · rw [dif_neg h2]
      by_cases h3 : k.val < 1075
      · -- the attributes
        rw [dif_pos h3]
        exact concatenate_apply_piece 1 _ _ (ix2 r k) 2 (by show (2 : Nat) < 4; omega) S160000x51 x2 rfl rfl 1024 rfl
          (ix2 r ⟨k.val - 1024, by omega⟩)
          (fun b hb => by
            match b with
            | ⟨0, _⟩ => rfl
            | ⟨1, _⟩ => exact absurd rfl hb)
          (by show 1024 + (k.val - 1024) = k.val; omega)
      · -- the clipped squared length
        rw [dif_neg h3]
        exact concatenate_apply_piece 1 _ _ (ix2 r k) 3 (by show (3 : Nat) < 4; omega) S160000x1 D rfl rfl 1075 rfl
          (ix2 r 0)
          (fun b hb => by
            match b with
            | ⟨0, _⟩ => rfl
            | ⟨1, _⟩ => exact absurd rfl hb)
          (by show 1075 + 0 = k.val; omega)

/-! ## The message's three affine maps -/

/-- The first affine map: row `r` of the joined array times the transposed weight, plus the bias. -/
theorem v47_at (r : Fin 160000) (j : Fin 512) :
    val_main_v47 (F := Ideal) x0 x1 x2 x3 x4 x5 (ix2 r j)
      = lin (rowOf (val_main_v42 (F := Ideal) x0 x1 x2 x3) r) (matT x4) (vec x5) j := by
  rw [val_main_v47_apply, val_main_v44_apply, val_main_v46_apply, val_main_v45_apply, Ideal.addf_def,
    show idx_main_v45 (idx_main_v46 (ix2 r j)) = ix1 j from idx1_ext rfl]
  show _ = (∑ k : Fin 1076, rowOf (val_main_v42 (F := Ideal) x0 x1 x2 x3) r k * matT x4 k j) + vec x5 j
  refine congrArg (· + x5 (ix1 j)) (Finset.sum_congr rfl fun k _ => ?_)
  rw [val_main_v43_apply, show lidx_main_v44 (ix2 r j) k = ix2 r k from idx2_ext rfl rfl,
    show idx_main_v43 (ridx_main_v44 (ix2 r j) k) = ix2 j k from idx2_ext rfl rfl]

/-- The gate after the first affine map. -/
theorem v48_at (r : Fin 160000) (j : Fin 512) :
    val_main_v48 (F := Ideal) x0 x1 x2 x3 x4 x5 (ix2 r j) = silu (val_main_v47 (F := Ideal) x0 x1 x2 x3 x4 x5 (ix2 r j)) := by
  rw [val_main_v48_apply, val_main_call1_v5_apply, val_main_call1_v4_apply, val_main_call1_cst_0_apply,
    val_main_call1_v3_apply, val_main_call1_v2_apply, val_main_call1_cst_apply, val_main_call1_v1_apply,
    val_main_call1_v0_apply]
  exact silu_eq _

/-- The second affine map. -/
theorem v53_at (r : Fin 160000) (j : Fin 512) :
    val_main_v53 (F := Ideal) x0 x1 x2 x3 x4 x5 x6 x7 (ix2 r j)
      = lin (rowOf (val_main_v48 (F := Ideal) x0 x1 x2 x3 x4 x5) r) (matT x6) (vec x7) j := by
  rw [val_main_v53_apply, val_main_v50_apply, val_main_v52_apply, val_main_v51_apply, Ideal.addf_def,
    show idx_main_v51 (idx_main_v52 (ix2 r j)) = ix1 j from idx1_ext rfl]
  show _ = (∑ k : Fin 512, rowOf (val_main_v48 (F := Ideal) x0 x1 x2 x3 x4 x5) r k * matT x6 k j) + vec x7 j
  refine congrArg (· + x7 (ix1 j)) (Finset.sum_congr rfl fun k _ => ?_)
  rw [val_main_v49_apply, show lidx_main_v50 (ix2 r j) k = ix2 r k from idx2_ext rfl rfl,
    show idx_main_v49 (ridx_main_v50 (ix2 r j) k) = ix2 j k from idx2_ext rfl rfl]

/-- The gate after the second affine map. -/
theorem v54_at (r : Fin 160000) (j : Fin 512) :
    val_main_v54 (F := Ideal) x0 x1 x2 x3 x4 x5 x6 x7 (ix2 r j)
      = silu (val_main_v53 (F := Ideal) x0 x1 x2 x3 x4 x5 x6 x7 (ix2 r j)) := by
  rw [val_main_v54_apply, val_main_call2_v5_apply, val_main_call2_v4_apply, val_main_call2_cst_0_apply,
    val_main_call2_v3_apply, val_main_call2_v2_apply, val_main_call2_cst_apply, val_main_call2_v1_apply,
    val_main_call2_v0_apply]
  exact silu_eq _

/-- The third affine map: the message. -/
theorem v59_at (r : Fin 160000) (j : Fin 512) :
    val_main_v59 (F := Ideal) x0 x1 x2 x3 x4 x5 x6 x7 x8 x9 (ix2 r j)
      = lin (rowOf (val_main_v54 (F := Ideal) x0 x1 x2 x3 x4 x5 x6 x7) r) (matT x8) (vec x9) j := by
  rw [val_main_v59_apply, val_main_v56_apply, val_main_v58_apply, val_main_v57_apply, Ideal.addf_def,
    show idx_main_v57 (idx_main_v58 (ix2 r j)) = ix1 j from idx1_ext rfl]
  show _ = (∑ k : Fin 512, rowOf (val_main_v54 (F := Ideal) x0 x1 x2 x3 x4 x5 x6 x7) r k * matT x8 k j) + vec x9 j
  refine congrArg (· + x9 (ix1 j)) (Finset.sum_congr rfl fun k _ => ?_)
  rw [val_main_v55_apply, show lidx_main_v56 (ix2 r j) k = ix2 r k from idx2_ext rfl rfl,
    show idx_main_v55 (ridx_main_v56 (ix2 r j) k) = ix2 j k from idx2_ext rfl rfl]

/-- **The message.** Entry `(r, j)` of the reference's message array is entry `j` of the specification's message of
    edge `r`'s two endpoint rows, attributes and clipped squared length. -/
theorem ref_msg (r : Fin 160000) (j : Fin 512) :
    val_main_v59 (F := Ideal) x0 x1 x2 x3 x4 x5 x6 x7 x8 x9 (ix2 r j)
      = msg (rowOf (val_main_v34 (F := Ideal) x0 x1) r) (rowOf (val_main_v41 (F := Ideal) x0 x1) r) (rowOf x2 r)
          (val_main_v22 (F := Ideal) x1 x3 (ix2 r 0))
          (matT x4) (vec x5) (matT x6) (vec x7) (matT x8) (vec x9) j := by
  have h42 : rowOf (val_main_v42 (F := Ideal) x0 x1 x2 x3) r
      = cat4 (rowOf (val_main_v34 (F := Ideal) x0 x1) r) (rowOf (val_main_v41 (F := Ideal) x0 x1) r) (rowOf x2 r)
          (val_main_v22 (F := Ideal) x1 x3 (ix2 r 0)) :=
    funext fun k => v42_at x0 x1 x2 x3 r k
  have h48 : rowOf (val_main_v48 (F := Ideal) x0 x1 x2 x3 x4 x5) r
      = act (lin (rowOf (val_main_v42 (F := Ideal) x0 x1 x2 x3) r) (matT x4) (vec x5)) :=
    funext fun k => (v48_at x0 x1 x2 x3 x4 x5 r k).trans (congrArg silu (v47_at x0 x1 x2 x3 x4 x5 r k))
  have h54 : rowOf (val_main_v54 (F := Ideal) x0 x1 x2 x3 x4 x5 x6 x7) r
      = act (lin (rowOf (val_main_v48 (F := Ideal) x0 x1 x2 x3 x4 x5) r) (matT x6) (vec x7)) :=
    funext fun k => (v54_at x0 x1 x2 x3 x4 x5 x6 x7 r k).trans (congrArg silu (v53_at x0 x1 x2 x3 x4 x5 x6 x7 r k))
  rw [v59_at, h54, h48, h42]
  rfl

/-! ## The gate number and the scaled coordinate differences -/

/-- The gate network's first affine map, of the message row. -/
theorem v64_at (r : Fin 160000) (j : Fin 256) :
    val_main_v64 (F := Ideal) x0 x1 x2 x3 x4 x5 x6 x7 x8 x9 x10 x11 (ix2 r j)
      = lin (rowOf (val_main_v59 (F := Ideal) x0 x1 x2 x3 x4 x5 x6 x7 x8 x9) r) (matT x10) (vec x11) j := by
  rw [val_main_v64_apply, val_main_v61_apply, val_main_v63_apply, val_main_v62_apply, Ideal.addf_def,
    show idx_main_v62 (idx_main_v63 (ix2 r j)) = ix1 j from idx1_ext rfl]
  show _ = (∑ k : Fin 512, rowOf (val_main_v59 (F := Ideal) x0 x1 x2 x3 x4 x5 x6 x7 x8 x9) r k * matT x10 k j) + vec x11 j
  refine congrArg (· + x11 (ix1 j)) (Finset.sum_congr rfl fun k _ => ?_)
  rw [val_main_v60_apply, show lidx_main_v61 (ix2 r j) k = ix2 r k from idx2_ext rfl rfl,
    show idx_main_v60 (ridx_main_v61 (ix2 r j) k) = ix2 j k from idx2_ext rfl rfl]

/-- The gate after it. -/
theorem v65_at (r : Fin 160000) (j : Fin 256) :
    val_main_v65 (F := Ideal) x0 x1 x2 x3 x4 x5 x6 x7 x8 x9 x10 x11 (ix2 r j)
      = silu (val_main_v64 (F := Ideal) x0 x1 x2 x3 x4 x5 x6 x7 x8 x9 x10 x11 (ix2 r j)) := by
  rw [val_main_v65_apply, val_main_call3_v5_apply, val_main_call3_v4_apply, val_main_call3_cst_0_apply,
    val_main_call3_v3_apply, val_main_call3_v2_apply, val_main_call3_cst_apply, val_main_call3_v1_apply,
    val_main_call3_v0_apply]
  exact silu_eq _

/-- The gate network's second affine map. -/
theorem v70_at (r : Fin 160000) (j : Fin 256) :
    val_main_v70 (F := Ideal) x0 x1 x2 x3 x4 x5 x6 x7 x8 x9 x10 x11 x12 x13 (ix2 r j)
      = lin (rowOf (val_main_v65 (F := Ideal) x0 x1 x2 x3 x4 x5 x6 x7 x8 x9 x10 x11) r) (matT x12) (vec x13) j := by
  rw [val_main_v70_apply, val_main_v67_apply, val_main_v69_apply, val_main_v68_apply, Ideal.addf_def,
    show idx_main_v68 (idx_main_v69 (ix2 r j)) = ix1 j from idx1_ext rfl]
  show _ = (∑ k : Fin 256, rowOf (val_main_v65 (F := Ideal) x0 x1 x2 x3 x4 x5 x6 x7 x8 x9 x10 x11) r k * matT x12 k j)
    + vec x13 j
  refine congrArg (· + x13 (ix1 j)) (Finset.sum_congr rfl fun k _ => ?_)
  rw [val_main_v66_apply, show lidx_main_v67 (ix2 r j) k = ix2 r k from idx2_ext rfl rfl,
    show idx_main_v66 (ridx_main_v67 (ix2 r j) k) = ix2 j k from idx2_ext rfl rfl]

/-- The gate after it. -/
theorem v71_at (r : Fin 160000) (j : Fin 256) :
    val_main_v71 (F := Ideal) x0 x1 x2 x3 x4 x5 x6 x7 x8 x9 x10 x11 x12 x13 (ix2 r j)
      = silu (val_main_v70 (F := Ideal) x0 x1 x2 x3 x4 x5 x6 x7 x8 x9 x10 x11 x12 x13 (ix2 r j)) := by
  rw [val_main_v71_apply, val_main_call4_v5_apply, val_main_call4_v4_apply, val_main_call4_cst_0_apply,
    val_main_call4_v3_apply, val_main_call4_v2_apply, val_main_call4_cst_apply, val_main_call4_v1_apply,
    val_main_call4_v0_apply]
  exact silu_eq _

/-- The inner product of the gated row with the last weight row. -/
theorem v73_at (r : Fin 160000) :
    val_main_v73 (F := Ideal) x0 x1 x2 x3 x4 x5 x6 x7 x8 x9 x10 x11 x12 x13 x14 (ix2 r 0)
      = dot (rowOf (val_main_v71 (F := Ideal) x0 x1 x2 x3 x4 x5 x6 x7 x8 x9 x10 x11 x12 x13) r) (rowOf x14 0) := by
  rw [val_main_v73_apply]
  show _ = ∑ k : Fin 256, rowOf (val_main_v71 (F := Ideal) x0 x1 x2 x3 x4 x5 x6 x7 x8 x9 x10 x11 x12 x13) r k * rowOf x14 0 k
  refine Finset.sum_congr rfl fun k _ => ?_
  rw [val_main_v72_apply, show lidx_main_v73 (ix2 r 0) k = ix2 r k from idx2_ext rfl rfl,
    show idx_main_v72 (ridx_main_v73 (ix2 r 0) k) = ix2 0 k from idx2_ext rfl rfl]

/-- The clip of that inner product. -/
theorem v74_at (r : Fin 160000) :
    val_main_v74 (F := Ideal) x0 x1 x2 x3 x4 x5 x6 x7 x8 x9 x10 x11 x12 x13 x14 (ix2 r 0)
      = clip1 (val_main_v73 (F := Ideal) x0 x1 x2 x3 x4 x5 x6 x7 x8 x9 x10 x11 x12 x13 x14 (ix2 r 0)) := by
  rw [val_main_v74_apply, val_main_call5_v4_apply, val_main_call5_v3_apply, val_main_cst_11_apply,
    val_main_call5_v2_apply, val_main_call5_v1_apply, val_main_call5_v0_apply, val_main_cst_10_apply]
  exact clip_eq _

/-- **The scaled coordinate differences.** Entry `(r, a)` of the reference's product is the edge's coordinate
    difference `a` times the specification's gate number of the edge's message row. -/
theorem ref_trans (r : Fin 160000) (a : Fin 3) :
    val_main_v76 (F := Ideal) x0 x1 x2 x3 x4 x5 x6 x7 x8 x9 x10 x11 x12 x13 x14 (ix2 r a)
      = val_main_v27 (F := Ideal) x1 x3 (ix2 r a)
        * gate (rowOf (val_main_v59 (F := Ideal) x0 x1 x2 x3 x4 x5 x6 x7 x8 x9) r) (matT x10) (vec x11) (matT x12) (vec x13)
            (rowOf x14 0) := by
  have h65 : rowOf (val_main_v65 (F := Ideal) x0 x1 x2 x3 x4 x5 x6 x7 x8 x9 x10 x11) r
      = act (lin (rowOf (val_main_v59 (F := Ideal) x0 x1 x2 x3 x4 x5 x6 x7 x8 x9) r) (matT x10) (vec x11)) :=
    funext fun k => (v65_at x0 x1 x2 x3 x4 x5 x6 x7 x8 x9 x10 x11 r k).trans
      (congrArg silu (v64_at x0 x1 x2 x3 x4 x5 x6 x7 x8 x9 x10 x11 r k))
  have h71 : rowOf (val_main_v71 (F := Ideal) x0 x1 x2 x3 x4 x5 x6 x7 x8 x9 x10 x11 x12 x13) r
      = act (lin (rowOf (val_main_v65 (F := Ideal) x0 x1 x2 x3 x4 x5 x6 x7 x8 x9 x10 x11) r) (matT x12) (vec x13)) :=
    funext fun k => (v71_at x0 x1 x2 x3 x4 x5 x6 x7 x8 x9 x10 x11 x12 x13 r k).trans
      (congrArg silu (v70_at x0 x1 x2 x3 x4 x5 x6 x7 x8 x9 x10 x11 x12 x13 r k))
  rw [val_main_v76_apply, val_main_v75_apply, Ideal.mulf_def,
    show idx_main_v75 (ix2 r a) = ix2 r 0 from idx2_ext rfl rfl, v74_at, v73_at, h71, h65]
  rfl

end Cert.ReferenceIdeal.Edge

end
-- ==== Proof.RefNode.lean ====
/-
  The reference program's per-node stage, read at an entry.

  For a node n the reference forms the row [h n, agg n] of 1024 numbers (h n the node's own row, agg n row n of the
  scattered sum of messages), applies three affine maps x ↦ x · Wᵀ + b whose weights are stored output axis first,
  with the gate x ↦ x · (1 / (1 + e^(−x))) between them, and adds h n. Entry (n, j) of the result is entry j of
  the specification's node applied to the two rows.
-/
import proofs.«401646_j12128987644271_1_alg».proof.Proof.Gen.ReferenceIdeal.Read
import proofs.«401646_j12128987644271_1_alg».proof.Proof.Spec
import proofs.«401646_j12128987644271_1_alg».proof.Proof.LibPlainDot
import Idealize.ShloMosaic.PureOps.Ideal
import Idealize.ShloMosaic.Lib.IdealHost
import Idealize.ShloMosaic.Lib.ValueIdx
import Idealize.ShloMosaic.Lib.Pipeline.Value

noncomputable section

namespace Cert.ReferenceIdeal.Node

open Cert.ReferenceIdeal Cert.ReferenceIdeal.Read Cert.Egnn Idealize.ShloMosaic Idealize.ShloMosaic.ValueIdx

/-- The gate as the reference spells it, x · (1 / (1 + e^(−x))) with both ones the f32 word of one, is the
    specification's gate. -/
theorem silu_spelt (x : EReal) :
    FloatOps.mulf (F := Ideal) (φ := .f32) x
        (FloatOps.hostDivf (FloatOps.ofBits .f32 0x3F800000#32)
          (FloatOps.addf (FloatOps.ofBits .f32 0x3F800000#32) (FloatOps.hostUnary .exp (FloatOps.hostNegf x))))
      = silu x := by
  rw [Ideal.mulf_def, Ideal.hostDivf_def, Ideal.addf_def, Ideal.hostUnary_exp_def, Ideal.hostNegf_def, Ideal.negf_def,
    Ideal.ofBits_def, Ideal.ofBits_one_f32]
  rfl

variable (x0 : (⟨S10000x512, .f32⟩ : BufTy).Contents (Elt Ideal)) (x1 : (⟨S2x160000, .i32⟩ : BufTy).Contents (Elt Ideal))
  (x2 : (⟨S160000x51, .f32⟩ : BufTy).Contents (Elt Ideal)) (x3 : (⟨S10000x3, .f32⟩ : BufTy).Contents (Elt Ideal))
  (x4 : (⟨S512x1076, .f32⟩ : BufTy).Contents (Elt Ideal)) (x5 : (⟨S512, .f32⟩ : BufTy).Contents (Elt Ideal))
  (x6 : (⟨S512x512, .f32⟩ : BufTy).Contents (Elt Ideal)) (x7 : (⟨S512, .f32⟩ : BufTy).Contents (Elt Ideal))
  (x8 : (⟨S512x512, .f32⟩ : BufTy).Contents (Elt Ideal)) (x9 : (⟨S512, .f32⟩ : BufTy).Contents (Elt Ideal))
  (x15 : (⟨S512x1024, .f32⟩ : BufTy).Contents (Elt Ideal)) (x16 : (⟨S512, .f32⟩ : BufTy).Contents (Elt Ideal))
  (x17 : (⟨S512x512, .f32⟩ : BufTy).Contents (Elt Ideal)) (x18 : (⟨S512, .f32⟩ : BufTy).Contents (Elt Ideal))
  (x19 : (⟨S512x512, .f32⟩ : BufTy).Contents (Elt Ideal)) (x20 : (⟨S512, .f32⟩ : BufTy).Contents (Elt Ideal))

/-- Row n of the joined array is the node's row followed by row n of the scattered sum. -/
theorem joined_apply (n : Fin 10000) (k : Fin 1024) :
    val_main_v94 (F := Ideal) x0 x1 x2 x3 x4 x5 x6 x7 x8 x9 (ix2 n k)
      = cat2 (rowOf x0 n) (rowOf (val_main_v93 (F := Ideal) x0 x1 x2 x3 x4 x5 x6 x7 x8 x9) n) k := by
  unfold val_main_v94
  generalize val_main_v93 (F := Ideal) x0 x1 x2 x3 x4 x5 x6 x7 x8 x9 = y
  unfold cat2
  by_cases h : k.val < 512
  · rw [dif_pos h]
    exact concatenate_pair_apply_left 1 x0 y _ (ix2 n k) rfl (ix2 n ⟨k.val, h⟩)
      (fun b => match b with | ⟨0, _⟩ => rfl | ⟨1, _⟩ => rfl)
  · rw [dif_neg h]
    exact concatenate_pair_apply_right 1 x0 y _ (ix2 n k) rfl rfl (ix2 n ⟨k.val - 512, by omega⟩)
      (fun b => match b with | ⟨0, _⟩ => fun _ => rfl | ⟨1, _⟩ => fun hb => absurd rfl hb)
      (by show (k.val - 512) + 512 = k.val; omega)

/-- The first affine map: entry (n, j) is Σₖ [h n, agg n]ₖ · w₀(j, k) + b₀(j). -/
theorem lin0_apply (n : Fin 10000) (j : Fin 512) :
    val_main_v99 (F := Ideal) x0 x1 x2 x3 x4 x5 x6 x7 x8 x9 x15 x16 (ix2 n j)
      = lin (cat2 (rowOf x0 n) (rowOf (val_main_v93 (F := Ideal) x0 x1 x2 x3 x4 x5 x6 x7 x8 x9) n)) (matT x15) (vec x16) j := by
  rw [val_main_v99_apply, val_main_v96_apply, val_main_v98_apply, val_main_v97_apply, Ideal.addf_def]
  unfold lin
  have eb : idx_main_v97 (idx_main_v98 (ix2 n j)) = ix1 j :=
    funext fun a => Fin.ext (by match a with | ⟨0, _⟩ => rfl)
  rw [eb]
  refine congrArg (· + x16 (ix1 j)) (Finset.sum_congr rfl fun k _ => ?_)
  have el : lidx_main_v96 (ix2 n j) k = ix2 n k :=
    funext fun a => Fin.ext (by match a with | ⟨0, _⟩ => rfl | ⟨1, _⟩ => rfl)
  have er : idx_main_v95 (ridx_main_v96 (ix2 n j) k) = ix2 j k :=
    funext fun a => Fin.ext (by match a with | ⟨0, _⟩ => rfl | ⟨1, _⟩ => rfl)
  rw [el, joined_apply, val_main_v95_apply, er]

/-- The gate after the first affine map. -/
theorem act0_apply (i : S10000x512.Idx) :
    val_main_v100 (F := Ideal) x0 x1 x2 x3 x4 x5 x6 x7 x8 x9 x15 x16 i
      = silu (val_main_v99 (F := Ideal) x0 x1 x2 x3 x4 x5 x6 x7 x8 x9 x15 x16 i) := by
  rw [val_main_v100_apply, val_main_call6_v5_apply, val_main_call6_v4_apply, val_main_call6_cst_0_apply,
    val_main_call6_v3_apply, val_main_call6_v2_apply, val_main_call6_cst_apply, val_main_call6_v1_apply,
    val_main_call6_v0_apply]
  exact silu_spelt _

/-- The second affine map: entry (n, j) is Σₖ y(n, k) · w₁(j, k) + b₁(j), y the gated first layer. -/
theorem lin1_apply (n : Fin 10000) (j : Fin 512) :
    val_main_v105 (F := Ideal) x0 x1 x2 x3 x4 x5 x6 x7 x8 x9 x15 x16 x17 x18 (ix2 n j)
      = lin (rowOf (val_main_v100 (F := Ideal) x0 x1 x2 x3 x4 x5 x6 x7 x8 x9 x15 x16) n) (matT x17) (vec x18) j := by
  rw [val_main_v105_apply, val_main_v102_apply, val_main_v104_apply, val_main_v103_apply, Ideal.addf_def]
  unfold lin
  have eb : idx_main_v103 (idx_main_v104 (ix2 n j)) = ix1 j :=
    funext fun a => Fin.ext (by match a with | ⟨0, _⟩ => rfl)
  rw [eb]
  refine congrArg (· + x18 (ix1 j)) (Finset.sum_congr rfl fun k _ => ?_)
  have el : lidx_main_v102 (ix2 n j) k = ix2 n k :=
    funext fun a => Fin.ext (by match a with | ⟨0, _⟩ => rfl | ⟨1, _⟩ => rfl)
  have er : idx_main_v101 (ridx_main_v102 (ix2 n j) k) = ix2 j k :=
    funext fun a => Fin.ext (by match a with | ⟨0, _⟩ => rfl | ⟨1, _⟩ => rfl)
  rw [el, val_main_v101_apply, er]

/-- The gate after the second affine map. -/
theorem act1_apply (i : S10000x512.Idx) :
    val_main_v106 (F := Ideal) x0 x1 x2 x3 x4 x5 x6 x7 x8 x9 x15 x16 x17 x18 i
      = silu (val_main_v105 (F := Ideal) x0 x1 x2 x3 x4 x5 x6 x7 x8 x9 x15 x16 x17 x18 i) := by
  rw [val_main_v106_apply, val_main_call7_v5_apply, val_main_call7_v4_apply, val_main_call7_cst_0_apply,
    val_main_call7_v3_apply, val_main_call7_v2_apply, val_main_call7_cst_apply, val_main_call7_v1_apply,
    val_main_call7_v0_apply]
  exact silu_spelt _

/-- The third affine map: entry (n, j) is Σₖ z(n, k) · w₂(j, k) + b₂(j), z the gated second layer. -/
theorem lin2_apply (n : Fin 10000) (j : Fin 512) :
    val_main_v111 (F := Ideal) x0 x1 x2 x3 x4 x5 x6 x7 x8 x9 x15 x16 x17 x18 x19 x20 (ix2 n j)
      = lin (rowOf (val_main_v106 (F := Ideal) x0 x1 x2 x3 x4 x5 x6 x7 x8 x9 x15 x16 x17 x18) n) (matT x19) (vec x20) j := by
  rw [val_main_v111_apply, val_main_v108_apply, val_main_v110_apply, val_main_v109_apply, Ideal.addf_def]
  unfold lin
  have eb : idx_main_v109 (idx_main_v110 (ix2 n j)) = ix1 j :=
    funext fun a => Fin.ext (by match a with | ⟨0, _⟩ => rfl)
  rw [eb]
  refine congrArg (· + x20 (ix1 j)) (Finset.sum_congr rfl fun k _ => ?_)
  have el : lidx_main_v108 (ix2 n j) k = ix2 n k :=
    funext fun a => Fin.ext (by match a with | ⟨0, _⟩ => rfl | ⟨1, _⟩ => rfl)
  have er : idx_main_v107 (ridx_main_v108 (ix2 n j) k) = ix2 j k :=
    funext fun a => Fin.ext (by match a with | ⟨0, _⟩ => rfl | ⟨1, _⟩ => rfl)
  rw [el, val_main_v107_apply, er]

/-- Entry (n, j) of the reference's new node array is entry j of the specification's node map applied to the
    node's row and row n of the scattered sum. -/
theorem ref_node (n : Fin 10000) (j : Fin 512) :
    val_main_v112 (F := Ideal) x0 x1 x2 x3 x4 x5 x6 x7 x8 x9 x15 x16 x17 x18 x19 x20 (ix2 n j)
      = node (rowOf x0 n) (rowOf (val_main_v93 (F := Ideal) x0 x1 x2 x3 x4 x5 x6 x7 x8 x9) n)
          (matT x15) (vec x16) (matT x17) (vec x18) (matT x19) (vec x20) j := by
  rw [val_main_v112_apply, Ideal.addf_def, lin2_apply]
  unfold node mlp3
  have e1 : rowOf (val_main_v106 (F := Ideal) x0 x1 x2 x3 x4 x5 x6 x7 x8 x9 x15 x16 x17 x18) n
      = act (lin (rowOf (val_main_v100 (F := Ideal) x0 x1 x2 x3 x4 x5 x6 x7 x8 x9 x15 x16) n) (matT x17) (vec x18)) :=
    funext fun k => by
      show val_main_v106 (F := Ideal) x0 x1 x2 x3 x4 x5 x6 x7 x8 x9 x15 x16 x17 x18 (ix2 n k) = silu _
      rw [act1_apply, lin1_apply]
  have e0 : rowOf (val_main_v100 (F := Ideal) x0 x1 x2 x3 x4 x5 x6 x7 x8 x9 x15 x16) n
      = act (lin (cat2 (rowOf x0 n) (rowOf (val_main_v93 (F := Ideal) x0 x1 x2 x3 x4 x5 x6 x7 x8 x9) n)) (matT x15) (vec x16)) :=
    funext fun k => by
      show val_main_v100 (F := Ideal) x0 x1 x2 x3 x4 x5 x6 x7 x8 x9 x15 x16 (ix2 n k) = silu _
      rw [act0_apply, lin0_apply]
  rw [e1, e0]

end Cert.ReferenceIdeal.Node

end
-- ==== Proof.Bridge.lean ====
/-
  The kernel program's arrays against the reference's stages.

  What the first region finds in its sixteen input arrays is the reference's stage of the same meaning (the gathered
  rows, the attributes, the clipped squared lengths, the normalised differences) or, for a weight, the launch
  argument read with its two axes exchanged; so the region's two outputs are the reference's message array and its
  gated differences, edge by edge. The two scatter-adds then sum equal arrays at equal positions, and the second
  region, fed the same node rows and the same sums, leaves the reference's new rows.
-/
import proofs.«401646_j12128987644271_1_alg».proof.Proof.KData
import proofs.«401646_j12128987644271_1_alg».proof.Proof.KHost1
import proofs.«401646_j12128987644271_1_alg».proof.Proof.KWeights
import proofs.«401646_j12128987644271_1_alg».proof.Proof.KRegion0
import proofs.«401646_j12128987644271_1_alg».proof.Proof.KRegion1
import proofs.«401646_j12128987644271_1_alg».proof.Proof.RefEdge
import proofs.«401646_j12128987644271_1_alg».proof.Proof.RefNode

set_option maxRecDepth 16384

noncomputable section

namespace Cert.Bridge

open Cert.KernelIdeal Cert.KernelIdeal.Gen Cert.Egnn Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- Every endpoint in the table, read as a signed number, lies in [-10000, 10000): what the condition on the inputs says. -/
abbrev InRange : Prop := ∀ e : S2x160000.Idx,
  -10000 ≤ ((m ((c : Thread nD τ).loc main_arg1) : IVec S2x160000 32) e).toInt ∧ ((m ((c : Thread nD τ).loc main_arg1) : IVec S2x160000 32) e).toInt < 10000

/-! ## What the first region finds -/

theorem in_hRow (hr : InRange m c) : Region0.hRow (V8 m ρ) c = Cert.ReferenceIdeal.Read.val_main_v34 (F := Ideal) (m ((c : Thread nD τ).loc main_arg0)) (m ((c : Thread nD τ).loc main_arg1)) := (Data.W8_v4 m ρ c).trans (Data.hrow_eq m ρ c hr).symm
theorem in_hCol (hr : InRange m c) : Region0.hCol (V8 m ρ) c = Cert.ReferenceIdeal.Read.val_main_v41 (F := Ideal) (m ((c : Thread nD τ).loc main_arg0)) (m ((c : Thread nD τ).loc main_arg1)) := (Data.W8_v5 m ρ c).trans (Data.hcol_eq m ρ c hr).symm
theorem in_attr : Region0.attr (V8 m ρ) c = (m ((c : Thread nD τ).loc main_arg2)) := Data.W8_arg2 m ρ c
theorem in_dist2 (hr : InRange m c) : Region0.dist2 (V8 m ρ) c = Cert.ReferenceIdeal.Read.val_main_v22 (F := Ideal) (m ((c : Thread nD τ).loc main_arg1)) (m ((c : Thread nD τ).loc main_arg3)) := (Data.W8_v12 m ρ c).trans (Data.dist2_eq m ρ c hr).symm
theorem in_diff (hr : InRange m c) : Region0.diff (V8 m ρ) c = Cert.ReferenceIdeal.Read.val_main_v27 (F := Ideal) (m ((c : Thread nD τ).loc main_arg1)) (m ((c : Thread nD τ).loc main_arg3)) := (Data.unit_eq m ρ c hr).symm
theorem in_w0 : mat (Region0.w0 (V8 m ρ) c) = matT (m ((c : Thread nD τ).loc main_arg4) : S512x1076.Idx → EReal) := funext fun k => funext fun j => Weights.w_v19 m ρ c k j
theorem in_b0 : vecRow (Region0.b0 (V8 m ρ) c) = vec (m ((c : Thread nD τ).loc main_arg5) : S512.Idx → EReal) := funext fun j => Weights.w_v20 m ρ c j
theorem in_w1 : mat (Region0.w1 (V8 m ρ) c) = matT (m ((c : Thread nD τ).loc main_arg6) : S512x512.Idx → EReal) := funext fun k => funext fun j => Weights.w_v22 m ρ c k j
theorem in_b1 : vecRow (Region0.b1 (V8 m ρ) c) = vec (m ((c : Thread nD τ).loc main_arg7) : S512.Idx → EReal) := funext fun j => Weights.w_v23 m ρ c j
theorem in_w2 : mat (Region0.w2 (V8 m ρ) c) = matT (m ((c : Thread nD τ).loc main_arg8) : S512x512.Idx → EReal) := funext fun k => funext fun j => Weights.w_v25 m ρ c k j
theorem in_b2 : vecRow (Region0.b2 (V8 m ρ) c) = vec (m ((c : Thread nD τ).loc main_arg9) : S512.Idx → EReal) := funext fun j => Weights.w_v26 m ρ c j
theorem in_g0 : mat (Region0.g0 (V8 m ρ) c) = matT (m ((c : Thread nD τ).loc main_arg10) : S256x512.Idx → EReal) := funext fun k => funext fun j => Weights.w_v28 m ρ c k j
theorem in_c0 : vecRow (Region0.c0 (V8 m ρ) c) = vec (m ((c : Thread nD τ).loc main_arg11) : S256.Idx → EReal) := funext fun j => Weights.w_v29 m ρ c j
theorem in_g1 : mat (Region0.g1 (V8 m ρ) c) = matT (m ((c : Thread nD τ).loc main_arg12) : S256x256.Idx → EReal) := funext fun k => funext fun j => Weights.w_v31 m ρ c k j
theorem in_c1 : vecRow (Region0.c1 (V8 m ρ) c) = vec (m ((c : Thread nD τ).loc main_arg13) : S256.Idx → EReal) := funext fun j => Weights.w_v32 m ρ c j
theorem in_g2 : vecCol (Region0.g2 (V8 m ρ) c) = rowOf (m ((c : Thread nD τ).loc main_arg14) : S1x256.Idx → EReal) 0 := funext fun k => Weights.w_v34 m ρ c k

/-! ## The first region's outputs are the reference's message array and gated differences -/

/-- Edge r's message, entry j. -/
theorem msg_at (hr : InRange m c) (r : Fin 160000) (j : Fin 512) : Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r j) = Region0.E (V8 m ρ) c r j := by
  rw [Cert.ReferenceIdeal.Edge.ref_msg]
  unfold Region0.E
  rw [in_hRow m ρ c hr, in_hCol m ρ c hr, in_attr m ρ c, in_dist2 m ρ c hr, in_w0 m ρ c, in_b0 m ρ c, in_w1 m ρ c, in_b1 m ρ c,
    in_w2 m ρ c, in_b2 m ρ c]

theorem msgs_eq (hr : InRange m c) : Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = W9 m ρ c (Proc.devRef .tc main_v35_0) := by
  rw [← Host1.W9_msgs m ρ c, Region0.final16]
  funext i
  obtain ⟨r, j, rfl⟩ : ∃ (r : Fin 160000) (j : Fin 512), i = ix2 r j := ⟨i 0, i 1, eq_ix2 i⟩
  exact msg_at m ρ c hr r j

/-- Edge r's gated difference, coordinate a. -/
theorem trans_at (hr : InRange m c) (r : Fin 160000) (a : Fin 3) : Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 r a) = Region0.T (V8 m ρ) c r a := by
  rw [Cert.ReferenceIdeal.Edge.ref_trans]
  unfold Region0.T
  have hE : rowOf (Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) r = Region0.E (V8 m ρ) c r := funext fun j => msg_at m ρ c hr r j
  rw [hE, in_diff m ρ c hr, in_g0 m ρ c, in_c0 m ρ c, in_g1 m ρ c, in_c1 m ρ c, in_g2 m ρ c]

theorem transs_eq (hr : InRange m c) : Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) = W9 m ρ c (Proc.devRef .tc main_v35_1) := by
  rw [← Host1.W9_trans m ρ c, Region0.final17]
  funext i
  obtain ⟨r, a, rfl⟩ : ∃ (r : Fin 160000) (a : Fin 3), i = ix2 r a := ⟨i 0, i 1, eq_ix2 i⟩
  exact trans_at m ρ c hr r a

/-! ## The two scatter-adds and the new positions -/

theorem agg_eq (hr : InRange m c) : Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = W10 m ρ c (Proc.devRef .tc main_v43) := by
  rw [← Host1.agg_eq m ρ c, ← msgs_eq m ρ c hr, Host1.W9_v1 m ρ c, ← Data.row_eq m ρ c]
  rfl

theorem posnew_eq (hr : InRange m c) : Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) = W11 m ρ c (Proc.devRef .tc main_v52) := by
  rw [← Host1.W11_posnew m ρ c, ← Host1.posnew_eq m ρ c, ← transs_eq m ρ c hr, Host1.W9_v1 m ρ c, ← Data.row_eq m ρ c,
    ← Host1.W9_arg3 m ρ c]
  rfl

/-! ## What the second region finds, and its output -/

theorem in_a0 : Region1.a0 (V10 m ρ) c = (m ((c : Thread nD τ).loc main_arg0)) := (Host1.W10_arg0 m ρ c).symm
theorem in_a1 (hr : InRange m c) : Region1.a1 (V10 m ρ) c = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (agg_eq m ρ c hr).symm
theorem in_a2 : mat (Region1.a2 (V10 m ρ) c) = matT (m ((c : Thread nD τ).loc main_arg15) : S512x1024.Idx → EReal) := funext fun k => funext fun j => Weights.w_v54 m ρ c k j
theorem in_a3 : vecRow (Region1.a3 (V10 m ρ) c) = vec (m ((c : Thread nD τ).loc main_arg16) : S512.Idx → EReal) := funext fun j => Weights.w_v55 m ρ c j
theorem in_a4 : mat (Region1.a4 (V10 m ρ) c) = matT (m ((c : Thread nD τ).loc main_arg17) : S512x512.Idx → EReal) := funext fun k => funext fun j => Weights.w_v57 m ρ c k j
theorem in_a5 : vecRow (Region1.a5 (V10 m ρ) c) = vec (m ((c : Thread nD τ).loc main_arg18) : S512.Idx → EReal) := funext fun j => Weights.w_v58 m ρ c j
theorem in_a6 : mat (Region1.a6 (V10 m ρ) c) = matT (m ((c : Thread nD τ).loc main_arg19) : S512x512.Idx → EReal) := funext fun k => funext fun j => Weights.w_v60 m ρ c k j
theorem in_a7 : vecRow (Region1.a7 (V10 m ρ) c) = vec (m ((c : Thread nD τ).loc main_arg20) : S512.Idx → EReal) := funext fun j => Weights.w_v61 m ρ c j

/-- Node n's new row, entry j. -/
theorem node_at (hr : InRange m c) (n : Fin 10000) (j : Fin 512) : Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (ix2 n j) = Region1.H (V10 m ρ) c n j := by
  rw [Cert.ReferenceIdeal.Node.ref_node]
  unfold Region1.H
  rw [in_a0 m ρ c, in_a1 m ρ c hr, in_a2 m ρ c, in_a3 m ρ c, in_a4 m ρ c, in_a5 m ρ c, in_a6 m ρ c, in_a7 m ρ c]

theorem hnew_eq (hr : InRange m c) : Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) = W11 m ρ c (Proc.devRef .tc main_v62) := by
  rw [← Host1.W11_hnew m ρ c, Region1.final8]
  funext i
  obtain ⟨n, j, rfl⟩ : ∃ (n : Fin 10000) (j : Fin 512), i = ix2 n j := ⟨i 0, i 1, eq_ix2 i⟩
  exact node_at m ρ c hr n j

end Cert.Bridge

end
-- ==== Proof.lean ====
/-
  One layer of an equivariant graph network, computed two ways, is one function of its inputs.

  For a graph with 10000 nodes and 160000 edges both programs take node rows h (512 numbers each), positions, edge
  attributes, a [2, 160000] table of edge endpoints and the weights of three small networks, and return new node rows
  and new positions. For every edge e with endpoints (row e, col e):
      d e   = pos (row e) − pos (col e),   s e = clip (|d e|², 1e-8, 100),   u e = d e / (√(s e) + 1e-8),
      msg e = L₂ (σ (L₁ (σ (L₀ [h (row e), h (col e), attr e, s e])))),   g e = clip (⟨σ (C₁ (σ (C₀ (msg e)))), c₂⟩, −1, 1),
  and for every node n, with the sums over the edges whose row is n:
      pos' n = pos n + Σ u e · g e,       h' n = h n + N₂ (σ (N₁ (σ (N₀ [h n, Σ msg e])))),
  where each L, C, N is an affine map of a row, σ is x ↦ x · (1 + e^(−x))⁻¹ entry by entry and [·,·] joins rows.

  The reference does all of it on whole arrays. The kernel program does the gathers, the lengths, the scatter-adds and
  pos' on whole arrays too, and runs the edge networks over blocks of 2000 edges and the node network over blocks of
  2000 nodes, its weights stored with the two axes exchanged and passed through a narrower float format. Over the
  extended reals a change of float format is the identity and a sum does not depend on how it is blocked, so every
  array of the kernel program is the reference's array of the same meaning. One difference is real: reading a row of
  a table at a position outside it, the reference takes the nearest row and the kernel program a row of a fill value.
  The stated condition on the inputs keeps every endpoint in [−10000, 10000): a negative endpoint is first moved up
  by 10000 in both programs, so every row read is inside the table and the two reads agree.

  The three frames are the generated frame certificates (the reference's is its generated run with the results
  dropped); nothing was rewritten when the kernel program was idealised, so that conjunct is trivial.
-/
import proofs.«401646_j12128987644271_1_alg».proof.Defs
import proofs.«401646_j12128987644271_1_alg».proof.Proof.Gen.Kernel.Frame
import proofs.«401646_j12128987644271_1_alg».proof.Proof.Gen.KernelIdeal.Frame
import proofs.«401646_j12128987644271_1_alg».proof.Proof.Gen.ReferenceIdeal.Run
import proofs.«401646_j12128987644271_1_alg».proof.Proof.Gen.ReferenceIdeal.Read
import proofs.«401646_j12128987644271_1_alg».proof.Proof.Gen.Pre_finite_inputs
import proofs.«401646_j12128987644271_1_alg».proof.Proof.KernelRun
import proofs.«401646_j12128987644271_1_alg».proof.Proof.IndexRange
import proofs.«401646_j12128987644271_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the same new node rows and the same new positions: the kernel program's run with its two
    result arrays named, the reference's run, and array by array the equality of what they hold. -/
theorem algebraic : Cert.algebraic_KernelIdeal_ReferenceIdeal := by
  intro m ρ m' ρ' hpre hagree
  have hr : ∀ c : Dev Cert.KernelIdeal.nD, ∀ e : Cert.KernelIdeal.S2x160000.Idx,
      -10000 ≤ ((m ((c : Thread Cert.KernelIdeal.nD Cert.KernelIdeal.τ).loc Cert.KernelIdeal.main_arg1) : IVec Cert.KernelIdeal.S2x160000 32) e).toInt
        ∧ ((m ((c : Thread Cert.KernelIdeal.nD Cert.KernelIdeal.τ).loc Cert.KernelIdeal.main_arg1) : IVec Cert.KernelIdeal.S2x160000 32) e).toInt < 10000 :=
    fun c => Cert.IndexRange.range_of_pre _ _ _ _ _ _ _ _ _ _ _ _ _ _ _ _ _ _ _ _ _ (hpre c)
  refine ⟨fun c => Cert.KernelIdeal.Gen.W11 m ρ c (Proc.devRef .tc Cert.KernelIdeal.main_v62),
    fun c => Cert.KernelIdeal.Gen.W11 m ρ c (Proc.devRef .tc Cert.KernelIdeal.main_v52),
    Cert.KernelIdeal.Gen.run_named (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v112_eq]
    obtain ⟨e0, e1, e2, e3, e4, e5, e6, e7, e8, e9, e10, e11, e12, e13, e14, e15, e16, e17, e18, e19, e20⟩ := hagree c
    rw [e0, e1, e2, e3, e4, e5, e6, e7, e8, e9, e15, e16, e17, e18, e19, e20]
    exact Cert.Bridge.hnew_eq m ρ c (hr c)
  · rw [Cert.ReferenceIdeal.Read.val_main_v85_eq]
    obtain ⟨e0, e1, e2, e3, e4, e5, e6, e7, e8, e9, e10, e11, e12, e13, e14, e15, e16, e17, e18, e19, e20⟩ := hagree c
    rw [e0, e1, e2, e3, e4, e5, e6, e7, e8, e9, e10, e11, e12, e13, e14]
    exact Cert.Bridge.posnew_eq m ρ c (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
